-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1 : S_.BroadcastsInDim S1 (![] : Fin 0 → Fin S1.rank)
  reducesTo_S1_S_d0 : S1.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩
abbrev S1x128 : Shape := ⟨2, ![1, 128]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩
abbrev S512x4096 : Shape := ⟨2, ![512, 4096]⟩
abbrev S512 : Shape := ⟨1, ![512]⟩
abbrev S512x1 : Shape := ⟨2, ![512, 1]⟩

abbrev nBuf : Space → Nat
  | .hbm => 53
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S1, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S4096x4096, .f32⟩
  | .hbm, ⟨37, _⟩ => ⟨S4096x4096, .bf16⟩
  | .hbm, ⟨38, _⟩ => ⟨S1x4096, .f32⟩
  | .hbm, ⟨39, _⟩ => ⟨S1x4096, .f32⟩
  | .hbm, ⟨40, _⟩ => ⟨S1x1, .f32⟩
  | .hbm, ⟨41, _⟩ => ⟨S1x128, .f32⟩
  | .hbm, ⟨42, _⟩ => ⟨S8192x4096, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S1x128, .f32⟩
  | .hbm, ⟨51, _⟩ => ⟨S8192x4096, .f32⟩
  | .hbm, ⟨52, _⟩ => ⟨S1, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S512x4096, .f32⟩
  | .local _ .vmem, ⟨12, _⟩ => ⟨S512x4096, .f32⟩
  | .local _ .vmem, ⟨13, _⟩ => ⟨S1x1, .f32⟩
  | .local _ .vmem, ⟨14, _⟩ => ⟨S1x1, .f32⟩
  | .local _ .vmem, ⟨15, _⟩ => ⟨S256x4096, .f32⟩
  | .local _ .vmem, ⟨16, _⟩ => ⟨S256x4096, .f32⟩
  | .local _ .vmem, ⟨17, _⟩ => ⟨S1x128, .f32⟩
  | .local _ .vmem, ⟨18, _⟩ => ⟨S256x4096, .f32⟩
  | .local _ .vmem, ⟨19, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_7 : BitVec 32 := 0#32
  let v16 : BitVec 1 := Scalar.cmpi .ne v15 c0_i32_7
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S1_S4096_0 : S1.BroadcastsInDim S4096 (![0] : Fin 1 → Fin S4096.rank)
  bcast_S_S1 : S_.BroadcastsInDim S1 (![] : Fin 0 → Fin S1.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  shapeCasts_S1_S1x1 : S1.ShapeCasts S1x1
  bcast_S1x1_S1x128_0_1 : S1x1.BroadcastsInDim S1x128 (![0, 1] : Fin 2 → Fin S1x128.rank)
  inb_S1x128_S1x1_0_0 : ∀ a, (![0, 0] : Fin 2 → Nat) a + S1x1.size a ≤ S1x128.size a
  h_S1x1 : 0 < S1x1.numel
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  inb_S1x1_S1x1_0_0 : ∀ a, (![0, 0] : Fin 2 → Nat) a + S1x1.size a ≤ S1x1.size a
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  bcast_S_S1x1 : S_.BroadcastsInDim S1x1 (![] : Fin 0 → Fin S1x1.rank)
  shapeCasts_S256x4096_S256x4096 : S256x4096.ShapeCasts S256x4096
  shapeCasts_S1x1_S1 : S1x1.ShapeCasts S1
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x4096.size a
  hwx0_5 : ∀ i : grid0.Coords, EltTy.bits .f32 = 32 ∨ (Rect.block (s := S8192x4096) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S8192x4096.size a
  hwx2_2 : ∀ i : grid2.Coords, EltTy.bits .f32 = 32 ∨ (Rect.block (s := S8192x4096) S256x4096.size (cc2_transform_2 i) (hinb2_2 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v26) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S256x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1 : Shape := ⟨2, ![1, 1]⟩
abbrev S1x4096 : Shape := ⟨2, ![1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S1x1, .f32⟩
  | .hbm, ⟨38, _⟩ => ⟨S8192x4096, .f32⟩
  | .hbm, ⟨39, _⟩ => ⟨S8192x4096, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call3_cst : Ref sig .tc := ⟨.hbm, 48, rfl⟩
abbrev main_call3_v0 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_cst_11 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_call6_v3 : Ref sig .tc := ⟨.hbm, 79, rfl⟩
abbrev main_call6_v4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S1_S4096_0 : S1.BroadcastsInDim S4096 (![0] : Fin 1 → Fin S4096.rank)
  bcast_S1_S1x1_1 : S1.BroadcastsInDim S1x1 (![1] : Fin 1 → Fin S1x1.rank)
  bcast_S1x1_S8192x4096_0_1 : S1x1.BroadcastsInDim S8192x4096 (![0, 1] : Fin 2 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S_d0_1 : S8192x4096.ReducesTo [0, 1] S_
  shapeCasts_S_S1 : S_.ShapeCasts S1
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KB.Run.lean ====
import proofs.«124374_j73735998538084_1_alg».proof.Proof.Gen.Kernel.Launch
import proofs.«124374_j73735998538084_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of every core, read at the TensorCore's references. -/
abbrev Vals (F : FTy → Type) : Type := (c : Dev nD) → (b : Ref sig .tc) → Buf (Elt F) ((c : Thread nD τ).loc b)

variable (F) in
/-- What a region's proof data must satisfy for the run below, stated at ANY entry contents `V`: the windows'
    arrays are read off `V`, every input array is held whole, the body owes nothing at any point and bounds no
    recorded pair at the first, the body obligation holds at every point, and the invariant at the two ends is the
    class invariant (the scoped buffers no window stages, and the generator register). -/
structure RegionData (cfg : Pipeline.Cfg sig Λ₀) where
  dat : Vals F → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hΦin : ∀ V c, (Pipeline.ΦA cfg.spec c : sProp 𝕄) ⊢ (dat V c).Φ 0
  hΦout : ∀ V c, (dat V c).Φ (Fin.last cfg.N) ⊢ (Pipeline.ΦA cfg.spec c : sProp 𝕄)

variable (m : (ℓ : Loc nD τ sig) → Buf (Elt F) ℓ) (ρ : Dev nD → PrngReg)
variable (D0 : RegionData F cfg0) (D1 : RegionData F cfg1) (D2 : RegionData F cfg2)

/-! # The buffer contents at each segment boundary: a fold through @main

Twelve segments: seven host stretches, region 0, region 1 directly behind it, a host stretch, region 2, a host
stretch. A host stretch changes the contents as its operations compute (`StableHlo.after`); a region changes its
windows' arrays only, to what the write-backs of all its points leave (`Dat.arrAt … N`), every other buffer as
entered (`Pipeline.withArrays`). -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6` (region 0's entry). -/
abbrev W7 : Dev nD → Valuation τ sig (Elt F) := fun c => StableHlo.after hostOps0_6 (W6 m ρ c)
/-- The same read at the TensorCore's references (what region 0's proof data take). -/
abbrev V7 : Vals F := fun c b => W7 m ρ c b

/-- At region 0's exit, which is region 1's entry: region 0's arrays at what its pipeline leaves (the inputs as
    entered, each output's write-backs folded), every other buffer as entered. -/
def W8 (c : Dev nD) : Valuation τ sig (Elt F) :=
  Pipeline.withArrays spec0 c (W7 m ρ c) fun w => (D0.dat (V7 m ρ) c).arrAt w cfg0.N
theorem W8_arr (c : Dev nD) (w : Fin cfg0.W) :
    W8 m ρ D0 c (Proc.devRef .tc (Pipeline.arrRef spec0 w)) = (D0.dat (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ D0 c (Proc.devRef .tc b) = W7 m ρ c (Proc.devRef .tc b) := by
  unfold W8; exact Pipeline.withArrays_of_ne spec0 c _ _ b hb
/-- The same read at the TensorCore's references (region 0's exit contents, what region 1's proof data take). -/
abbrev V8 : Vals F := fun c b => W8 m ρ D0 c b
theorem hF0 (c : Dev nD) (w : Fin cfg0.W) : (D0.dat (V7 m ρ) c).arrAt w cfg0.N = V8 m ρ D0 c (Pipeline.arrRef spec0 w) :=
  (W8_arr m ρ D0 c w).symm
theorem hrest0 (c : Dev nD) : ∀ b, b ∉ Finset.univ.image (Pipeline.arrRef spec0) → V8 m ρ D0 c b = V7 m ρ c b :=
  fun b hb => W8_of_ne m ρ D0 c b fun w e => hb (Finset.mem_image.mpr ⟨w, Finset.mem_univ _, e⟩)

/-- At region 1's exit: region 1's arrays at what its pipeline leaves, every other buffer as entered. -/
def W9 (c : Dev nD) : Valuation τ sig (Elt F) :=
  Pipeline.withArrays spec1 c (W8 m ρ D0 c) fun w => (D1.dat (V8 m ρ D0) c).arrAt w cfg1.N
theorem W9_arr (c : Dev nD) (w : Fin cfg1.W) :
    W9 m ρ D0 D1 c (Proc.devRef .tc (Pipeline.arrRef spec1 w)) = (D1.dat (V8 m ρ D0) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ D0 D1 c (Proc.devRef .tc b) = W8 m ρ D0 c (Proc.devRef .tc b) := by
  unfold W9; exact Pipeline.withArrays_of_ne spec1 c _ _ b hb
/-- The same read at the TensorCore's references (region 1's exit contents). -/
abbrev V9 : Vals F := fun c b => W9 m ρ D0 D1 c b
theorem hF1 (c : Dev nD) (w : Fin cfg1.W) : (D1.dat (V8 m ρ D0) c).arrAt w cfg1.N = V9 m ρ D0 D1 c (Pipeline.arrRef spec1 w) :=
  (W9_arr m ρ D0 D1 c w).symm
theorem hrest1 (c : Dev nD) : ∀ b, b ∉ Finset.univ.image (Pipeline.arrRef spec1) → V9 m ρ D0 D1 c b = V8 m ρ D0 c b :=
  fun b hb => W9_of_ne m ρ D0 D1 c b fun w e => hb (Finset.mem_image.mpr ⟨w, Finset.mem_univ _, e⟩)

/-- After `hostOps2` (region 2's entry). -/
abbrev W10 : Dev nD → Valuation τ sig (Elt F) := fun c => StableHlo.after hostOps2 (W9 m ρ D0 D1 c)
/-- The same read at the TensorCore's references (what region 2's proof data take). -/
abbrev V10 : Vals F := fun c b => W10 m ρ D0 D1 c b

/-- At region 2's exit: region 2's arrays at what its pipeline leaves, every other buffer as entered. -/
def W11 (c : Dev nD) : Valuation τ sig (Elt F) :=
  Pipeline.withArrays spec2 c (W10 m ρ D0 D1 c) fun w => (D2.dat (V10 m ρ D0 D1) c).arrAt w cfg2.N
theorem W11_arr (c : Dev nD) (w : Fin cfg2.W) :
    W11 m ρ D0 D1 D2 c (Proc.devRef .tc (Pipeline.arrRef spec2 w)) = (D2.dat (V10 m ρ D0 D1) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ D0 D1 D2 c (Proc.devRef .tc b) = W10 m ρ D0 D1 c (Proc.devRef .tc b) := by
  unfold W11; exact Pipeline.withArrays_of_ne spec2 c _ _ b hb
/-- The same read at the TensorCore's references (region 2's exit contents). -/
abbrev V11 : Vals F := fun c b => W11 m ρ D0 D1 D2 c b
theorem hF2 (c : Dev nD) (w : Fin cfg2.W) : (D2.dat (V10 m ρ D0 D1) c).arrAt w cfg2.N = V11 m ρ D0 D1 D2 c (Pipeline.arrRef spec2 w) :=
  (W11_arr m ρ D0 D1 D2 c w).symm
theorem hrest2 (c : Dev nD) : ∀ b, b ∉ Finset.univ.image (Pipeline.arrRef spec2) → V11 m ρ D0 D1 D2 c b = V10 m ρ D0 D1 c b :=
  fun b hb => W11_of_ne m ρ D0 D1 D2 c b fun w e => hb (Finset.mem_image.mpr ⟨w, Finset.mem_univ _, e⟩)

/-- After `hostOps3`: the contents @main returns with. -/
abbrev W12 : Dev nD → Valuation τ sig (Elt F) := fun c => StableHlo.after hostOps3 (W11 m ρ D0 D1 D2 c)

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => D0.dat (V7 m ρ) c
  | ⟨1, _⟩ => fun c => D1.dat (V8 m ρ D0) c
  | ⟨2, _⟩ => fun c => D2.dat (V10 m ρ D0 D1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ D0 D1 D2 c) ∗ ∃ r, prngReg c r)

set_option backward.isDefEq.respectTransparency.types false in
/-- REGION 0 over the thread state: entered from every unscoped buffer at `W7`, left at `W8`. Its
    arrays are split out of the unscoped buffers at entry and put back at the exit contents; the generator register
    goes into the class invariant and comes out; nothing is owed; the kernel has no semaphore of its own. -/
def reg0 : Pipeline.RegionSeg (pcfgs (F := F)) adm (pdats m ρ D0 D1 D2) () defs₀ 𝒱₀ L lv 0 where
  win := launch0.win.to₀
  block_pos := launch0.block_pos
  stage_whole := launch0.stage_whole
  K := PEmpty
  osem k := k.elim
  ho := Pipeline.OwnSemFacts.none _
  hbody c := (D0.hbody (V7 m ρ) c).loose
  hwaits := Pipeline.hwaits_of_owed_zero _ _ _ _ L lv 0 fun c t => D0.howed (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ D0 D1 D2) launch0.win launch0.arr_whole c
      ((pdats m ρ D0 D1 D2 0 c).share_full fun w => D0.hq (V7 m ρ) c w) (V7 m ρ c) fun w => D0.hA (V7 m ρ) c w
    rw [Pipeline.unscopedBufs_held] at hsplit
    have ho : (pdats m ρ D0 D1 D2 0 c).owed 0 = 0 := D0.howed (V7 m ρ) c 0
    have hr : (pdats m ρ D0 D1 D2 0 c).recorded 0 = Set.univ := D0.hrec (V7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D0.hΦin (V7 m ρ) c)
    unfold Pipeline.ΦA
    iintro ⟨Hp, -, Hr⟩
    isplitl [Hr]; · iexact Hr
    iexact Hp
  hout c := by
    rw [Pipeline.ownSems0_none]
    refine BIBase.Entails.trans (D0.hΦout (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2) ((pdats m ρ D0 D1 D2 0 c).share_full fun w => D0.hq (V7 m ρ) c w)
      (V7 m ρ c) (V8 m ρ D0 c) ((pdats m ρ D0 D1 D2 0 c).arrAt · cfg0.N) (hF0 m ρ D0 c) (hrest0 m ρ D0 c)
    rw [Pipeline.unscopedBufs_held] at hjoin
    have ho : (pdats m ρ D0 D1 D2 0 c).owed (Fin.last _) = 0 := D0.howed (V7 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- REGION 1 over the thread state: entered from every unscoped buffer at `W8`, left at `W9`. Its
    arrays are split out of the unscoped buffers at entry and put back at the exit contents; the generator register
    goes into the class invariant and comes out; nothing is owed; the kernel has no semaphore of its own. -/
def reg1 : Pipeline.RegionSeg (pcfgs (F := F)) adm (pdats m ρ D0 D1 D2) () defs₀ 𝒱₀ L lv 1 where
  win := launch1.win.to₀
  block_pos := launch1.block_pos
  stage_whole := launch1.stage_whole
  K := PEmpty
  osem k := k.elim
  ho := Pipeline.OwnSemFacts.none _
  hbody c := (D1.hbody (V8 m ρ D0) c).loose
  hwaits := Pipeline.hwaits_of_owed_zero _ _ _ _ L lv 1 fun c t => D1.howed (V8 m ρ D0) c t
  pre c := iprop(StableHlo.held (c : Thread nD τ) (Pipeline.ucRefs τ sig) (W8 m ρ D0 c) ∗ R c)
  post c := iprop(StableHlo.held (c : Thread nD τ) (Pipeline.ucRefs τ sig) (W9 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V8 m ρ D0 c)
  hentry c := by
    rw [Pipeline.ownSems0_none]
    have hsplit := Pipeline.arrays_of_unscopedBufs (p := 1) (pcfgs (F := F)) adm (pdats m ρ D0 D1 D2) launch1.win launch1.arr_whole c
      ((pdats m ρ D0 D1 D2 1 c).share_full fun w => D1.hq (V8 m ρ D0) c w) (V8 m ρ D0 c) fun w => D1.hA (V8 m ρ D0) c w
    rw [Pipeline.unscopedBufs_held] at hsplit
    have ho : (pdats m ρ D0 D1 D2 1 c).owed 0 = 0 := D1.howed (V8 m ρ D0) c 0
    have hr : (pdats m ρ D0 D1 D2 1 c).recorded 0 = Set.univ := D1.hrec (V8 m ρ D0) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D1.hΦin (V8 m ρ D0) c)
    unfold Pipeline.ΦA
    iintro ⟨Hp, -, Hr⟩
    isplitl [Hr]; · iexact Hr
    iexact Hp
  hout c := by
    rw [Pipeline.ownSems0_none]
    refine BIBase.Entails.trans (D1.hΦout (V8 m ρ D0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2) ((pdats m ρ D0 D1 D2 1 c).share_full fun w => D1.hq (V8 m ρ D0) c w)
      (V8 m ρ D0 c) (V9 m ρ D0 D1 c) ((pdats m ρ D0 D1 D2 1 c).arrAt · cfg1.N) (hF1 m ρ D0 D1 c) (hrest1 m ρ D0 D1 c)
    rw [Pipeline.unscopedBufs_held] at hjoin
    have ho : (pdats m ρ D0 D1 D2 1 c).owed (Fin.last _) = 0 := D1.howed (V8 m ρ D0) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- REGION 2 over the thread state: entered from every unscoped buffer at `W10`, left at `W11`. Its
    arrays are split out of the unscoped buffers at entry and put back at the exit contents; the generator register
    goes into the class invariant and comes out; nothing is owed; the kernel has no semaphore of its own. -/
def reg2 : Pipeline.RegionSeg (pcfgs (F := F)) adm (pdats m ρ D0 D1 D2) () defs₀ 𝒱₀ L lv 2 where
  win := launch2.win.to₀
  block_pos := launch2.block_pos
  stage_whole := launch2.stage_whole
  K := PEmpty
  osem k := k.elim
  ho := Pipeline.OwnSemFacts.none _
  hbody c := (D2.hbody (V10 m ρ D0 D1) c).loose
  hwaits := Pipeline.hwaits_of_owed_zero _ _ _ _ L lv 2 fun c t => D2.howed (V10 m ρ D0 D1) c t
  pre c := iprop(StableHlo.held (c : Thread nD τ) (Pipeline.ucRefs τ sig) (W10 m ρ D0 D1 c) ∗ R c)
  post c := iprop(StableHlo.held (c : Thread nD τ) (Pipeline.ucRefs τ sig) (W11 m ρ D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (V10 m ρ D0 D1 c)
  hentry c := by
    rw [Pipeline.ownSems0_none]
    have hsplit := Pipeline.arrays_of_unscopedBufs (p := 2) (pcfgs (F := F)) adm (pdats m ρ D0 D1 D2) launch2.win launch2.arr_whole c
      ((pdats m ρ D0 D1 D2 2 c).share_full fun w => D2.hq (V10 m ρ D0 D1) c w) (V10 m ρ D0 D1 c) fun w => D2.hA (V10 m ρ D0 D1) c w
    rw [Pipeline.unscopedBufs_held] at hsplit
    have ho : (pdats m ρ D0 D1 D2 2 c).owed 0 = 0 := D2.howed (V10 m ρ D0 D1) c 0
    have hr : (pdats m ρ D0 D1 D2 2 c).recorded 0 = Set.univ := D2.hrec (V10 m ρ D0 D1) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D2.hΦin (V10 m ρ D0 D1) c)
    unfold Pipeline.ΦA
    iintro ⟨Hp, -, Hr⟩
    isplitl [Hr]; · iexact Hr
    iexact Hp
  hout c := by
    rw [Pipeline.ownSems0_none]
    refine BIBase.Entails.trans (D2.hΦout (V10 m ρ D0 D1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2) ((pdats m ρ D0 D1 D2 2 c).share_full fun w => D2.hq (V10 m ρ D0 D1) c w)
      (V10 m ρ D0 D1 c) (V11 m ρ D0 D1 D2 c) ((pdats m ρ D0 D1 D2 2 c).arrAt · cfg2.N) (hF2 m ρ D0 D1 D2 c) (hrest2 m ρ D0 D1 D2 c)
    rw [Pipeline.unscopedBufs_held] at hjoin
    have ho : (pdats m ρ D0 D1 D2 2 c).owed (Fin.last _) = 0 := D2.howed (V10 m ρ D0 D1) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! # @main as segments, and the launch -/

/-- @main's twelve segments in order: a host segment per stretch from its boundary's contents, a region per
    pallas_call. -/
abbrev segs : List (Pipeline.Seg (pcfgs (F := F)) adm (pdats m ρ D0 D1 D2) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ D0 D1 D2),
    .region (reg1 m ρ D0 D1 D2),
    .host (hseg hostOps2 hostOps2_sub hostOps2_fresh (W9 m ρ D0 D1)),
    .region (reg2 m ρ D0 D1 D2),
    .host (hseg hostOps3 hostOps3_sub hostOps3_fresh (W11 m ρ D0 D1 D2)) ]
/-- @main IS the run of the segments: it is the chain of its items, and the segments' run is the same chain. -/
theorem main_run (c : Dev nD) : main (F := F) c = Pipeline.Seg.run (segs m ρ D0 D1 D2) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W12`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m ρ D0 D1 D2 c b) :=
  Pipeline.θ_run_regions_kit (pcfgs (F := F)) adm (pdats m ρ D0 D1 D2) () cellOf_inj emb₁ defs₀ 𝒱₀ L lv m ρ main (segs m ρ D0 D1 D2)
    (fun c Q => by rw [main_run m ρ D0 D1 D2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ D0 D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ D0 D1 D2 c) s')
      isplitl [Hh] <;> iassumption)
    (hQ := fun s h c => h c)

end Cert.Kernel.Hand

end
-- ==== Proof.KB.R0Body.lean ====
/- Region 0 of the program: the matmul–bias–relu kernel (pipeline 0, a 32×4 grid of 128 points, six windows)
    at a PARAMETER `V`, the buffer contents of each core when the region is entered. Per window its block at a
    point; for the five input windows, that the current staging buffer holds the block whether or not it was
    fetched at the point; the contents the body's one store leaves in the output window's staging buffer as a
    closed function of the five input blocks; the body's triple; the pipeline's proof data and its body
    obligation. -/
import proofs.«124374_j73735998538084_1_alg».proof.Proof.Gen.Kernel.Launch
import proofs.«124374_j73735998538084_1_alg».proof.Proof.Gen.Kernel.Skeleton
import proofs.«124374_j73735998538084_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! ## The windows' blocks -/

/-- Window `w`'s block at point `t`, read off its array as the region finds it (`V`). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's staging buffer

For ANY proof data whose array is `V`'s (`hA`) and whose body leaves the block in place (`hafter`), an input
window's current staging buffer holds its block at every point, fetched there or not: where it is not fetched
its block index has not moved since the point before. No window of this pipeline is cut and none is ever idle.
The activation rows (window 0) are fetched only when the row-tile index moves, one point in four, and the
inverse activation scale (window 4) at the first point only; the three per-column operands at every point. -/

/-- Window 0, the 256×4096 block of activation rows. -/
theorem xBefore_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Window 1, the 4096×1024 block of weight columns. -/
theorem wBefore_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Window 2, the 1×1024 block of the per-column output scale. -/
theorem bsfBefore_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Window 3, the 1×1024 block of the per-column integer bias. -/
theorem bintBefore_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Window 4, the 1×128 row that carries the inverse activation scale in its first entry. -/
theorem invBefore_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's accesses -/

/-- The whole 256×4096 activation buffer. -/
abbrev rX : Rect S256x4096 := Rect.unit (s := S256x4096) ![0, 0] S256x4096.size inb_S256x4096_S256x4096_0_0
/-- The whole 4096×1024 weight buffer. -/
abbrev rW : Rect S4096x1024 := Rect.unit (s := S4096x1024) ![0, 0] S4096x1024.size inb_S4096x1024_S4096x1024_0_0
/-- A whole 1×1024 row buffer (the scale's and the bias's). -/
abbrev rRow : Rect S1x1024 := Rect.unit (s := S1x1024) ![0, 0] S1x1024.size inb_S1x1024_S1x1024_0_0
/-- The 1×1 corner of the 1×128 row: the entry that holds the inverse activation scale. -/
abbrev rInv : Rect S1x128 := Rect.unit (s := S1x128) ![0, 0] S1x1.size inb_S1x128_S1x1_0_0
/-- The whole 256×1024 output buffer. -/
abbrev rO : Rect S256x1024 := Rect.unit (s := S256x1024) ![0, 0] S256x1024.size inb_S256x1024_S256x1024_0_0

/-! ## What the body leaves in the output window's buffer -/

/-- The output window's staging buffer after the body, from the five input blocks: its one store, over the whole
    buffer, of relu((bf16(x · inv) ⬝ w + bint) · bsf), as a single covering piece. `x0` the activation rows,
    `x1` the weight columns, `x2` the scale row, `x3` the bias row, `x4` the row holding the inverse scale. -/
def mmOut (x0 : Vec F S256x4096 .f32) (x1 : Vec F S4096x1024 .bf16) (x2 : Vec F S1x1024 .f32) (x3 : Vec F S1x1024 .f32)
    (x4 : Vec F S1x128 .f32) : Vec F S256x1024 .f32 :=
  View.canon [⟨rO, k0_pay1 (View.ld x4 rInv) (View.ld x0 rX) (View.ld x1 rW) (View.ld x3 rRow) (View.ld x2 rRow)⟩]

/-- The one store is over the whole buffer, so it covers it. -/
theorem mmCover (p0 : Vec F S256x1024 .f32) (y : S256x1024.Idx) :
    ∃ pc ∈ ([⟨rO, p0⟩] : List (View.Piece (Elt F) S256x1024 .f32)), y ∈ pc.1.set :=
  View.cover_of_tiled [⟨rO, p0⟩] S256x1024.size (by rfl) y

/-! ## The body's triple -/

set_option maxHeartbeats 1000000 in
/-- The kernel body on whole staging memrefs, the five inputs' at read contents `x0 … x4` and the output's at
    anything, runs to the continuation holding the inputs' as they were and the output's at `mmOut` of the inputs':
    five loads through literal rectangles, a load of the output buffer whose value is dropped, and the one store over
    the whole output buffer. The grid coordinates `i` are not read. -/
theorem mm_kernel_sound (c : Dev nD) (E : Set ℕ) (i : grid0.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x128 .f32) (harg6 : arg6.IsWhole) (arg7 : Memref sig .tc .vmem S256x1024 .f32) (harg7 : arg7.IsWhole)
    (x0 : Vec F S256x4096 .f32) (x1 : Vec F S4096x1024 .bf16) (x2 : Vec F S1x1024 .f32) (x3 : Vec F S1x1024 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (mmOut x0 x1 x2 x3 x4)) -∗ K ⟨⟩))
      ⊢ wp frame (wpE (defs₀ (F := F)) Variants.none c none) E
          (cc0__matmul_bias_relu_kernel i arg2 harg2 arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

/-! ## The pipeline's proof data -/

/-- The proof data of pipeline 0 on core `c`: the arrays as the region finds them (`V`); after the body at point
    `t` each input's buffer at its block and the output's at `mmOut` of the five input blocks; the invariant the
    scoped rest and the generator register, untouched; nothing owed; full shares. -/
def mmDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => mmOut (blk0 V c 0 t) (blk0 V c 1 t) (blk0 V c 2 t) (blk0 V c 3 t) (blk0 V c 4 t)
  Φ _ := Pipeline.ΦA spec0 c
  q _ := fullShare
  owed _ := 0

/-- The proof data's arrays are the region-entry contents (the definition projected). -/
theorem mmDat_A (c : Dev nD) (w : Fin cfg0.W) : (mmDat V c).A w = V c (Pipeline.arrRef spec0 w) := by
  dsimp only [mmDat]

/-- What the body leaves, window by window (the definition's case split reduced at each literal window). -/
theorem mmAfter_x (c : Dev nD) (t : Fin cfg0.N) : (mmDat V c).after 0 t = blk0 V c 0 t := by dsimp only [mmDat]
theorem mmAfter_w (c : Dev nD) (t : Fin cfg0.N) : (mmDat V c).after 1 t = blk0 V c 1 t := by dsimp only [mmDat]
theorem mmAfter_bsf (c : Dev nD) (t : Fin cfg0.N) : (mmDat V c).after 2 t = blk0 V c 2 t := by dsimp only [mmDat]
theorem mmAfter_bint (c : Dev nD) (t : Fin cfg0.N) : (mmDat V c).after 3 t = blk0 V c 3 t := by dsimp only [mmDat]
theorem mmAfter_inv (c : Dev nD) (t : Fin cfg0.N) : (mmDat V c).after 4 t = blk0 V c 4 t := by dsimp only [mmDat]

/-- The five inputs' buffers are left at their blocks. -/
theorem mmDat_after_in (c : Dev nD) (t : Fin cfg0.N) :
    (mmDat V c).after 0 t = blk0 V c 0 t ∧ (mmDat V c).after 1 t = blk0 V c 1 t ∧ (mmDat V c).after 2 t = blk0 V c 2 t
      ∧ (mmDat V c).after 3 t = blk0 V c 3 t ∧ (mmDat V c).after 4 t = blk0 V c 4 t :=
  ⟨mmAfter_x V c t, mmAfter_w V c t, mmAfter_bsf V c t, mmAfter_bint V c t, mmAfter_inv V c t⟩

/-- The output's buffer is left at `mmOut` of the five input blocks. -/
theorem mmDat_after_out (c : Dev nD) (t : Fin cfg0.N) :
    (mmDat V c).after 5 t = mmOut (blk0 V c 0 t) (blk0 V c 1 t) (blk0 V c 2 t) (blk0 V c 3 t) (blk0 V c 4 t) := by
  dsimp only [mmDat]

/-- Each input's current staging buffer holds its block at every point, fetched there or not. -/
theorem mmBefore_x (c : Dev nD) (t : Fin cfg0.N) (d) : (mmDat V c).before 0 t d = blk0 V c 0 t :=
  xBefore_of V (mmDat V c) (mmDat_A V c 0) (mmAfter_x V c) t d
theorem mmBefore_w (c : Dev nD) (t : Fin cfg0.N) (d) : (mmDat V c).before 1 t d = blk0 V c 1 t :=
  wBefore_of V (mmDat V c) (mmDat_A V c 1) (mmAfter_w V c) t d
theorem mmBefore_bsf (c : Dev nD) (t : Fin cfg0.N) (d) : (mmDat V c).before 2 t d = blk0 V c 2 t :=
  bsfBefore_of V (mmDat V c) (mmDat_A V c 2) (mmAfter_bsf V c) t d
theorem mmBefore_bint (c : Dev nD) (t : Fin cfg0.N) (d) : (mmDat V c).before 3 t d = blk0 V c 3 t :=
  bintBefore_of V (mmDat V c) (mmDat_A V c 3) (mmAfter_bint V c) t d
theorem mmBefore_inv (c : Dev nD) (t : Fin cfg0.N) (d) : (mmDat V c).before 4 t d = blk0 V c 4 t :=
  invBefore_of V (mmDat V c) (mmDat_A V c 4) (mmAfter_inv V c) t d

/-! ## The body obligation, at a generic point -/

/-- What the body is called with at point `t`, the windows one by one, -/
def mmBodyPre (c : Dev nD) (t : Fin cfg0.N) : sProp 𝕄 :=
  iprop((mmDat V c).Φ t.castSucc ∗ (mmDat V c).owesAt () t.castSucc
    ∗ (∃ d, owns (c : Thread nD τ) (st0_0 t) fullShare ((mmDat V c).before 0 t d))
    ∗ (∃ d, owns (c : Thread nD τ) (st0_1 t) fullShare ((mmDat V c).before 1 t d))
    ∗ (∃ d, owns (c : Thread nD τ) (st0_2 t) fullShare ((mmDat V c).before 2 t d))
    ∗ (∃ d, owns (c : Thread nD τ) (st0_3 t) fullShare ((mmDat V c).before 3 t d))
    ∗ (∃ d, owns (c : Thread nD τ) (st0_4 t) fullShare ((mmDat V c).before 4 t d))
    ∗ (∃ d, owns (c : Thread nD τ) (st0_5 t) fullShare ((mmDat V c).before 5 t d)))

/-- and what it returns. -/
def mmBodyPost (c : Dev nD) (t : Fin cfg0.N) : sProp 𝕄 :=
  iprop((mmDat V c).Φ t.succ ∗ (mmDat V c).owesAt () t.succ
    ∗ owns (c : Thread nD τ) (st0_0 t) fullShare ((mmDat V c).after 0 t)
    ∗ owns (c : Thread nD τ) (st0_1 t) fullShare ((mmDat V c).after 1 t)
    ∗ owns (c : Thread nD τ) (st0_2 t) fullShare ((mmDat V c).after 2 t)
    ∗ owns (c : Thread nD τ) (st0_3 t) fullShare ((mmDat V c).after 3 t)
    ∗ owns (c : Thread nD τ) (st0_4 t) fullShare ((mmDat V c).after 4 t)
    ∗ owns (c : Thread nD τ) (st0_5 t) fullShare ((mmDat V c).after 5 t))

/-- The body at any point: the five inputs' memrefs hold their blocks, so the kernel's triple applies; the
    invariant and the core's owed amount pass through unread. -/
theorem mm_body_sound (c : Dev nD) (t : Fin cfg0.N) :
    mmBodyPre V c t ⊢ wp frame (wpE (defs₀ (F := F)) Variants.none c none) Set.univ (bodyAt0 t) (fun _ => mmBodyPost V c t) := by
  unfold mmBodyPre mmBodyPost bodyAt0
  simp only [mmBefore_x, mmBefore_w, mmBefore_bsf, mmBefore_bint, mmBefore_inv]
  rw [show (mmDat V c).Φ t.succ = (mmDat V c).Φ t.castSucc from rfl,
    show (mmDat V c).owesAt () t.succ = (mmDat V c).owesAt () t.castSucc from rfl,
    mmAfter_x, mmAfter_w, mmAfter_bsf, mmAfter_bint, mmAfter_inv, mmDat_after_out]
  iintro ⟨HΦ, Ho, ⟨%d0, H0⟩, ⟨%d1, H1⟩, ⟨%d2, H2⟩, ⟨%d3, H3⟩, ⟨%d4, H4⟩, ⟨%d5, H5⟩⟩
  iapply (mm_kernel_sound c Set.univ _ _ _ _ _ _ _ _ _ _ _ _ _
    (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem mm_obligation (c : Dev nD) : BodyObligation (mmDat (F := F) V c) (defs₀ (F := F)) Variants.none () Set.univ := fun t => by
  rw [bigSep_W0, bigSep_W0]
  exact mm_body_sound V c t

end Cert.Kernel.Hand

end
-- ==== Proof.KB.R1Body.lean ====
/- Region 1 of @main (the running maximum): at every grid point the body folds the maximum of
    the input block into a 1x1 scratch cell it carries from point to point (zeroed at the first point), and at
    the last point copies the cell into the output window's buffer. Stated at the buffer contents `V` the
    region is entered with: the blocks, the cell's contents after each point, the proof data, the body
    obligation and the invariant's two ends. -/
import proofs.«124374_j73735998538084_1_alg».proof.Proof.Gen.Kernel.Launch
import proofs.«124374_j73735998538084_1_alg».proof.Proof.Gen.Kernel.Skeleton
import proofs.«124374_j73735998538084_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! ## The windows' blocks -/

/-- Window `w`'s block at point `t`, read off its array as the region finds it (`V`). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is uncut and never idle. -/
theorem mx_before_in_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- The body zeroes the cell: the first `scf.if`'s condition, from the grid coordinate. -/
abbrev mxResetAt (i : grid1.Coords) : Prop := (Scalar.cmpi .ne (Scalar.extui (Scalar.cmpi .eq (BitVec.ofNat 32 (i 0).val) 0#32)) 0#32) = 1#1
/-- It holds at the first point only. -/
theorem mxResetAt_iff : ∀ t : Fin cfg1.N, mxResetAt (grid1.coords t) ↔ t.val % 16 = 0 :=
  (by decide +kernel : ∀ t : Fin grid1.N, mxResetAt (grid1.coords t) ↔ t.val % 16 = 0)
/-- The body copies the cell to the output: the second `scf.if`'s condition. -/
abbrev mxEmitAt (i : grid1.Coords) : Prop := k1_cond2 i = 1#1
/-- It holds at the last point only. -/
theorem mxEmitAt_iff : ∀ t : Fin cfg1.N, mxEmitAt (grid1.coords t) ↔ t.val % 16 = 15 :=
  (by decide +kernel : ∀ t : Fin grid1.N, mxEmitAt (grid1.coords t) ↔ t.val % 16 = 15)

/-- The input window is never idle. -/
theorem mx_in_live : ∀ t : Fin cfg1.N, cfg1.idle 0 (grid1.coords t) = false := by decide +kernel
/-- Where the body does not copy the cell out, the output window is idle, -/
theorem mx_out_idle : ∀ t : Fin cfg1.N, ¬mxEmitAt (grid1.coords t) → cfg1.idle 1 (grid1.coords t) = true := by decide +kernel
/-- and is not written back; -/
theorem mx_out_noFlush : ∀ t : Fin cfg1.N, ¬mxEmitAt (grid1.coords t) → (cfg1.win 1).flush t = false := by decide +kernel
/-- where it does, the window is live. -/
theorem mx_out_live : ∀ t : Fin cfg1.N, mxEmitAt (grid1.coords t) → cfg1.idle 1 (grid1.coords t) = false := by decide +kernel

/-! ## The body's triple, case by case -/

/-- The stores' and loads' offsets are zero. -/
theorem mx_off0 : (![0, 0] : Fin 2 → Nat) = fun _ => 0 := funext fun a => by fin_cases a <;> rfl

set_option maxHeartbeats 1000000 in
/-- THE FIRST POINT (the cell zeroed, nothing copied out): on whole memrefs — the input's at `x0`, the idle output's
    at `xi`, the cell's at anything — the body runs to the continuation holding the input's and the output's as they
    were and the cell at the maximum of zero and the block's. -/
theorem mx_run_first (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : mxResetAt i) (he : ¬mxEmitAt i) (x0 : Vec F S512x4096 .f32) (xi : Vec F S1x1 .f32) (E : Set ℕ) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi
              ∗ owns (c : Thread nD τ) arg3 fullShare (k1_pay2 x0 (k1_pay1 (F := F)))) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hr | exact he)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0, View.readCov_unit_zero (S := S1x1) _ mx_off0]
  simp only [View.readAt_eq_ld, harg1.read_unread, View.ld_unit_zero (S := S512x4096) mx_off0]

set_option maxHeartbeats 1000000 in
/-- A POINT BETWEEN (nothing zeroed, nothing copied out): the cell comes in at `xs`, what the point before left, and
    goes out at the maximum of that and the block's. -/
theorem mx_run_mid (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : ¬mxResetAt i) (he : ¬mxEmitAt i) (x0 : Vec F S512x4096 .f32) (xi xs : Vec F S1x1 .f32) (E : Set ℕ) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi
              ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg3.eq_unread hfs
  sl_exec (disch := first | exact hr | exact he)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0]
  simp only [View.readAt_eq_ld, harg1.read_unread, harg3.read_unread, View.ld_unit_zero (S := S512x4096) mx_off0, View.ld_unit_zero (S := S1x1) mx_off0]

set_option maxHeartbeats 1000000 in
/-- THE LAST POINT (nothing zeroed, the cell copied out): the cell comes in at `xs`; the output's buffer, handed at
    anything, and the cell both go out at the maximum of `xs` and the block's. -/
theorem mx_run_last (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : ¬mxResetAt i) (he : mxEmitAt i) (x0 : Vec F S512x4096 .f32) (xs : Vec F S1x1 .f32) (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs)
              ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hr | exact he)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero mx_off0 inb_S1x1_S1x1_0_0 y⟩)]
    rw [View.canon_cons_unit_zero (S := S1x1) mx_off0, View.readCov_unit_zero (S := S1x1) _ mx_off0]
    simp only [View.readAt_eq_ld, harg1.read_unread, harg3.read_unread, View.ld_unit_zero (S := S512x4096) mx_off0, View.ld_unit_zero (S := S1x1) mx_off0]
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0]
  simp only [View.readAt_eq_ld, harg1.read_unread, harg3.read_unread, View.ld_unit_zero (S := S512x4096) mx_off0, View.ld_unit_zero (S := S1x1) mx_off0]

/-! ## The cell after each point -/

/-- The 1x1 cell the kernel carries between points, as a memref (a whole scoped buffer of its own). -/
abbrev mxCell : Memref sig .tc .vmem S1x1 .f32 := Memref.whole cc1_scratch0

/-- THE RUNNING MAXIMUM. What the cell holds after the body at point `n`: at the first point the maximum of zero and
    the first block's, afterwards the maximum of what the point before left and this point's block's. -/
def mxAcc (c : Dev nD) : (n : ℕ) → n < cfg1.N → Vec F S1x1 .f32
  | 0, h => k1_pay2 (blk1 V c 0 ⟨0, h⟩) (k1_pay1 (F := F))
  | n + 1, h => k1_pay2 (blk1 V c 0 ⟨n + 1, h⟩) (mxAcc c n (Nat.lt_of_succ_lt h))

theorem mxAcc_zero (c : Dev nD) (h : 0 < cfg1.N) : mxAcc V c 0 h = k1_pay2 (blk1 V c 0 ⟨0, h⟩) (k1_pay1 (F := F)) := rfl

theorem mxAcc_succ (c : Dev nD) (n : ℕ) (h : n + 1 < cfg1.N) :
    mxAcc V c (n + 1) h = k1_pay2 (blk1 V c 0 ⟨n + 1, h⟩) (mxAcc V c n (Nat.lt_of_succ_lt h)) := rfl

/-- At the first point, read at a point of the grid. -/
theorem mxAcc_first (c : Dev nD) (t : Fin cfg1.N) (hz : t.val = 0) :
    mxAcc V c t.val t.isLt = k1_pay2 (blk1 V c 0 t) (k1_pay1 (F := F)) := by
  obtain ⟨n, hn⟩ := t
  cases n with
  | zero => rfl
  | succ n => exact absurd hz (Nat.succ_ne_zero n)

/-- At a later point: over what the point before left. -/
theorem mxAcc_later (c : Dev nD) (t : Fin cfg1.N) (hz : t.val ≠ 0) :
    mxAcc V c t.val t.isLt = k1_pay2 (blk1 V c 0 t) (mxAcc V c (t.val - 1) (Nat.lt_of_le_of_lt (Nat.sub_le _ _) t.isLt)) := by
  obtain ⟨n, hn⟩ := t
  cases n with
  | zero => exact absurd rfl hz
  | succ n => rfl

/-! ## The invariant: the cell named beside the other scoped buffers -/

/-- The core's scoped buffers that are neither a staging buffer of this pipeline nor the cell — the other two
    pipelines' staging buffers —, each whole at some contents. -/
def mxOthers (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- What the launch hands the region holds the cell at some contents, the other scoped buffers, and the generator
    register at some state; -/
theorem mxPhiA_open (c : Dev nD) :
    (Pipeline.ΦA spec1 c : sProp 𝕄) ⊢ iprop((∃ d, owns (c : Thread nD τ) mxCell fullShare d) ∗ mxOthers (F := F) c ∗ (∃ r, prngReg c r)) := by
  unfold Pipeline.ΦA mxOthers; rw [scopedRest1_eq]; simp only [mxCell, owns_whole]
  iintro ⟨⟨B1, B2, B3, B4, B5, B6, B7, B8, B9, B10, B11, HS, B12, B13, B14, B15, B16⟩, Hg⟩
  isplitl [HS]; · iexact HS
  isplitr [Hg]; swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  iexact B16

/-- and those three give it back. -/
theorem mxPhiA_close (c : Dev nD) :
    iprop((∃ d, owns (c : Thread nD τ) mxCell fullShare d) ∗ mxOthers (F := F) c ∗ (∃ r, prngReg c r)) ⊢ (Pipeline.ΦA spec1 c : sProp 𝕄) := by
  unfold Pipeline.ΦA mxOthers; rw [scopedRest1_eq]; simp only [mxCell, owns_whole]
  iintro ⟨HS, ⟨B1, B2, B3, B4, B5, B6, B7, B8, B9, B10, B11, B12, B13, B14, B15, B16⟩, Hg⟩
  isplitr [Hg]; swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [HS]; · iexact HS
  isplitl [B12]; · iexact B12
  isplitl [B13]; · iexact B13
  isplitl [B14]; · iexact B14
  isplitl [B15]; · iexact B15
  iexact B16

/-- The region invariant before position `n`: before the first point what the launch hands over; afterwards the cell
    owned at what the point before left in it, the other scoped buffers at some contents, the generator register
    at some state. -/
def mxPhi (c : Dev nD) : (n : ℕ) → n ≤ cfg1.N → sProp 𝕄
  | 0, _ => Pipeline.ΦA spec1 c
  | n + 1, hn => iprop(owns (c : Thread nD τ) mxCell fullShare (mxAcc V c n hn) ∗ mxOthers (F := F) c ∗ (∃ r, prngReg c r))

theorem mxPhi_zero (c : Dev nD) (n : ℕ) (h : n ≤ cfg1.N) (hz : n = 0) : mxPhi V c n h = Pipeline.ΦA spec1 c := by
  subst hz; rfl

/-- After point `n` (before point `n + 1`). -/
theorem mxPhi_succ (c : Dev nD) (n : ℕ) (hn : n < cfg1.N) :
    mxPhi V c (n + 1) hn = iprop(owns (c : Thread nD τ) mxCell fullShare (mxAcc V c n hn) ∗ mxOthers (F := F) c ∗ (∃ r, prngReg c r)) := rfl

/-- Before a point that is not the first. -/
theorem mxPhi_pos (c : Dev nD) (n : ℕ) (h : n ≤ cfg1.N) (hz : n ≠ 0) :
    mxPhi V c n h = iprop(owns (c : Thread nD τ) mxCell fullShare (mxAcc V c (n - 1) (by omega)) ∗ mxOthers (F := F) c ∗ (∃ r, prngReg c r)) := by
  cases n with
  | zero => exact absurd rfl hz
  | succ n => rfl

/-! ## The pipeline's proof data -/

/-- The proof data of this pipeline on core `c`: the arrays as the region finds them (`V`); after the body at point
    `t` the input's buffer at its block and the output's at the running maximum (consulted at the last point only:
    elsewhere the window is idle); the invariant `mxPhi`; nothing owed; full shares. -/
def mxDat (c : Dev nD) : Dat τ (Elt F) Unit ℕ (UR sig nD τ) ℕ cfg1 c where
  A w := V c (Pipeline.arrRef spec1 w)
  after w t := match w with
    | ⟨0, _⟩ => blk1 V c 0 t
    | ⟨1, _⟩ => mxAcc V c t.val t.isLt
  Φ t := mxPhi V c t.val (Nat.le_of_lt_succ t.isLt)
  q _ := fullShare
  owed _ := 0

theorem mxDat_A (c : Dev nD) (w : Fin cfg1.W) : (mxDat V c).A w = V c (Pipeline.arrRef spec1 w) := by
  dsimp only [mxDat]

theorem mxDat_after_in (c : Dev nD) (t : Fin cfg1.N) : (mxDat V c).after 0 t = blk1 V c 0 t := by dsimp only [mxDat]
theorem mxDat_after_out (c : Dev nD) (t : Fin cfg1.N) : (mxDat V c).after 1 t = mxAcc V c t.val t.isLt := by dsimp only [mxDat]

example (c : Dev nD) (t : Fin (cfg1.N + 1)) : (mxDat V c).owed t = 0 := rfl
example (c : Dev nD) (w : Fin cfg1.W) : (mxDat V c).q w = fullShare := rfl

/-- The invariant at a point's start, restated at `t.val`. -/
theorem mxPhi_castSucc (c : Dev nD) (t : Fin cfg1.N) :
    (mxDat V c).Φ t.castSucc = mxPhi V c t.val (Nat.le_of_lt t.isLt) := by
  dsimp only [mxDat]; simp only [Fin.coe_castSucc]

/-- The input's current staging buffer holds its block at every point, fetched there or not. -/
theorem mx_before_in (c : Dev nD) (t : Fin cfg1.N) (d) : (mxDat V c).before 0 t d = blk1 V c 0 t :=
  mx_before_in_of V (mxDat V c) (mxDat_A V c 0) (mxDat_after_in V c) t d

/-! ## The body obligation, at a generic point -/

/-- What the body is called with at point `t` (the obligation's precondition, the windows one by one), -/
def mxPre (c : Dev nD) (t : Fin cfg1.N) : sProp 𝕄 :=
  iprop((mxDat V c).Φ t.castSucc ∗ (mxDat V c).owesAt () t.castSucc
    ∗ (∃ d, owns (c : Thread nD τ) (st1_0 t) fullShare ((mxDat V c).before 0 t d))
    ∗ (∃ d, owns (c : Thread nD τ) (st1_1 t) fullShare ((mxDat V c).before 1 t d)))

/-- and what it returns. -/
def mxPost (c : Dev nD) (t : Fin cfg1.N) : sProp 𝕄 :=
  iprop((mxDat V c).Φ t.succ ∗ (mxDat V c).owesAt () t.succ
    ∗ (mxDat V c).leavesExact 0 t
    ∗ (mxDat V c).leavesExact 1 t)

set_option maxHeartbeats 4000000 in
/-- The body at any point. The input's memref holds its block; the point is the first, the last, or one between, and
    the case's triple applies: the invariant hands the body the cell at what the point before left (at anything at
    the first point, out of what the launch handed over) and takes it back at this point's maximum, the other scoped
    buffers and the generator register passing through; the output's buffer is handed back untouched where the
    window is idle, and at the last point holds the maximum; the core owes nothing throughout. -/
theorem mx_body (c : Dev nD) (t : Fin cfg1.N) :
    mxPre V c t ⊢ wp frame (wpE (defs₀ (F := F)) Variants.none c none) Set.univ (bodyAt1 t) (fun _ => mxPost V c t) := by
  unfold mxPre mxPost bodyAt1
  simp only [mx_before_in]
  rw [show (mxDat V c).owesAt () t.succ = (mxDat V c).owesAt () t.castSucc from rfl]
  rw [show (mxDat V c).Φ t.succ = mxPhi V c (t.val + 1) t.isLt from rfl, mxPhi_succ]
  rw [show (mxDat V c).leavesExact 0 t = owns (c : Thread nD τ) (st1_0 t) fullShare ((mxDat V c).after 0 t) from by
    unfold Dat.leavesExact; rw [mx_in_live t], mxDat_after_in]
  have hN : t.val < 16 := lt_of_lt_of_eq t.isLt (show cfg1.N = 16 from N_1)
  by_cases hz : t.val = 0
  · have hr : mxResetAt (grid1.coords t) := (mxResetAt_iff t).mpr (by omega)
    have he : ¬mxEmitAt (grid1.coords t) := fun h => by have := (mxEmitAt_iff t).mp h; omega
    rw [Dat.leavesExact_idle (mxDat V c) 1 t (mx_out_idle t he) (mx_out_noFlush t he)]
    rw [mxAcc_first V c t hz, mxPhi_castSucc V c t, mxPhi_zero V c _ _ hz]
    iintro ⟨HΦ, Ho, ⟨%d0, H0⟩, ⟨%d1, H1⟩⟩
    icases (mxPhiA_open (F := F) c) $$ HΦ with ⟨HS, Hoth, Hg⟩
    iapply (mx_run_first c (grid1.coords t) _ _ _ _ _ _ hr he (blk1 V c 0 t) _ Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexists _; iexact H1
  · have hr : ¬mxResetAt (grid1.coords t) := fun h => hz (by have := (mxResetAt_iff t).mp h; omega)
    rw [mxPhi_castSucc V c t, mxPhi_pos V c _ _ hz]
    by_cases hl : t.val = 15
    · have he : mxEmitAt (grid1.coords t) := (mxEmitAt_iff t).mpr (by omega)
      rw [show (mxDat V c).leavesExact 1 t = owns (c : Thread nD τ) (st1_1 t) fullShare ((mxDat V c).after 1 t) from by
        unfold Dat.leavesExact; rw [mx_out_live t he], mxDat_after_out]
      rw [mxAcc_later V c t hz]
      iintro ⟨⟨HS, Hoth, Hg⟩, Ho, ⟨%d0, H0⟩, ⟨%d1, H1⟩⟩
      iapply (mx_run_last c (grid1.coords t) _ _ _ _ _ _ hr he (blk1 V c 0 t) _ Set.univ _)
      isplitl [H0]; · iexact H0
      isplitl [H1]; · iexists _; iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexact H1
    · have he : ¬mxEmitAt (grid1.coords t) := fun h => hl (by have := (mxEmitAt_iff t).mp h; omega)
      rw [Dat.leavesExact_idle (mxDat V c) 1 t (mx_out_idle t he) (mx_out_noFlush t he)]
      rw [mxAcc_later V c t hz]
      iintro ⟨⟨HS, Hoth, Hg⟩, Ho, ⟨%d0, H0⟩, ⟨%d1, H1⟩⟩
      iapply (mx_run_mid c (grid1.coords t) _ _ _ _ _ _ hr he (blk1 V c 0 t) _ _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

/-- The library's body obligation, at every point. -/
theorem mx_obligation (c : Dev nD) : BodyObligation (mxDat (F := F) V c) (defs₀ (F := F)) Variants.none () Set.univ := fun t => by
  rw [bigSep_W1, bigSep_W1]
  exact mx_body V c t

/-! ## The invariant's two ends -/

/-- What the launch hands the region is the invariant before the first point. -/
theorem mx_in (c : Dev nD) : (Pipeline.ΦA spec1 c : sProp 𝕄) ⊢ (mxDat V c).Φ 0 := by
  rw [show (mxDat V c).Φ 0 = mxPhi V c 0 (Nat.zero_le _) from rfl, mxPhi_zero V c 0 _ rfl]
  try exact Idealize.SL.BI.Entails.refl _

/-- After the last point the invariant gives it back: the cell's named contents are forgotten. -/
theorem mx_out (c : Dev nD) : (mxDat V c).Φ (Fin.last cfg1.N) ⊢ (Pipeline.ΦA spec1 c : sProp 𝕄) := by
  have hne : (Fin.last cfg1.N).val ≠ 0 := by rw [Fin.val_last]; have : cfg1.N = 16 := N_1; omega
  rw [show (mxDat V c).Φ (Fin.last cfg1.N) = mxPhi V c (Fin.last cfg1.N).val (Nat.le_of_lt_succ (Fin.last cfg1.N).isLt) from rfl,
    mxPhi_pos V c _ _ hne]
  iintro ⟨HS, Hoth, Hg⟩
  iapply (mxPhiA_close (F := F) c)
  isplitl [HS]; · iexists _; iexact HS
  isplitl [Hoth]; · iexact Hoth
  iexact Hg

end Cert.Kernel.Hand

end
-- ==== Proof.KB.R2Body.lean ====
/- Region 2 of @main at a parameter: the requantisation call (pipeline 2; 32 grid points; three windows: the
   256x4096 row band of the activations, the 1x128 row holding the scale, and the 256x4096 row band of the result).
   At the buffer contents `V` the core holds when the region is entered: each window's block at a point, the
   contents the body leaves in the result window's staging buffer as a closed function of the two input blocks,
   the body's triple, the pipeline's proof data and the body obligation at every grid point. -/
import proofs.«124374_j73735998538084_1_alg».proof.Proof.Gen.Kernel.Launch
import proofs.«124374_j73735998538084_1_alg».proof.Proof.Gen.Kernel.Skeleton
import proofs.«124374_j73735998538084_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! # Region 2 of @main: the requantisation call (pipeline 2), at the entry contents `V` -/

/-! ## The windows' blocks -/

/-- Window `w`'s block at point `t`, read off its array as the region finds it (`V`). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window (window 0) holds its row band at every point, for ANY proof data whose array is `V`'s
    and whose body leaves the block in place: where a point does not fetch it the block index has not moved. The
    window is uncut and never idle. -/
theorem rqBefore_act_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The scale's window (window 1) is fetched at the first point only and its block index is constant: at every later
    point the buffer still holds the one block, which is that point's block too. Same statement, same reason. -/
theorem rqBefore_scale_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The body's accesses -/

/-- The whole 256x4096 buffer: the rectangle of the activations' load and of the result's load and store. -/
abbrev rqWhole : Rect S256x4096 := Rect.unit (s := S256x4096) ![0, 0] S256x4096.size inb_S256x4096_S256x4096_0_0
/-- The 1x1 corner of the 1x128 row: the rectangle the scale is loaded through. -/
abbrev rqCorner : Rect S1x128 := Rect.unit (s := S1x128) ![0, 0] S1x1.size inb_S1x128_S1x1_0_0

/-! ## What the body leaves in the result window's buffer -/

/-- The result window's staging buffer after the body, from the two input blocks: its one store as a piece — the
    whole rectangle, holding the requantised band computed from the scale (the corner of the 1x128 row) and the
    activations' band. -/
def rqOut (x0 : Vec F S256x4096 .f32) (x1 : Vec F S1x128 .f32) : Vec F S256x4096 .f32 :=
  View.canon [⟨rqWhole, k2_pay1 (View.ld x1 rqCorner) (View.ld x0 rqWhole)⟩]

/-- The one store's rectangle is the whole buffer (checked by evaluation), so it covers it. -/
theorem rqCover (p0 : Vec F S256x4096 .f32) (y : S256x4096.Idx) :
    ∃ pc ∈ ([⟨rqWhole, p0⟩] : List (View.Piece (Elt F) S256x4096 .f32)), y ∈ pc.1.set :=
  View.cover_of_tiled [⟨rqWhole, p0⟩] S256x4096.size (by rfl) y

/-! ## The body's triple -/

set_option maxHeartbeats 1000000 in
/-- The kernel body on whole staging memrefs — the activations' at read contents `x0`, the scale's at `x1`, the
    result's at anything — runs to the continuation holding the inputs' as they were and the result's at
    `rqOut x0 x1`: the printed function is its skeleton, two loads of the inputs, one (dead) load of the result's
    buffer and one store over all of it. -/
theorem rqKernel (c : Dev nD) (E : Set ℕ) (i : grid2.Coords)
    (arg1 : Memref sig .tc .vmem S256x4096 .f32) (harg1 : arg1.IsWhole) (arg2 : Memref sig .tc .vmem S1x128 .f32) (harg2 : arg2.IsWhole)
    (arg3 : Memref sig .tc .vmem S256x4096 .f32) (harg3 : arg3.IsWhole)
    (x0 : Vec F S256x4096 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rqOut x0 x1)) -∗ K ⟨⟩))
      ⊢ wp frame (wpE (defs₀ (F := F)) Variants.none c none) E (cc2__requant_kernel i arg1 harg1 arg2 harg2 arg3 harg3) K := by
  simp only [cc2__requant_kernel_eq_skeleton]; unfold cc2__requant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rqCover _)

/-! ## The pipeline's proof data -/

/-- The proof data of pipeline 2 on core `c`: the arrays as the region finds them (`V`); after the body at point
    `t` each input's buffer at its block and the result's at `rqOut` of the two input blocks; the invariant the
    scoped rest and the generator register, untouched; nothing owed; full shares. -/
def rqDat (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => rqOut (blk2 V c 0 t) (blk2 V c 1 t)
  Φ _ := Pipeline.ΦA spec2 c
  q _ := fullShare
  owed _ := 0

/-- The proof data's arrays are the region-entry contents. -/
theorem rqDat_A (c : Dev nD) (w : Fin cfg2.W) : (rqDat V c).A w = V c (Pipeline.arrRef spec2 w) := by
  dsimp only [rqDat]

/-- What the body leaves in the input windows: their blocks. -/
theorem rqDat_after_in (c : Dev nD) (t : Fin cfg2.N) : (rqDat V c).after 0 t = blk2 V c 0 t ∧ (rqDat V c).after 1 t = blk2 V c 1 t := by
  constructor <;> dsimp only [rqDat]

/-- What the body leaves in the result window: the requantised band of the two input blocks. -/
theorem rqDat_after_out (c : Dev nD) (t : Fin cfg2.N) : (rqDat V c).after 2 t = rqOut (blk2 V c 0 t) (blk2 V c 1 t) := by
  dsimp only [rqDat]

/-- Each input's current staging buffer holds its block at every point, fetched there or not. -/
theorem rqDat_before_act (c : Dev nD) (t : Fin cfg2.N) (d) : (rqDat V c).before 0 t d = blk2 V c 0 t :=
  rqBefore_act_of V (rqDat V c) (rqDat_A V c 0) (fun t => (rqDat_after_in V c t).1) t d
theorem rqDat_before_scale (c : Dev nD) (t : Fin cfg2.N) (d) : (rqDat V c).before 1 t d = blk2 V c 1 t :=
  rqBefore_scale_of V (rqDat V c) (rqDat_A V c 1) (fun t => (rqDat_after_in V c t).2) t d

/-! ## The body obligation, at a generic point -/

/-- What the body is called with at point `t` (the body obligation's precondition, the windows one by one), -/
def rqBodyPre (c : Dev nD) (t : Fin cfg2.N) : sProp 𝕄 :=
  iprop((rqDat V c).Φ t.castSucc ∗ (rqDat V c).owesAt () t.castSucc
    ∗ (∃ d, owns (c : Thread nD τ) (st2_0 t) fullShare ((rqDat V c).before 0 t d))
    ∗ (∃ d, owns (c : Thread nD τ) (st2_1 t) fullShare ((rqDat V c).before 1 t d))
    ∗ (∃ d, owns (c : Thread nD τ) (st2_2 t) fullShare ((rqDat V c).before 2 t d)))

/-- and what it returns. -/
def rqBodyPost (c : Dev nD) (t : Fin cfg2.N) : sProp 𝕄 :=
  iprop((rqDat V c).Φ t.succ ∗ (rqDat V c).owesAt () t.succ
    ∗ owns (c : Thread nD τ) (st2_0 t) fullShare ((rqDat V c).after 0 t)
    ∗ owns (c : Thread nD τ) (st2_1 t) fullShare ((rqDat V c).after 1 t)
    ∗ owns (c : Thread nD τ) (st2_2 t) fullShare ((rqDat V c).after 2 t))

/-- The body at any point: the inputs' memrefs hold their blocks, so the body's triple applies; the invariant and
    the core's `owes` pass through unread. -/
theorem rqBody (c : Dev nD) (t : Fin cfg2.N) :
    rqBodyPre V c t ⊢ wp frame (wpE (defs₀ (F := F)) Variants.none c none) Set.univ (bodyAt2 t) (fun _ => rqBodyPost V c t) := by
  unfold rqBodyPre rqBodyPost bodyAt2
  simp only [rqDat_before_act, rqDat_before_scale]
  rw [show (rqDat V c).Φ t.succ = (rqDat V c).Φ t.castSucc from rfl,
    show (rqDat V c).owesAt () t.succ = (rqDat V c).owesAt () t.castSucc from rfl,
    (rqDat_after_in V c t).1, (rqDat_after_in V c t).2, rqDat_after_out]
  iintro ⟨HΦ, Ho, ⟨%d0, H0⟩, ⟨%d1, H1⟩, ⟨%d2, H2⟩⟩
  iapply (rqKernel c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem rq_obligation (c : Dev nD) : BodyObligation (rqDat (F := F) V c) (defs₀ (F := F)) Variants.none () Set.univ := fun t => by
  rw [bigSep_W2, bigSep_W2]
  exact rqBody V c t

end Cert.Kernel.Hand

end
-- ==== Proof.KB.Inst.lean ====
/-
  The three kernel regions' proof data put into the run of the whole program, and what that run leaves in the
  argument arrays: no host operation writes an argument, and a region changes only its output windows' arrays, so
  every argument array ends holding its launch contents.
-/
import proofs.«124374_j73735998538084_1_alg».proof.Proof.KB.Run
import proofs.«124374_j73735998538084_1_alg».proof.Proof.KB.R0Body
import proofs.«124374_j73735998538084_1_alg».proof.Proof.KB.R1Body
import proofs.«124374_j73735998538084_1_alg».proof.Proof.KB.R2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The matmul region's proof data, at any entry contents. -/
def mmData : RegionData F cfg0 where
  dat := mmDat
  hA := mmDat_A
  hq := fun _ _ _ => rfl
  howed := fun _ _ _ => rfl
  hrec := fun _ _ => rfl
  hbody := mm_obligation
  hΦin := fun _ _ => .rfl
  hΦout := fun _ _ => .rfl

/-- The global-maximum region's proof data, at any entry contents. -/
def mxData : RegionData F cfg1 where
  dat := mxDat
  hA := mxDat_A
  hq := fun _ _ _ => rfl
  howed := fun _ _ _ => rfl
  hrec := fun _ _ => rfl
  hbody := mx_obligation
  hΦin := mx_in
  hΦout := mx_out

/-- The requantization region's proof data, at any entry contents. -/
def rqData : RegionData F cfg2 where
  dat := rqDat
  hA := rqDat_A
  hq := fun _ _ _ => rfl
  howed := fun _ _ _ => rfl
  hrec := fun _ _ => rfl
  hbody := rq_obligation
  hΦin := fun _ _ => .rfl
  hΦout := fun _ _ => .rfl

variable (m : (ℓ : Loc nD τ sig) → Buf (Elt F) ℓ) (ρ : Dev nD → PrngReg)

/-- The contents @main returns with, with the three regions' proof data in place. -/
abbrev Wend : Dev nD → Valuation τ sig (Elt F) := W12 m ρ mmData mxData rqData

/-- Every weakly fair execution of @main terminates, and every unscoped buffer ends at `Wend`. -/
theorem run_vals : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  run_all m ρ mmData mxData rqData

/-! ## A reference no later item writes keeps its contents -/

section Keep
variable (c : Dev nD) (r : Ref sig .tc)

theorem keep12 (h : r ∉ hostOps3_W) : Wend m ρ c r = W11 m ρ mmData mxData rqData c r :=
  StableHlo.after_of_writes_sub hostOps3 _ hostOps3_writes h
theorem keep11 (h : ∀ w, Pipeline.arrRef spec2 w ≠ r) : W11 m ρ mmData mxData rqData c r = W10 m ρ mmData mxData c r :=
  W11_of_ne m ρ mmData mxData rqData c r h
theorem keep10 (h : r ∉ hostOps2_W) : W10 m ρ mmData mxData c r = W9 m ρ mmData mxData c r :=
  StableHlo.after_of_writes_sub hostOps2 _ hostOps2_writes h
theorem keep9 (h : ∀ w, Pipeline.arrRef spec1 w ≠ r) : W9 m ρ mmData mxData c r = W8 m ρ mmData c r :=
  W9_of_ne m ρ mmData mxData c r h
theorem keep8 (h : ∀ w, Pipeline.arrRef spec0 w ≠ r) : W8 m ρ mmData c r = W7 m ρ c r :=
  W8_of_ne m ρ mmData c r h
theorem keep7 (h : r ∉ hostOps0_6_W) : W7 m ρ c r = W6 m ρ c r := StableHlo.after_of_writes_sub hostOps0_6 _ hostOps0_6_writes h
theorem keep6 (h : r ∉ hostOps0_5_W) : W6 m ρ c r = W5 m ρ c r := StableHlo.after_of_writes_sub hostOps0_5 _ hostOps0_5_writes h
theorem keep5 (h : r ∉ hostOps0_4_W) : W5 m ρ c r = W4 m ρ c r := StableHlo.after_of_writes_sub hostOps0_4 _ hostOps0_4_writes h
theorem keep4 (h : r ∉ hostOps0_3_W) : W4 m ρ c r = W3 m ρ c r := StableHlo.after_of_writes_sub hostOps0_3 _ hostOps0_3_writes h
theorem keep3 (h : r ∉ hostOps0_2_W) : W3 m ρ c r = W2 m ρ c r := StableHlo.after_of_writes_sub hostOps0_2 _ hostOps0_2_writes h
theorem keep2 (h : r ∉ hostOps0_1_W) : W2 m ρ c r = W1 m ρ c r := StableHlo.after_of_writes_sub hostOps0_1 _ hostOps0_1_writes h
theorem keep1 (h : r ∉ hostOps0_W) : W1 m ρ c r = W0 m ρ c r := StableHlo.after_of_writes_sub hostOps0 _ hostOps0_writes h

/-- Through the seven host stretches before the first region. -/
theorem keep_prefix (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) : W7 m ρ c r = m ((c : Thread nD τ).loc r) :=
  (keep7 m ρ c r h7).trans <| (keep6 m ρ c r h6).trans <| (keep5 m ρ c r h5).trans <| (keep4 m ρ c r h4).trans <|
    (keep3 m ρ c r h3).trans <| (keep2 m ρ c r h2).trans <| (keep1 m ρ c r h1).trans rfl

/-- Through everything after the first region's entry, for a reference that is no window array of any region. -/
theorem keep_suffix (h12 : r ∉ hostOps3_W) (h11 : ∀ w, Pipeline.arrRef spec2 w ≠ r) (h10 : r ∉ hostOps2_W)
    (h9 : ∀ w, Pipeline.arrRef spec1 w ≠ r) (h8 : ∀ w, Pipeline.arrRef spec0 w ≠ r) : Wend m ρ c r = W7 m ρ c r :=
  (keep12 m ρ c r h12).trans <| (keep11 m ρ c r h11).trans <| (keep10 m ρ c r h10).trans <| (keep9 m ρ c r h9).trans (keep8 m ρ c r h8)

end Keep

/-- The activations argument is the matmul region's first input window: the region hands it back as entered. -/
theorem Wend_arg0 (c : Dev nD) : Wend m ρ c main_arg0 = m ((c : Thread nD τ).loc main_arg0) :=
  (keep12 m ρ c main_arg0 (by decide)).trans <| (keep11 m ρ c main_arg0 (by decide)).trans <|
    (keep10 m ρ c main_arg0 (by decide)).trans <| (keep9 m ρ c main_arg0 (by decide)).trans <|
    ((W8_arr m ρ mmData c 0).trans (((mmDat (V7 m ρ) c).arrAt_in 0 rfl _).trans (mmDat_A (V7 m ρ) c 0))).trans <|
    keep_prefix m ρ c main_arg0 (by decide) (by decide) (by decide) (by decide) (by decide) (by decide) (by decide)
theorem Wend_arg1 (c : Dev nD) : Wend m ρ c main_arg1 = m ((c : Thread nD τ).loc main_arg1) :=
  (keep_suffix m ρ c main_arg1 (by decide) (by decide) (by decide) (by decide) (by decide)).trans <|
    keep_prefix m ρ c main_arg1 (by decide) (by decide) (by decide) (by decide) (by decide) (by decide) (by decide)
theorem Wend_arg2 (c : Dev nD) : Wend m ρ c main_arg2 = m ((c : Thread nD τ).loc main_arg2) :=
  (keep_suffix m ρ c main_arg2 (by decide) (by decide) (by decide) (by decide) (by decide)).trans <|
    keep_prefix m ρ c main_arg2 (by decide) (by decide) (by decide) (by decide) (by decide) (by decide) (by decide)
theorem Wend_arg3 (c : Dev nD) : Wend m ρ c main_arg3 = m ((c : Thread nD τ).loc main_arg3) :=
  (keep_suffix m ρ c main_arg3 (by decide) (by decide) (by decide) (by decide) (by decide)).trans <|
    keep_prefix m ρ c main_arg3 (by decide) (by decide) (by decide) (by decide) (by decide) (by decide) (by decide)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wend_arg0 m ρ c), (h c _ (mem_uc main_arg1 (by decide))).trans (Wend_arg1 m ρ c),
     (h c _ (mem_uc main_arg2 (by decide))).trans (Wend_arg2 m ρ c), (h c _ (mem_uc main_arg3 (by decide))).trans (Wend_arg3 m ρ c)⟩)
    (run_vals m ρ)

end Cert.Kernel.Hand

end
-- ==== Proof.KI.Run.lean ====
import proofs.«124374_j73735998538084_1_alg».proof.Proof.Gen.KernelIdeal.Launch
import proofs.«124374_j73735998538084_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of every core, read at the TensorCore's references. -/
abbrev Vals (F : FTy → Type) : Type := (c : Dev nD) → (b : Ref sig .tc) → Buf (Elt F) ((c : Thread nD τ).loc b)

variable (F) in
/-- What a region's proof data must satisfy for the run below, stated at ANY entry contents `V`: the windows'
    arrays are read off `V`, every input array is held whole, the body owes nothing at any point and bounds no
    recorded pair at the first, the body obligation holds at every point, and the invariant at the two ends is the
    class invariant (the scoped buffers no window stages, and the generator register). -/
structure RegionData (cfg : Pipeline.Cfg sig Λ₀) where
  dat : Vals F → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hΦin : ∀ V c, (Pipeline.ΦA cfg.spec c : sProp 𝕄) ⊢ (dat V c).Φ 0
  hΦout : ∀ V c, (dat V c).Φ (Fin.last cfg.N) ⊢ (Pipeline.ΦA cfg.spec c : sProp 𝕄)

variable (m : (ℓ : Loc nD τ sig) → Buf (Elt F) ℓ) (ρ : Dev nD → PrngReg)
variable (D0 : RegionData F cfg0) (D1 : RegionData F cfg1) (D2 : RegionData F cfg2)

/-! # The buffer contents at each segment boundary: a fold through @main

Twelve segments: seven host stretches, region 0, region 1 directly behind it, a host stretch, region 2, a host
stretch. A host stretch changes the contents as its operations compute (`StableHlo.after`); a region changes its
windows' arrays only, to what the write-backs of all its points leave (`Dat.arrAt … N`), every other buffer as
entered (`Pipeline.withArrays`). -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6` (region 0's entry). -/
abbrev W7 : Dev nD → Valuation τ sig (Elt F) := fun c => StableHlo.after hostOps0_6 (W6 m ρ c)
/-- The same read at the TensorCore's references (what region 0's proof data take). -/
abbrev V7 : Vals F := fun c b => W7 m ρ c b

/-- At region 0's exit, which is region 1's entry: region 0's arrays at what its pipeline leaves (the inputs as
    entered, each output's write-backs folded), every other buffer as entered. -/
def W8 (c : Dev nD) : Valuation τ sig (Elt F) :=
  Pipeline.withArrays spec0 c (W7 m ρ c) fun w => (D0.dat (V7 m ρ) c).arrAt w cfg0.N
theorem W8_arr (c : Dev nD) (w : Fin cfg0.W) :
    W8 m ρ D0 c (Proc.devRef .tc (Pipeline.arrRef spec0 w)) = (D0.dat (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ D0 c (Proc.devRef .tc b) = W7 m ρ c (Proc.devRef .tc b) := by
  unfold W8; exact Pipeline.withArrays_of_ne spec0 c _ _ b hb
/-- The same read at the TensorCore's references (region 0's exit contents, what region 1's proof data take). -/
abbrev V8 : Vals F := fun c b => W8 m ρ D0 c b
theorem hF0 (c : Dev nD) (w : Fin cfg0.W) : (D0.dat (V7 m ρ) c).arrAt w cfg0.N = V8 m ρ D0 c (Pipeline.arrRef spec0 w) :=
  (W8_arr m ρ D0 c w).symm
theorem hrest0 (c : Dev nD) : ∀ b, b ∉ Finset.univ.image (Pipeline.arrRef spec0) → V8 m ρ D0 c b = V7 m ρ c b :=
  fun b hb => W8_of_ne m ρ D0 c b fun w e => hb (Finset.mem_image.mpr ⟨w, Finset.mem_univ _, e⟩)

/-- At region 1's exit: region 1's arrays at what its pipeline leaves, every other buffer as entered. -/
def W9 (c : Dev nD) : Valuation τ sig (Elt F) :=
  Pipeline.withArrays spec1 c (W8 m ρ D0 c) fun w => (D1.dat (V8 m ρ D0) c).arrAt w cfg1.N
theorem W9_arr (c : Dev nD) (w : Fin cfg1.W) :
    W9 m ρ D0 D1 c (Proc.devRef .tc (Pipeline.arrRef spec1 w)) = (D1.dat (V8 m ρ D0) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ D0 D1 c (Proc.devRef .tc b) = W8 m ρ D0 c (Proc.devRef .tc b) := by
  unfold W9; exact Pipeline.withArrays_of_ne spec1 c _ _ b hb
/-- The same read at the TensorCore's references (region 1's exit contents). -/
abbrev V9 : Vals F := fun c b => W9 m ρ D0 D1 c b
theorem hF1 (c : Dev nD) (w : Fin cfg1.W) : (D1.dat (V8 m ρ D0) c).arrAt w cfg1.N = V9 m ρ D0 D1 c (Pipeline.arrRef spec1 w) :=
  (W9_arr m ρ D0 D1 c w).symm
theorem hrest1 (c : Dev nD) : ∀ b, b ∉ Finset.univ.image (Pipeline.arrRef spec1) → V9 m ρ D0 D1 c b = V8 m ρ D0 c b :=
  fun b hb => W9_of_ne m ρ D0 D1 c b fun w e => hb (Finset.mem_image.mpr ⟨w, Finset.mem_univ _, e⟩)

/-- After `hostOps2` (region 2's entry). -/
abbrev W10 : Dev nD → Valuation τ sig (Elt F) := fun c => StableHlo.after hostOps2 (W9 m ρ D0 D1 c)
/-- The same read at the TensorCore's references (what region 2's proof data take). -/
abbrev V10 : Vals F := fun c b => W10 m ρ D0 D1 c b

/-- At region 2's exit: region 2's arrays at what its pipeline leaves, every other buffer as entered. -/
def W11 (c : Dev nD) : Valuation τ sig (Elt F) :=
  Pipeline.withArrays spec2 c (W10 m ρ D0 D1 c) fun w => (D2.dat (V10 m ρ D0 D1) c).arrAt w cfg2.N
theorem W11_arr (c : Dev nD) (w : Fin cfg2.W) :
    W11 m ρ D0 D1 D2 c (Proc.devRef .tc (Pipeline.arrRef spec2 w)) = (D2.dat (V10 m ρ D0 D1) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ D0 D1 D2 c (Proc.devRef .tc b) = W10 m ρ D0 D1 c (Proc.devRef .tc b) := by
  unfold W11; exact Pipeline.withArrays_of_ne spec2 c _ _ b hb
/-- The same read at the TensorCore's references (region 2's exit contents). -/
abbrev V11 : Vals F := fun c b => W11 m ρ D0 D1 D2 c b
theorem hF2 (c : Dev nD) (w : Fin cfg2.W) : (D2.dat (V10 m ρ D0 D1) c).arrAt w cfg2.N = V11 m ρ D0 D1 D2 c (Pipeline.arrRef spec2 w) :=
  (W11_arr m ρ D0 D1 D2 c w).symm
theorem hrest2 (c : Dev nD) : ∀ b, b ∉ Finset.univ.image (Pipeline.arrRef spec2) → V11 m ρ D0 D1 D2 c b = V10 m ρ D0 D1 c b :=
  fun b hb => W11_of_ne m ρ D0 D1 D2 c b fun w e => hb (Finset.mem_image.mpr ⟨w, Finset.mem_univ _, e⟩)

/-- After `hostOps3`: the contents @main returns with. -/
abbrev W12 : Dev nD → Valuation τ sig (Elt F) := fun c => StableHlo.after hostOps3 (W11 m ρ D0 D1 D2 c)

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => D0.dat (V7 m ρ) c
  | ⟨1, _⟩ => fun c => D1.dat (V8 m ρ D0) c
  | ⟨2, _⟩ => fun c => D2.dat (V10 m ρ D0 D1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ D0 D1 D2 c) ∗ ∃ r, prngReg c r)

set_option backward.isDefEq.respectTransparency.types false in
/-- REGION 0 over the thread state: entered from every unscoped buffer at `W7`, left at `W8`. Its
    arrays are split out of the unscoped buffers at entry and put back at the exit contents; the generator register
    goes into the class invariant and comes out; nothing is owed; the kernel has no semaphore of its own. -/
def reg0 : Pipeline.RegionSeg (pcfgs (F := F)) adm (pdats m ρ D0 D1 D2) () defs₀ 𝒱₀ L lv 0 where
  win := launch0.win.to₀
  block_pos := launch0.block_pos
  stage_whole := launch0.stage_whole
  K := PEmpty
  osem k := k.elim
  ho := Pipeline.OwnSemFacts.none _
  hbody c := (D0.hbody (V7 m ρ) c).loose
  hwaits := Pipeline.hwaits_of_owed_zero _ _ _ _ L lv 0 fun c t => D0.howed (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ D0 D1 D2) launch0.win launch0.arr_whole c
      ((pdats m ρ D0 D1 D2 0 c).share_full fun w => D0.hq (V7 m ρ) c w) (V7 m ρ c) fun w => D0.hA (V7 m ρ) c w
    rw [Pipeline.unscopedBufs_held] at hsplit
    have ho : (pdats m ρ D0 D1 D2 0 c).owed 0 = 0 := D0.howed (V7 m ρ) c 0
    have hr : (pdats m ρ D0 D1 D2 0 c).recorded 0 = Set.univ := D0.hrec (V7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D0.hΦin (V7 m ρ) c)
    unfold Pipeline.ΦA
    iintro ⟨Hp, -, Hr⟩
    isplitl [Hr]; · iexact Hr
    iexact Hp
  hout c := by
    rw [Pipeline.ownSems0_none]
    refine BIBase.Entails.trans (D0.hΦout (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2) ((pdats m ρ D0 D1 D2 0 c).share_full fun w => D0.hq (V7 m ρ) c w)
      (V7 m ρ c) (V8 m ρ D0 c) ((pdats m ρ D0 D1 D2 0 c).arrAt · cfg0.N) (hF0 m ρ D0 c) (hrest0 m ρ D0 c)
    rw [Pipeline.unscopedBufs_held] at hjoin
    have ho : (pdats m ρ D0 D1 D2 0 c).owed (Fin.last _) = 0 := D0.howed (V7 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- REGION 1 over the thread state: entered from every unscoped buffer at `W8`, left at `W9`. Its
    arrays are split out of the unscoped buffers at entry and put back at the exit contents; the generator register
    goes into the class invariant and comes out; nothing is owed; the kernel has no semaphore of its own. -/
def reg1 : Pipeline.RegionSeg (pcfgs (F := F)) adm (pdats m ρ D0 D1 D2) () defs₀ 𝒱₀ L lv 1 where
  win := launch1.win.to₀
  block_pos := launch1.block_pos
  stage_whole := launch1.stage_whole
  K := PEmpty
  osem k := k.elim
  ho := Pipeline.OwnSemFacts.none _
  hbody c := (D1.hbody (V8 m ρ D0) c).loose
  hwaits := Pipeline.hwaits_of_owed_zero _ _ _ _ L lv 1 fun c t => D1.howed (V8 m ρ D0) c t
  pre c := iprop(StableHlo.held (c : Thread nD τ) (Pipeline.ucRefs τ sig) (W8 m ρ D0 c) ∗ R c)
  post c := iprop(StableHlo.held (c : Thread nD τ) (Pipeline.ucRefs τ sig) (W9 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V8 m ρ D0 c)
  hentry c := by
    rw [Pipeline.ownSems0_none]
    have hsplit := Pipeline.arrays_of_unscopedBufs (p := 1) (pcfgs (F := F)) adm (pdats m ρ D0 D1 D2) launch1.win launch1.arr_whole c
      ((pdats m ρ D0 D1 D2 1 c).share_full fun w => D1.hq (V8 m ρ D0) c w) (V8 m ρ D0 c) fun w => D1.hA (V8 m ρ D0) c w
    rw [Pipeline.unscopedBufs_held] at hsplit
    have ho : (pdats m ρ D0 D1 D2 1 c).owed 0 = 0 := D1.howed (V8 m ρ D0) c 0
    have hr : (pdats m ρ D0 D1 D2 1 c).recorded 0 = Set.univ := D1.hrec (V8 m ρ D0) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D1.hΦin (V8 m ρ D0) c)
    unfold Pipeline.ΦA
    iintro ⟨Hp, -, Hr⟩
    isplitl [Hr]; · iexact Hr
    iexact Hp
  hout c := by
    rw [Pipeline.ownSems0_none]
    refine BIBase.Entails.trans (D1.hΦout (V8 m ρ D0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2) ((pdats m ρ D0 D1 D2 1 c).share_full fun w => D1.hq (V8 m ρ D0) c w)
      (V8 m ρ D0 c) (V9 m ρ D0 D1 c) ((pdats m ρ D0 D1 D2 1 c).arrAt · cfg1.N) (hF1 m ρ D0 D1 c) (hrest1 m ρ D0 D1 c)
    rw [Pipeline.unscopedBufs_held] at hjoin
    have ho : (pdats m ρ D0 D1 D2 1 c).owed (Fin.last _) = 0 := D1.howed (V8 m ρ D0) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- REGION 2 over the thread state: entered from every unscoped buffer at `W10`, left at `W11`. Its
    arrays are split out of the unscoped buffers at entry and put back at the exit contents; the generator register
    goes into the class invariant and comes out; nothing is owed; the kernel has no semaphore of its own. -/
def reg2 : Pipeline.RegionSeg (pcfgs (F := F)) adm (pdats m ρ D0 D1 D2) () defs₀ 𝒱₀ L lv 2 where
  win := launch2.win.to₀
  block_pos := launch2.block_pos
  stage_whole := launch2.stage_whole
  K := PEmpty
  osem k := k.elim
  ho := Pipeline.OwnSemFacts.none _
  hbody c := (D2.hbody (V10 m ρ D0 D1) c).loose
  hwaits := Pipeline.hwaits_of_owed_zero _ _ _ _ L lv 2 fun c t => D2.howed (V10 m ρ D0 D1) c t
  pre c := iprop(StableHlo.held (c : Thread nD τ) (Pipeline.ucRefs τ sig) (W10 m ρ D0 D1 c) ∗ R c)
  post c := iprop(StableHlo.held (c : Thread nD τ) (Pipeline.ucRefs τ sig) (W11 m ρ D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (V10 m ρ D0 D1 c)
  hentry c := by
    rw [Pipeline.ownSems0_none]
    have hsplit := Pipeline.arrays_of_unscopedBufs (p := 2) (pcfgs (F := F)) adm (pdats m ρ D0 D1 D2) launch2.win launch2.arr_whole c
      ((pdats m ρ D0 D1 D2 2 c).share_full fun w => D2.hq (V10 m ρ D0 D1) c w) (V10 m ρ D0 D1 c) fun w => D2.hA (V10 m ρ D0 D1) c w
    rw [Pipeline.unscopedBufs_held] at hsplit
    have ho : (pdats m ρ D0 D1 D2 2 c).owed 0 = 0 := D2.howed (V10 m ρ D0 D1) c 0
    have hr : (pdats m ρ D0 D1 D2 2 c).recorded 0 = Set.univ := D2.hrec (V10 m ρ D0 D1) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho, hr]
      icases HO with ⟨%W, HO⟩; iexists W; isplitr; · ipureintro; exact fun _ _ => Or.inl trivial
      iexact HO
    isplitl [Hp]; · iexact Hp
    iexact Hrest
  hin c := by
    refine BIBase.Entails.trans ?_ (D2.hΦin (V10 m ρ D0 D1) c)
    unfold Pipeline.ΦA
    iintro ⟨Hp, -, Hr⟩
    isplitl [Hr]; · iexact Hr
    iexact Hp
  hout c := by
    rw [Pipeline.ownSems0_none]
    refine BIBase.Entails.trans (D2.hΦout (V10 m ρ D0 D1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2) ((pdats m ρ D0 D1 D2 2 c).share_full fun w => D2.hq (V10 m ρ D0 D1) c w)
      (V10 m ρ D0 D1 c) (V11 m ρ D0 D1 D2 c) ((pdats m ρ D0 D1 D2 2 c).arrAt · cfg2.N) (hF2 m ρ D0 D1 D2 c) (hrest2 m ρ D0 D1 D2 c)
    rw [Pipeline.unscopedBufs_held] at hjoin
    have ho : (pdats m ρ D0 D1 D2 2 c).owed (Fin.last _) = 0 := D2.howed (V10 m ρ D0 D1) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! # @main as segments, and the launch -/

/-- @main's twelve segments in order: a host segment per stretch from its boundary's contents, a region per
    pallas_call. -/
abbrev segs : List (Pipeline.Seg (pcfgs (F := F)) adm (pdats m ρ D0 D1 D2) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ D0 D1 D2),
    .region (reg1 m ρ D0 D1 D2),
    .host (hseg hostOps2 hostOps2_sub hostOps2_fresh (W9 m ρ D0 D1)),
    .region (reg2 m ρ D0 D1 D2),
    .host (hseg hostOps3 hostOps3_sub hostOps3_fresh (W11 m ρ D0 D1 D2)) ]
/-- @main IS the run of the segments: it is the chain of its items, and the segments' run is the same chain. -/
theorem main_run (c : Dev nD) : main (F := F) c = Pipeline.Seg.run (segs m ρ D0 D1 D2) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W12`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m ρ D0 D1 D2 c b) :=
  Pipeline.θ_run_regions_kit (pcfgs (F := F)) adm (pdats m ρ D0 D1 D2) () cellOf_inj emb₁ defs₀ 𝒱₀ L lv m ρ main (segs m ρ D0 D1 D2)
    (fun c Q => by rw [main_run m ρ D0 D1 D2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ D0 D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ D0 D1 D2 c) s')
      isplitl [Hh] <;> iassumption)
    (hQ := fun s h c => h c)

end Cert.KernelIdeal.Hand

end
-- ==== Proof.KI.R0Body.lean ====
/- Region 0 of the program: the matmul–bias–relu kernel (pipeline 0, a 32×4 grid of 128 points, six windows)
    at a PARAMETER `V`, the buffer contents of each core when the region is entered. Per window its block at a
    point; for the five input windows, that the current staging buffer holds the block whether or not it was
    fetched at the point; the contents the body's one store leaves in the output window's staging buffer as a
    closed function of the five input blocks; the body's triple; the pipeline's proof data and its body
    obligation. -/
import proofs.«124374_j73735998538084_1_alg».proof.Proof.Gen.KernelIdeal.Launch
import proofs.«124374_j73735998538084_1_alg».proof.Proof.Gen.KernelIdeal.Skeleton
import proofs.«124374_j73735998538084_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! ## The windows' blocks -/

/-- Window `w`'s block at point `t`, read off its array as the region finds it (`V`). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's staging buffer

For ANY proof data whose array is `V`'s (`hA`) and whose body leaves the block in place (`hafter`), an input
window's current staging buffer holds its block at every point, fetched there or not: where it is not fetched
its block index has not moved since the point before. No window of this pipeline is cut and none is ever idle.
The activation rows (window 0) are fetched only when the row-tile index moves, one point in four, and the
inverse activation scale (window 4) at the first point only; the three per-column operands at every point. -/

/-- Window 0, the 256×4096 block of activation rows. -/
theorem xBefore_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Window 1, the 4096×1024 block of weight columns. -/
theorem wBefore_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Window 2, the 1×1024 block of the per-column output scale. -/
theorem bsfBefore_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Window 3, the 1×1024 block of the per-column integer bias. -/
theorem bintBefore_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Window 4, the 1×128 row that carries the inverse activation scale in its first entry. -/
theorem invBefore_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's accesses -/

/-- The whole 256×4096 activation buffer. -/
abbrev rX : Rect S256x4096 := Rect.unit (s := S256x4096) ![0, 0] S256x4096.size inb_S256x4096_S256x4096_0_0
/-- The whole 4096×1024 weight buffer. -/
abbrev rW : Rect S4096x1024 := Rect.unit (s := S4096x1024) ![0, 0] S4096x1024.size inb_S4096x1024_S4096x1024_0_0
/-- A whole 1×1024 row buffer (the scale's and the bias's). -/
abbrev rRow : Rect S1x1024 := Rect.unit (s := S1x1024) ![0, 0] S1x1024.size inb_S1x1024_S1x1024_0_0
/-- The 1×1 corner of the 1×128 row: the entry that holds the inverse activation scale. -/
abbrev rInv : Rect S1x128 := Rect.unit (s := S1x128) ![0, 0] S1x1.size inb_S1x128_S1x1_0_0
/-- The whole 256×1024 output buffer. -/
abbrev rO : Rect S256x1024 := Rect.unit (s := S256x1024) ![0, 0] S256x1024.size inb_S256x1024_S256x1024_0_0

/-! ## What the body leaves in the output window's buffer -/

/-- The output window's staging buffer after the body, from the five input blocks: its one store, over the whole
    buffer, of relu((bf16(x · inv) ⬝ w + bint) · bsf), as a single covering piece. `x0` the activation rows,
    `x1` the weight columns, `x2` the scale row, `x3` the bias row, `x4` the row holding the inverse scale. -/
def mmOut (x0 : Vec F S256x4096 .f32) (x1 : Vec F S4096x1024 .bf16) (x2 : Vec F S1x1024 .f32) (x3 : Vec F S1x1024 .f32)
    (x4 : Vec F S1x128 .f32) : Vec F S256x1024 .f32 :=
  View.canon [⟨rO, k0_pay1 (View.ld x4 rInv) (View.ld x0 rX) (View.ld x1 rW) (View.ld x3 rRow) (View.ld x2 rRow)⟩]

/-- The one store is over the whole buffer, so it covers it. -/
theorem mmCover (p0 : Vec F S256x1024 .f32) (y : S256x1024.Idx) :
    ∃ pc ∈ ([⟨rO, p0⟩] : List (View.Piece (Elt F) S256x1024 .f32)), y ∈ pc.1.set :=
  View.cover_of_tiled [⟨rO, p0⟩] S256x1024.size (by rfl) y

/-! ## The body's triple -/

set_option maxHeartbeats 1000000 in
/-- The kernel body on whole staging memrefs, the five inputs' at read contents `x0 … x4` and the output's at
    anything, runs to the continuation holding the inputs' as they were and the output's at `mmOut` of the inputs':
    five loads through literal rectangles, a load of the output buffer whose value is dropped, and the one store over
    the whole output buffer. The grid coordinates `i` are not read. -/
theorem mm_kernel_sound (c : Dev nD) (E : Set ℕ) (i : grid0.Coords)
    (arg2 : Memref sig .tc .vmem S256x4096 .f32) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x128 .f32) (harg6 : arg6.IsWhole) (arg7 : Memref sig .tc .vmem S256x1024 .f32) (harg7 : arg7.IsWhole)
    (x0 : Vec F S256x4096 .f32) (x1 : Vec F S4096x1024 .bf16) (x2 : Vec F S1x1024 .f32) (x3 : Vec F S1x1024 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (mmOut x0 x1 x2 x3 x4)) -∗ K ⟨⟩))
      ⊢ wp frame (wpE (defs₀ (F := F)) Variants.none c none) E
          (cc0__matmul_bias_relu_kernel i arg2 harg2 arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mmCover _)

/-! ## The pipeline's proof data -/

/-- The proof data of pipeline 0 on core `c`: the arrays as the region finds them (`V`); after the body at point
    `t` each input's buffer at its block and the output's at `mmOut` of the five input blocks; the invariant the
    scoped rest and the generator register, untouched; nothing owed; full shares. -/
def mmDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => mmOut (blk0 V c 0 t) (blk0 V c 1 t) (blk0 V c 2 t) (blk0 V c 3 t) (blk0 V c 4 t)
  Φ _ := Pipeline.ΦA spec0 c
  q _ := fullShare
  owed _ := 0

/-- The proof data's arrays are the region-entry contents (the definition projected). -/
theorem mmDat_A (c : Dev nD) (w : Fin cfg0.W) : (mmDat V c).A w = V c (Pipeline.arrRef spec0 w) := by
  dsimp only [mmDat]

/-- What the body leaves, window by window (the definition's case split reduced at each literal window). -/
theorem mmAfter_x (c : Dev nD) (t : Fin cfg0.N) : (mmDat V c).after 0 t = blk0 V c 0 t := by dsimp only [mmDat]
theorem mmAfter_w (c : Dev nD) (t : Fin cfg0.N) : (mmDat V c).after 1 t = blk0 V c 1 t := by dsimp only [mmDat]
theorem mmAfter_bsf (c : Dev nD) (t : Fin cfg0.N) : (mmDat V c).after 2 t = blk0 V c 2 t := by dsimp only [mmDat]
theorem mmAfter_bint (c : Dev nD) (t : Fin cfg0.N) : (mmDat V c).after 3 t = blk0 V c 3 t := by dsimp only [mmDat]
theorem mmAfter_inv (c : Dev nD) (t : Fin cfg0.N) : (mmDat V c).after 4 t = blk0 V c 4 t := by dsimp only [mmDat]

/-- The five inputs' buffers are left at their blocks. -/
theorem mmDat_after_in (c : Dev nD) (t : Fin cfg0.N) :
    (mmDat V c).after 0 t = blk0 V c 0 t ∧ (mmDat V c).after 1 t = blk0 V c 1 t ∧ (mmDat V c).after 2 t = blk0 V c 2 t
      ∧ (mmDat V c).after 3 t = blk0 V c 3 t ∧ (mmDat V c).after 4 t = blk0 V c 4 t :=
  ⟨mmAfter_x V c t, mmAfter_w V c t, mmAfter_bsf V c t, mmAfter_bint V c t, mmAfter_inv V c t⟩

/-- The output's buffer is left at `mmOut` of the five input blocks. -/
theorem mmDat_after_out (c : Dev nD) (t : Fin cfg0.N) :
    (mmDat V c).after 5 t = mmOut (blk0 V c 0 t) (blk0 V c 1 t) (blk0 V c 2 t) (blk0 V c 3 t) (blk0 V c 4 t) := by
  dsimp only [mmDat]

/-- Each input's current staging buffer holds its block at every point, fetched there or not. -/
theorem mmBefore_x (c : Dev nD) (t : Fin cfg0.N) (d) : (mmDat V c).before 0 t d = blk0 V c 0 t :=
  xBefore_of V (mmDat V c) (mmDat_A V c 0) (mmAfter_x V c) t d
theorem mmBefore_w (c : Dev nD) (t : Fin cfg0.N) (d) : (mmDat V c).before 1 t d = blk0 V c 1 t :=
  wBefore_of V (mmDat V c) (mmDat_A V c 1) (mmAfter_w V c) t d
theorem mmBefore_bsf (c : Dev nD) (t : Fin cfg0.N) (d) : (mmDat V c).before 2 t d = blk0 V c 2 t :=
  bsfBefore_of V (mmDat V c) (mmDat_A V c 2) (mmAfter_bsf V c) t d
theorem mmBefore_bint (c : Dev nD) (t : Fin cfg0.N) (d) : (mmDat V c).before 3 t d = blk0 V c 3 t :=
  bintBefore_of V (mmDat V c) (mmDat_A V c 3) (mmAfter_bint V c) t d
theorem mmBefore_inv (c : Dev nD) (t : Fin cfg0.N) (d) : (mmDat V c).before 4 t d = blk0 V c 4 t :=
  invBefore_of V (mmDat V c) (mmDat_A V c 4) (mmAfter_inv V c) t d

/-! ## The body obligation, at a generic point -/

/-- What the body is called with at point `t`, the windows one by one, -/
def mmBodyPre (c : Dev nD) (t : Fin cfg0.N) : sProp 𝕄 :=
  iprop((mmDat V c).Φ t.castSucc ∗ (mmDat V c).owesAt () t.castSucc
    ∗ (∃ d, owns (c : Thread nD τ) (st0_0 t) fullShare ((mmDat V c).before 0 t d))
    ∗ (∃ d, owns (c : Thread nD τ) (st0_1 t) fullShare ((mmDat V c).before 1 t d))
    ∗ (∃ d, owns (c : Thread nD τ) (st0_2 t) fullShare ((mmDat V c).before 2 t d))
    ∗ (∃ d, owns (c : Thread nD τ) (st0_3 t) fullShare ((mmDat V c).before 3 t d))
    ∗ (∃ d, owns (c : Thread nD τ) (st0_4 t) fullShare ((mmDat V c).before 4 t d))
    ∗ (∃ d, owns (c : Thread nD τ) (st0_5 t) fullShare ((mmDat V c).before 5 t d)))

/-- and what it returns. -/
def mmBodyPost (c : Dev nD) (t : Fin cfg0.N) : sProp 𝕄 :=
  iprop((mmDat V c).Φ t.succ ∗ (mmDat V c).owesAt () t.succ
    ∗ owns (c : Thread nD τ) (st0_0 t) fullShare ((mmDat V c).after 0 t)
    ∗ owns (c : Thread nD τ) (st0_1 t) fullShare ((mmDat V c).after 1 t)
    ∗ owns (c : Thread nD τ) (st0_2 t) fullShare ((mmDat V c).after 2 t)
    ∗ owns (c : Thread nD τ) (st0_3 t) fullShare ((mmDat V c).after 3 t)
    ∗ owns (c : Thread nD τ) (st0_4 t) fullShare ((mmDat V c).after 4 t)
    ∗ owns (c : Thread nD τ) (st0_5 t) fullShare ((mmDat V c).after 5 t))

/-- The body at any point: the five inputs' memrefs hold their blocks, so the kernel's triple applies; the
    invariant and the core's owed amount pass through unread. -/
theorem mm_body_sound (c : Dev nD) (t : Fin cfg0.N) :
    mmBodyPre V c t ⊢ wp frame (wpE (defs₀ (F := F)) Variants.none c none) Set.univ (bodyAt0 t) (fun _ => mmBodyPost V c t) := by
  unfold mmBodyPre mmBodyPost bodyAt0
  simp only [mmBefore_x, mmBefore_w, mmBefore_bsf, mmBefore_bint, mmBefore_inv]
  rw [show (mmDat V c).Φ t.succ = (mmDat V c).Φ t.castSucc from rfl,
    show (mmDat V c).owesAt () t.succ = (mmDat V c).owesAt () t.castSucc from rfl,
    mmAfter_x, mmAfter_w, mmAfter_bsf, mmAfter_bint, mmAfter_inv, mmDat_after_out]
  iintro ⟨HΦ, Ho, ⟨%d0, H0⟩, ⟨%d1, H1⟩, ⟨%d2, H2⟩, ⟨%d3, H3⟩, ⟨%d4, H4⟩, ⟨%d5, H5⟩⟩
  iapply (mm_kernel_sound c Set.univ _ _ _ _ _ _ _ _ _ _ _ _ _
    (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem mm_obligation (c : Dev nD) : BodyObligation (mmDat (F := F) V c) (defs₀ (F := F)) Variants.none () Set.univ := fun t => by
  rw [bigSep_W0, bigSep_W0]
  exact mm_body_sound V c t

end Cert.KernelIdeal.Hand

end
-- ==== Proof.KI.R1Body.lean ====
/- Region 1 of @main (the running maximum): at every grid point the body folds the maximum of
    the input block into a 1x1 scratch cell it carries from point to point (zeroed at the first point), and at
    the last point copies the cell into the output window's buffer. Stated at the buffer contents `V` the
    region is entered with: the blocks, the cell's contents after each point, the proof data, the body
    obligation and the invariant's two ends. -/
import proofs.«124374_j73735998538084_1_alg».proof.Proof.Gen.KernelIdeal.Launch
import proofs.«124374_j73735998538084_1_alg».proof.Proof.Gen.KernelIdeal.Skeleton
import proofs.«124374_j73735998538084_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! ## The windows' blocks -/

/-- Window `w`'s block at point `t`, read off its array as the region finds it (`V`). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is uncut and never idle. -/
theorem mx_before_in_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- The body zeroes the cell: the first `scf.if`'s condition, from the grid coordinate. -/
abbrev mxResetAt (i : grid1.Coords) : Prop := (Scalar.cmpi .ne (Scalar.extui (Scalar.cmpi .eq (BitVec.ofNat 32 (i 0).val) 0#32)) 0#32) = 1#1
/-- It holds at the first point only. -/
theorem mxResetAt_iff : ∀ t : Fin cfg1.N, mxResetAt (grid1.coords t) ↔ t.val % 16 = 0 :=
  (by decide +kernel : ∀ t : Fin grid1.N, mxResetAt (grid1.coords t) ↔ t.val % 16 = 0)
/-- The body copies the cell to the output: the second `scf.if`'s condition. -/
abbrev mxEmitAt (i : grid1.Coords) : Prop := k1_cond2 i = 1#1
/-- It holds at the last point only. -/
theorem mxEmitAt_iff : ∀ t : Fin cfg1.N, mxEmitAt (grid1.coords t) ↔ t.val % 16 = 15 :=
  (by decide +kernel : ∀ t : Fin grid1.N, mxEmitAt (grid1.coords t) ↔ t.val % 16 = 15)

/-- The input window is never idle. -/
theorem mx_in_live : ∀ t : Fin cfg1.N, cfg1.idle 0 (grid1.coords t) = false := by decide +kernel
/-- Where the body does not copy the cell out, the output window is idle, -/
theorem mx_out_idle : ∀ t : Fin cfg1.N, ¬mxEmitAt (grid1.coords t) → cfg1.idle 1 (grid1.coords t) = true := by decide +kernel
/-- and is not written back; -/
theorem mx_out_noFlush : ∀ t : Fin cfg1.N, ¬mxEmitAt (grid1.coords t) → (cfg1.win 1).flush t = false := by decide +kernel
/-- where it does, the window is live. -/
theorem mx_out_live : ∀ t : Fin cfg1.N, mxEmitAt (grid1.coords t) → cfg1.idle 1 (grid1.coords t) = false := by decide +kernel

/-! ## The body's triple, case by case -/

/-- The stores' and loads' offsets are zero. -/
theorem mx_off0 : (![0, 0] : Fin 2 → Nat) = fun _ => 0 := funext fun a => by fin_cases a <;> rfl

set_option maxHeartbeats 1000000 in
/-- THE FIRST POINT (the cell zeroed, nothing copied out): on whole memrefs — the input's at `x0`, the idle output's
    at `xi`, the cell's at anything — the body runs to the continuation holding the input's and the output's as they
    were and the cell at the maximum of zero and the block's. -/
theorem mx_run_first (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : mxResetAt i) (he : ¬mxEmitAt i) (x0 : Vec F S512x4096 .f32) (xi : Vec F S1x1 .f32) (E : Set ℕ) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi
              ∗ owns (c : Thread nD τ) arg3 fullShare (k1_pay2 x0 (k1_pay1 (F := F)))) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hr | exact he)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0, View.readCov_unit_zero (S := S1x1) _ mx_off0]
  simp only [View.readAt_eq_ld, harg1.read_unread, View.ld_unit_zero (S := S512x4096) mx_off0]

set_option maxHeartbeats 1000000 in
/-- A POINT BETWEEN (nothing zeroed, nothing copied out): the cell comes in at `xs`, what the point before left, and
    goes out at the maximum of that and the block's. -/
theorem mx_run_mid (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : ¬mxResetAt i) (he : ¬mxEmitAt i) (x0 : Vec F S512x4096 .f32) (xi xs : Vec F S1x1 .f32) (E : Set ℕ) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi
              ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg3.eq_unread hfs
  sl_exec (disch := first | exact hr | exact he)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0]
  simp only [View.readAt_eq_ld, harg1.read_unread, harg3.read_unread, View.ld_unit_zero (S := S512x4096) mx_off0, View.ld_unit_zero (S := S1x1) mx_off0]

set_option maxHeartbeats 1000000 in
/-- THE LAST POINT (nothing zeroed, the cell copied out): the cell comes in at `xs`; the output's buffer, handed at
    anything, and the cell both go out at the maximum of `xs` and the block's. -/
theorem mx_run_last (c : Dev nD) (i : grid1.Coords) (arg1 : Memref sig .tc .vmem S512x4096 .f32) (harg1 : arg1.IsWhole)
    (arg2 : Memref sig .tc .vmem S1x1 .f32) (harg2 : arg2.IsWhole) (arg3 : Memref sig .tc .vmem S1x1 .f32) (harg3 : arg3.IsWhole)
    (hr : ¬mxResetAt i) (he : mxEmitAt i) (x0 : Vec F S512x4096 .f32) (xs : Vec F S1x1 .f32) (E : Set ℕ) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs)
              ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hr | exact he)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (fun y => ⟨_, List.mem_cons_self, View.mem_set_unit_zero mx_off0 inb_S1x1_S1x1_0_0 y⟩)]
    rw [View.canon_cons_unit_zero (S := S1x1) mx_off0, View.readCov_unit_zero (S := S1x1) _ mx_off0]
    simp only [View.readAt_eq_ld, harg1.read_unread, harg3.read_unread, View.ld_unit_zero (S := S512x4096) mx_off0, View.ld_unit_zero (S := S1x1) mx_off0]
  iexists _; isplitr
  swap; · iexact HS
  ipureintro
  sl_unfold_words
  rw [View.read_writes_eq_canon _ _ _ (fun y => ⟨_, List.mem_cons_self, View.mem_set_unit_zero mx_off0 inb_S1x1_S1x1_0_0 y⟩)]
  rw [View.canon_cons_unit_zero (S := S1x1) mx_off0]
  simp only [View.readAt_eq_ld, harg1.read_unread, harg3.read_unread, View.ld_unit_zero (S := S512x4096) mx_off0, View.ld_unit_zero (S := S1x1) mx_off0]

/-! ## The cell after each point -/

/-- The 1x1 cell the kernel carries between points, as a memref (a whole scoped buffer of its own). -/
abbrev mxCell : Memref sig .tc .vmem S1x1 .f32 := Memref.whole cc1_scratch0

/-- THE RUNNING MAXIMUM. What the cell holds after the body at point `n`: at the first point the maximum of zero and
    the first block's, afterwards the maximum of what the point before left and this point's block's. -/
def mxAcc (c : Dev nD) : (n : ℕ) → n < cfg1.N → Vec F S1x1 .f32
  | 0, h => k1_pay2 (blk1 V c 0 ⟨0, h⟩) (k1_pay1 (F := F))
  | n + 1, h => k1_pay2 (blk1 V c 0 ⟨n + 1, h⟩) (mxAcc c n (Nat.lt_of_succ_lt h))

theorem mxAcc_zero (c : Dev nD) (h : 0 < cfg1.N) : mxAcc V c 0 h = k1_pay2 (blk1 V c 0 ⟨0, h⟩) (k1_pay1 (F := F)) := rfl

theorem mxAcc_succ (c : Dev nD) (n : ℕ) (h : n + 1 < cfg1.N) :
    mxAcc V c (n + 1) h = k1_pay2 (blk1 V c 0 ⟨n + 1, h⟩) (mxAcc V c n (Nat.lt_of_succ_lt h)) := rfl

/-- At the first point, read at a point of the grid. -/
theorem mxAcc_first (c : Dev nD) (t : Fin cfg1.N) (hz : t.val = 0) :
    mxAcc V c t.val t.isLt = k1_pay2 (blk1 V c 0 t) (k1_pay1 (F := F)) := by
  obtain ⟨n, hn⟩ := t
  cases n with
  | zero => rfl
  | succ n => exact absurd hz (Nat.succ_ne_zero n)

/-- At a later point: over what the point before left. -/
theorem mxAcc_later (c : Dev nD) (t : Fin cfg1.N) (hz : t.val ≠ 0) :
    mxAcc V c t.val t.isLt = k1_pay2 (blk1 V c 0 t) (mxAcc V c (t.val - 1) (Nat.lt_of_le_of_lt (Nat.sub_le _ _) t.isLt)) := by
  obtain ⟨n, hn⟩ := t
  cases n with
  | zero => exact absurd rfl hz
  | succ n => rfl

/-! ## The invariant: the cell named beside the other scoped buffers -/

/-- The core's scoped buffers that are neither a staging buffer of this pipeline nor the cell — the other two
    pipelines' staging buffers —, each whole at some contents. -/
def mxOthers (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- What the launch hands the region holds the cell at some contents, the other scoped buffers, and the generator
    register at some state; -/
theorem mxPhiA_open (c : Dev nD) :
    (Pipeline.ΦA spec1 c : sProp 𝕄) ⊢ iprop((∃ d, owns (c : Thread nD τ) mxCell fullShare d) ∗ mxOthers (F := F) c ∗ (∃ r, prngReg c r)) := by
  unfold Pipeline.ΦA mxOthers; rw [scopedRest1_eq]; simp only [mxCell, owns_whole]
  iintro ⟨⟨B1, B2, B3, B4, B5, B6, B7, B8, B9, B10, B11, HS, B12, B13, B14, B15, B16⟩, Hg⟩
  isplitl [HS]; · iexact HS
  isplitr [Hg]; swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  iexact B16

/-- and those three give it back. -/
theorem mxPhiA_close (c : Dev nD) :
    iprop((∃ d, owns (c : Thread nD τ) mxCell fullShare d) ∗ mxOthers (F := F) c ∗ (∃ r, prngReg c r)) ⊢ (Pipeline.ΦA spec1 c : sProp 𝕄) := by
  unfold Pipeline.ΦA mxOthers; rw [scopedRest1_eq]; simp only [mxCell, owns_whole]
  iintro ⟨HS, ⟨B1, B2, B3, B4, B5, B6, B7, B8, B9, B10, B11, B12, B13, B14, B15, B16⟩, Hg⟩
  isplitr [Hg]; swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [HS]; · iexact HS
  isplitl [B12]; · iexact B12
  isplitl [B13]; · iexact B13
  isplitl [B14]; · iexact B14
  isplitl [B15]; · iexact B15
  iexact B16

/-- The region invariant before position `n`: before the first point what the launch hands over; afterwards the cell
    owned at what the point before left in it, the other scoped buffers at some contents, the generator register
    at some state. -/
def mxPhi (c : Dev nD) : (n : ℕ) → n ≤ cfg1.N → sProp 𝕄
  | 0, _ => Pipeline.ΦA spec1 c
  | n + 1, hn => iprop(owns (c : Thread nD τ) mxCell fullShare (mxAcc V c n hn) ∗ mxOthers (F := F) c ∗ (∃ r, prngReg c r))

theorem mxPhi_zero (c : Dev nD) (n : ℕ) (h : n ≤ cfg1.N) (hz : n = 0) : mxPhi V c n h = Pipeline.ΦA spec1 c := by
  subst hz; rfl

/-- After point `n` (before point `n + 1`). -/
theorem mxPhi_succ (c : Dev nD) (n : ℕ) (hn : n < cfg1.N) :
    mxPhi V c (n + 1) hn = iprop(owns (c : Thread nD τ) mxCell fullShare (mxAcc V c n hn) ∗ mxOthers (F := F) c ∗ (∃ r, prngReg c r)) := rfl

/-- Before a point that is not the first. -/
theorem mxPhi_pos (c : Dev nD) (n : ℕ) (h : n ≤ cfg1.N) (hz : n ≠ 0) :
    mxPhi V c n h = iprop(owns (c : Thread nD τ) mxCell fullShare (mxAcc V c (n - 1) (by omega)) ∗ mxOthers (F := F) c ∗ (∃ r, prngReg c r)) := by
  cases n with
  | zero => exact absurd rfl hz
  | succ n => rfl

/-! ## The pipeline's proof data -/

/-- The proof data of this pipeline on core `c`: the arrays as the region finds them (`V`); after the body at point
    `t` the input's buffer at its block and the output's at the running maximum (consulted at the last point only:
    elsewhere the window is idle); the invariant `mxPhi`; nothing owed; full shares. -/
def mxDat (c : Dev nD) : Dat τ (Elt F) Unit ℕ (UR sig nD τ) ℕ cfg1 c where
  A w := V c (Pipeline.arrRef spec1 w)
  after w t := match w with
    | ⟨0, _⟩ => blk1 V c 0 t
    | ⟨1, _⟩ => mxAcc V c t.val t.isLt
  Φ t := mxPhi V c t.val (Nat.le_of_lt_succ t.isLt)
  q _ := fullShare
  owed _ := 0

theorem mxDat_A (c : Dev nD) (w : Fin cfg1.W) : (mxDat V c).A w = V c (Pipeline.arrRef spec1 w) := by
  dsimp only [mxDat]

theorem mxDat_after_in (c : Dev nD) (t : Fin cfg1.N) : (mxDat V c).after 0 t = blk1 V c 0 t := by dsimp only [mxDat]
theorem mxDat_after_out (c : Dev nD) (t : Fin cfg1.N) : (mxDat V c).after 1 t = mxAcc V c t.val t.isLt := by dsimp only [mxDat]

example (c : Dev nD) (t : Fin (cfg1.N + 1)) : (mxDat V c).owed t = 0 := rfl
example (c : Dev nD) (w : Fin cfg1.W) : (mxDat V c).q w = fullShare := rfl

/-- The invariant at a point's start, restated at `t.val`. -/
theorem mxPhi_castSucc (c : Dev nD) (t : Fin cfg1.N) :
    (mxDat V c).Φ t.castSucc = mxPhi V c t.val (Nat.le_of_lt t.isLt) := by
  dsimp only [mxDat]; simp only [Fin.coe_castSucc]

/-- The input's current staging buffer holds its block at every point, fetched there or not. -/
theorem mx_before_in (c : Dev nD) (t : Fin cfg1.N) (d) : (mxDat V c).before 0 t d = blk1 V c 0 t :=
  mx_before_in_of V (mxDat V c) (mxDat_A V c 0) (mxDat_after_in V c) t d

/-! ## The body obligation, at a generic point -/

/-- What the body is called with at point `t` (the obligation's precondition, the windows one by one), -/
def mxPre (c : Dev nD) (t : Fin cfg1.N) : sProp 𝕄 :=
  iprop((mxDat V c).Φ t.castSucc ∗ (mxDat V c).owesAt () t.castSucc
    ∗ (∃ d, owns (c : Thread nD τ) (st1_0 t) fullShare ((mxDat V c).before 0 t d))
    ∗ (∃ d, owns (c : Thread nD τ) (st1_1 t) fullShare ((mxDat V c).before 1 t d)))

/-- and what it returns. -/
def mxPost (c : Dev nD) (t : Fin cfg1.N) : sProp 𝕄 :=
  iprop((mxDat V c).Φ t.succ ∗ (mxDat V c).owesAt () t.succ
    ∗ (mxDat V c).leavesExact 0 t
    ∗ (mxDat V c).leavesExact 1 t)

set_option maxHeartbeats 4000000 in
/-- The body at any point. The input's memref holds its block; the point is the first, the last, or one between, and
    the case's triple applies: the invariant hands the body the cell at what the point before left (at anything at
    the first point, out of what the launch handed over) and takes it back at this point's maximum, the other scoped
    buffers and the generator register passing through; the output's buffer is handed back untouched where the
    window is idle, and at the last point holds the maximum; the core owes nothing throughout. -/
theorem mx_body (c : Dev nD) (t : Fin cfg1.N) :
    mxPre V c t ⊢ wp frame (wpE (defs₀ (F := F)) Variants.none c none) Set.univ (bodyAt1 t) (fun _ => mxPost V c t) := by
  unfold mxPre mxPost bodyAt1
  simp only [mx_before_in]
  rw [show (mxDat V c).owesAt () t.succ = (mxDat V c).owesAt () t.castSucc from rfl]
  rw [show (mxDat V c).Φ t.succ = mxPhi V c (t.val + 1) t.isLt from rfl, mxPhi_succ]
  rw [show (mxDat V c).leavesExact 0 t = owns (c : Thread nD τ) (st1_0 t) fullShare ((mxDat V c).after 0 t) from by
    unfold Dat.leavesExact; rw [mx_in_live t], mxDat_after_in]
  have hN : t.val < 16 := lt_of_lt_of_eq t.isLt (show cfg1.N = 16 from N_1)
  by_cases hz : t.val = 0
  · have hr : mxResetAt (grid1.coords t) := (mxResetAt_iff t).mpr (by omega)
    have he : ¬mxEmitAt (grid1.coords t) := fun h => by have := (mxEmitAt_iff t).mp h; omega
    rw [Dat.leavesExact_idle (mxDat V c) 1 t (mx_out_idle t he) (mx_out_noFlush t he)]
    rw [mxAcc_first V c t hz, mxPhi_castSucc V c t, mxPhi_zero V c _ _ hz]
    iintro ⟨HΦ, Ho, ⟨%d0, H0⟩, ⟨%d1, H1⟩⟩
    icases (mxPhiA_open (F := F) c) $$ HΦ with ⟨HS, Hoth, Hg⟩
    iapply (mx_run_first c (grid1.coords t) _ _ _ _ _ _ hr he (blk1 V c 0 t) _ Set.univ _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexists _; iexact H1
  · have hr : ¬mxResetAt (grid1.coords t) := fun h => hz (by have := (mxResetAt_iff t).mp h; omega)
    rw [mxPhi_castSucc V c t, mxPhi_pos V c _ _ hz]
    by_cases hl : t.val = 15
    · have he : mxEmitAt (grid1.coords t) := (mxEmitAt_iff t).mpr (by omega)
      rw [show (mxDat V c).leavesExact 1 t = owns (c : Thread nD τ) (st1_1 t) fullShare ((mxDat V c).after 1 t) from by
        unfold Dat.leavesExact; rw [mx_out_live t he], mxDat_after_out]
      rw [mxAcc_later V c t hz]
      iintro ⟨⟨HS, Hoth, Hg⟩, Ho, ⟨%d0, H0⟩, ⟨%d1, H1⟩⟩
      iapply (mx_run_last c (grid1.coords t) _ _ _ _ _ _ hr he (blk1 V c 0 t) _ Set.univ _)
      isplitl [H0]; · iexact H0
      isplitl [H1]; · iexists _; iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexact H1
    · have he : ¬mxEmitAt (grid1.coords t) := fun h => hl (by have := (mxEmitAt_iff t).mp h; omega)
      rw [Dat.leavesExact_idle (mxDat V c) 1 t (mx_out_idle t he) (mx_out_noFlush t he)]
      rw [mxAcc_later V c t hz]
      iintro ⟨⟨HS, Hoth, Hg⟩, Ho, ⟨%d0, H0⟩, ⟨%d1, H1⟩⟩
      iapply (mx_run_mid c (grid1.coords t) _ _ _ _ _ _ hr he (blk1 V c 0 t) _ _ Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

/-- The library's body obligation, at every point. -/
theorem mx_obligation (c : Dev nD) : BodyObligation (mxDat (F := F) V c) (defs₀ (F := F)) Variants.none () Set.univ := fun t => by
  rw [bigSep_W1, bigSep_W1]
  exact mx_body V c t

/-! ## The invariant's two ends -/

/-- What the launch hands the region is the invariant before the first point. -/
theorem mx_in (c : Dev nD) : (Pipeline.ΦA spec1 c : sProp 𝕄) ⊢ (mxDat V c).Φ 0 := by
  rw [show (mxDat V c).Φ 0 = mxPhi V c 0 (Nat.zero_le _) from rfl, mxPhi_zero V c 0 _ rfl]
  try exact Idealize.SL.BI.Entails.refl _

/-- After the last point the invariant gives it back: the cell's named contents are forgotten. -/
theorem mx_out (c : Dev nD) : (mxDat V c).Φ (Fin.last cfg1.N) ⊢ (Pipeline.ΦA spec1 c : sProp 𝕄) := by
  have hne : (Fin.last cfg1.N).val ≠ 0 := by rw [Fin.val_last]; have : cfg1.N = 16 := N_1; omega
  rw [show (mxDat V c).Φ (Fin.last cfg1.N) = mxPhi V c (Fin.last cfg1.N).val (Nat.le_of_lt_succ (Fin.last cfg1.N).isLt) from rfl,
    mxPhi_pos V c _ _ hne]
  iintro ⟨HS, Hoth, Hg⟩
  iapply (mxPhiA_close (F := F) c)
  isplitl [HS]; · iexists _; iexact HS
  isplitl [Hoth]; · iexact Hoth
  iexact Hg

end Cert.KernelIdeal.Hand

end
-- ==== Proof.KI.R2Body.lean ====
/- Region 2 of @main at a parameter: the requantisation call (pipeline 2; 32 grid points; three windows: the
   256x4096 row band of the activations, the 1x128 row holding the scale, and the 256x4096 row band of the result).
   At the buffer contents `V` the core holds when the region is entered: each window's block at a point, the
   contents the body leaves in the result window's staging buffer as a closed function of the two input blocks,
   the body's triple, the pipeline's proof data and the body obligation at every grid point. -/
import proofs.«124374_j73735998538084_1_alg».proof.Proof.Gen.KernelIdeal.Launch
import proofs.«124374_j73735998538084_1_alg».proof.Proof.Gen.KernelIdeal.Skeleton
import proofs.«124374_j73735998538084_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of core c when the region is entered: a PARAMETER of everything in this module
variable (V : (c : Dev nD) → (b : Ref sig .tc) → Buf (Elt F) ((c : Thread nD τ).loc b))

/-! # Region 2 of @main: the requantisation call (pipeline 2), at the entry contents `V` -/

/-! ## The windows' blocks -/

/-- Window `w`'s block at point `t`, read off its array as the region finds it (`V`). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window (window 0) holds its row band at every point, for ANY proof data whose array is `V`'s
    and whose body leaves the block in place: where a point does not fetch it the block index has not moved. The
    window is uncut and never idle. -/
theorem rqBefore_act_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The scale's window (window 1) is fetched at the first point only and its block index is constant: at every later
    point the buffer still holds the one block, which is that point's block too. Same statement, same reason. -/
theorem rqBefore_scale_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The body's accesses -/

/-- The whole 256x4096 buffer: the rectangle of the activations' load and of the result's load and store. -/
abbrev rqWhole : Rect S256x4096 := Rect.unit (s := S256x4096) ![0, 0] S256x4096.size inb_S256x4096_S256x4096_0_0
/-- The 1x1 corner of the 1x128 row: the rectangle the scale is loaded through. -/
abbrev rqCorner : Rect S1x128 := Rect.unit (s := S1x128) ![0, 0] S1x1.size inb_S1x128_S1x1_0_0

/-! ## What the body leaves in the result window's buffer -/

/-- The result window's staging buffer after the body, from the two input blocks: its one store as a piece — the
    whole rectangle, holding the requantised band computed from the scale (the corner of the 1x128 row) and the
    activations' band. -/
def rqOut (x0 : Vec F S256x4096 .f32) (x1 : Vec F S1x128 .f32) : Vec F S256x4096 .f32 :=
  View.canon [⟨rqWhole, k2_pay1 (View.ld x1 rqCorner) (View.ld x0 rqWhole)⟩]

/-- The one store's rectangle is the whole buffer (checked by evaluation), so it covers it. -/
theorem rqCover (p0 : Vec F S256x4096 .f32) (y : S256x4096.Idx) :
    ∃ pc ∈ ([⟨rqWhole, p0⟩] : List (View.Piece (Elt F) S256x4096 .f32)), y ∈ pc.1.set :=
  View.cover_of_tiled [⟨rqWhole, p0⟩] S256x4096.size (by rfl) y

/-! ## The body's triple -/

set_option maxHeartbeats 1000000 in
/-- The kernel body on whole staging memrefs — the activations' at read contents `x0`, the scale's at `x1`, the
    result's at anything — runs to the continuation holding the inputs' as they were and the result's at
    `rqOut x0 x1`: the printed function is its skeleton, two loads of the inputs, one (dead) load of the result's
    buffer and one store over all of it. -/
theorem rqKernel (c : Dev nD) (E : Set ℕ) (i : grid2.Coords)
    (arg1 : Memref sig .tc .vmem S256x4096 .f32) (harg1 : arg1.IsWhole) (arg2 : Memref sig .tc .vmem S1x128 .f32) (harg2 : arg2.IsWhole)
    (arg3 : Memref sig .tc .vmem S256x4096 .f32) (harg3 : arg3.IsWhole)
    (x0 : Vec F S256x4096 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rqOut x0 x1)) -∗ K ⟨⟩))
      ⊢ wp frame (wpE (defs₀ (F := F)) Variants.none c none) E (cc2__requant_kernel i arg1 harg1 arg2 harg2 arg3 harg3) K := by
  simp only [cc2__requant_kernel_eq_skeleton]; unfold cc2__requant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (rqCover _)

/-! ## The pipeline's proof data -/

/-- The proof data of pipeline 2 on core `c`: the arrays as the region finds them (`V`); after the body at point
    `t` each input's buffer at its block and the result's at `rqOut` of the two input blocks; the invariant the
    scoped rest and the generator register, untouched; nothing owed; full shares. -/
def rqDat (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => rqOut (blk2 V c 0 t) (blk2 V c 1 t)
  Φ _ := Pipeline.ΦA spec2 c
  q _ := fullShare
  owed _ := 0

/-- The proof data's arrays are the region-entry contents. -/
theorem rqDat_A (c : Dev nD) (w : Fin cfg2.W) : (rqDat V c).A w = V c (Pipeline.arrRef spec2 w) := by
  dsimp only [rqDat]

/-- What the body leaves in the input windows: their blocks. -/
theorem rqDat_after_in (c : Dev nD) (t : Fin cfg2.N) : (rqDat V c).after 0 t = blk2 V c 0 t ∧ (rqDat V c).after 1 t = blk2 V c 1 t := by
  constructor <;> dsimp only [rqDat]

/-- What the body leaves in the result window: the requantised band of the two input blocks. -/
theorem rqDat_after_out (c : Dev nD) (t : Fin cfg2.N) : (rqDat V c).after 2 t = rqOut (blk2 V c 0 t) (blk2 V c 1 t) := by
  dsimp only [rqDat]

/-- Each input's current staging buffer holds its block at every point, fetched there or not. -/
theorem rqDat_before_act (c : Dev nD) (t : Fin cfg2.N) (d) : (rqDat V c).before 0 t d = blk2 V c 0 t :=
  rqBefore_act_of V (rqDat V c) (rqDat_A V c 0) (fun t => (rqDat_after_in V c t).1) t d
theorem rqDat_before_scale (c : Dev nD) (t : Fin cfg2.N) (d) : (rqDat V c).before 1 t d = blk2 V c 1 t :=
  rqBefore_scale_of V (rqDat V c) (rqDat_A V c 1) (fun t => (rqDat_after_in V c t).2) t d

/-! ## The body obligation, at a generic point -/

/-- What the body is called with at point `t` (the body obligation's precondition, the windows one by one), -/
def rqBodyPre (c : Dev nD) (t : Fin cfg2.N) : sProp 𝕄 :=
  iprop((rqDat V c).Φ t.castSucc ∗ (rqDat V c).owesAt () t.castSucc
    ∗ (∃ d, owns (c : Thread nD τ) (st2_0 t) fullShare ((rqDat V c).before 0 t d))
    ∗ (∃ d, owns (c : Thread nD τ) (st2_1 t) fullShare ((rqDat V c).before 1 t d))
    ∗ (∃ d, owns (c : Thread nD τ) (st2_2 t) fullShare ((rqDat V c).before 2 t d)))

/-- and what it returns. -/
def rqBodyPost (c : Dev nD) (t : Fin cfg2.N) : sProp 𝕄 :=
  iprop((rqDat V c).Φ t.succ ∗ (rqDat V c).owesAt () t.succ
    ∗ owns (c : Thread nD τ) (st2_0 t) fullShare ((rqDat V c).after 0 t)
    ∗ owns (c : Thread nD τ) (st2_1 t) fullShare ((rqDat V c).after 1 t)
    ∗ owns (c : Thread nD τ) (st2_2 t) fullShare ((rqDat V c).after 2 t))

/-- The body at any point: the inputs' memrefs hold their blocks, so the body's triple applies; the invariant and
    the core's `owes` pass through unread. -/
theorem rqBody (c : Dev nD) (t : Fin cfg2.N) :
    rqBodyPre V c t ⊢ wp frame (wpE (defs₀ (F := F)) Variants.none c none) Set.univ (bodyAt2 t) (fun _ => rqBodyPost V c t) := by
  unfold rqBodyPre rqBodyPost bodyAt2
  simp only [rqDat_before_act, rqDat_before_scale]
  rw [show (rqDat V c).Φ t.succ = (rqDat V c).Φ t.castSucc from rfl,
    show (rqDat V c).owesAt () t.succ = (rqDat V c).owesAt () t.castSucc from rfl,
    (rqDat_after_in V c t).1, (rqDat_after_in V c t).2, rqDat_after_out]
  iintro ⟨HΦ, Ho, ⟨%d0, H0⟩, ⟨%d1, H1⟩, ⟨%d2, H2⟩⟩
  iapply (rqKernel c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem rq_obligation (c : Dev nD) : BodyObligation (rqDat (F := F) V c) (defs₀ (F := F)) Variants.none () Set.univ := fun t => by
  rw [bigSep_W2, bigSep_W2]
  exact rqBody V c t

end Cert.KernelIdeal.Hand

end
-- ==== Proof.KI.Inst.lean ====
/-
  The three kernel regions' proof data put into the run of the whole program, and what that run leaves in the
  argument arrays: no host operation writes an argument, and a region changes only its output windows' arrays, so
  every argument array ends holding its launch contents.
-/
import proofs.«124374_j73735998538084_1_alg».proof.Proof.KI.Run
import proofs.«124374_j73735998538084_1_alg».proof.Proof.KI.R0Body
import proofs.«124374_j73735998538084_1_alg».proof.Proof.KI.R1Body
import proofs.«124374_j73735998538084_1_alg».proof.Proof.KI.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The matmul region's proof data, at any entry contents. -/
def mmData : RegionData F cfg0 where
  dat := mmDat
  hA := mmDat_A
  hq := fun _ _ _ => rfl
  howed := fun _ _ _ => rfl
  hrec := fun _ _ => rfl
  hbody := mm_obligation
  hΦin := fun _ _ => .rfl
  hΦout := fun _ _ => .rfl

/-- The global-maximum region's proof data, at any entry contents. -/
def mxData : RegionData F cfg1 where
  dat := mxDat
  hA := mxDat_A
  hq := fun _ _ _ => rfl
  howed := fun _ _ _ => rfl
  hrec := fun _ _ => rfl
  hbody := mx_obligation
  hΦin := mx_in
  hΦout := mx_out

/-- The requantization region's proof data, at any entry contents. -/
def rqData : RegionData F cfg2 where
  dat := rqDat
  hA := rqDat_A
  hq := fun _ _ _ => rfl
  howed := fun _ _ _ => rfl
  hrec := fun _ _ => rfl
  hbody := rq_obligation
  hΦin := fun _ _ => .rfl
  hΦout := fun _ _ => .rfl

variable (m : (ℓ : Loc nD τ sig) → Buf (Elt F) ℓ) (ρ : Dev nD → PrngReg)

/-- The contents @main returns with, with the three regions' proof data in place. -/
abbrev Wend : Dev nD → Valuation τ sig (Elt F) := W12 m ρ mmData mxData rqData

/-- Every weakly fair execution of @main terminates, and every unscoped buffer ends at `Wend`. -/
theorem run_vals : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  run_all m ρ mmData mxData rqData

/-! ## A reference no later item writes keeps its contents -/

section Keep
variable (c : Dev nD) (r : Ref sig .tc)

theorem keep12 (h : r ∉ hostOps3_W) : Wend m ρ c r = W11 m ρ mmData mxData rqData c r :=
  StableHlo.after_of_writes_sub hostOps3 _ hostOps3_writes h
theorem keep11 (h : ∀ w, Pipeline.arrRef spec2 w ≠ r) : W11 m ρ mmData mxData rqData c r = W10 m ρ mmData mxData c r :=
  W11_of_ne m ρ mmData mxData rqData c r h
theorem keep10 (h : r ∉ hostOps2_W) : W10 m ρ mmData mxData c r = W9 m ρ mmData mxData c r :=
  StableHlo.after_of_writes_sub hostOps2 _ hostOps2_writes h
theorem keep9 (h : ∀ w, Pipeline.arrRef spec1 w ≠ r) : W9 m ρ mmData mxData c r = W8 m ρ mmData c r :=
  W9_of_ne m ρ mmData mxData c r h
theorem keep8 (h : ∀ w, Pipeline.arrRef spec0 w ≠ r) : W8 m ρ mmData c r = W7 m ρ c r :=
  W8_of_ne m ρ mmData c r h
theorem keep7 (h : r ∉ hostOps0_6_W) : W7 m ρ c r = W6 m ρ c r := StableHlo.after_of_writes_sub hostOps0_6 _ hostOps0_6_writes h
theorem keep6 (h : r ∉ hostOps0_5_W) : W6 m ρ c r = W5 m ρ c r := StableHlo.after_of_writes_sub hostOps0_5 _ hostOps0_5_writes h
theorem keep5 (h : r ∉ hostOps0_4_W) : W5 m ρ c r = W4 m ρ c r := StableHlo.after_of_writes_sub hostOps0_4 _ hostOps0_4_writes h
theorem keep4 (h : r ∉ hostOps0_3_W) : W4 m ρ c r = W3 m ρ c r := StableHlo.after_of_writes_sub hostOps0_3 _ hostOps0_3_writes h
theorem keep3 (h : r ∉ hostOps0_2_W) : W3 m ρ c r = W2 m ρ c r := StableHlo.after_of_writes_sub hostOps0_2 _ hostOps0_2_writes h
theorem keep2 (h : r ∉ hostOps0_1_W) : W2 m ρ c r = W1 m ρ c r := StableHlo.after_of_writes_sub hostOps0_1 _ hostOps0_1_writes h
theorem keep1 (h : r ∉ hostOps0_W) : W1 m ρ c r = W0 m ρ c r := StableHlo.after_of_writes_sub hostOps0 _ hostOps0_writes h

/-- Through the seven host stretches before the first region. -/
theorem keep_prefix (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) : W7 m ρ c r = m ((c : Thread nD τ).loc r) :=
  (keep7 m ρ c r h7).trans <| (keep6 m ρ c r h6).trans <| (keep5 m ρ c r h5).trans <| (keep4 m ρ c r h4).trans <|
    (keep3 m ρ c r h3).trans <| (keep2 m ρ c r h2).trans <| (keep1 m ρ c r h1).trans rfl

/-- Through everything after the first region's entry, for a reference that is no window array of any region. -/
theorem keep_suffix (h12 : r ∉ hostOps3_W) (h11 : ∀ w, Pipeline.arrRef spec2 w ≠ r) (h10 : r ∉ hostOps2_W)
    (h9 : ∀ w, Pipeline.arrRef spec1 w ≠ r) (h8 : ∀ w, Pipeline.arrRef spec0 w ≠ r) : Wend m ρ c r = W7 m ρ c r :=
  (keep12 m ρ c r h12).trans <| (keep11 m ρ c r h11).trans <| (keep10 m ρ c r h10).trans <| (keep9 m ρ c r h9).trans (keep8 m ρ c r h8)

end Keep

/-- The activations argument is the matmul region's first input window: the region hands it back as entered. -/
theorem Wend_arg0 (c : Dev nD) : Wend m ρ c main_arg0 = m ((c : Thread nD τ).loc main_arg0) :=
  (keep12 m ρ c main_arg0 (by decide)).trans <| (keep11 m ρ c main_arg0 (by decide)).trans <|
    (keep10 m ρ c main_arg0 (by decide)).trans <| (keep9 m ρ c main_arg0 (by decide)).trans <|
    ((W8_arr m ρ mmData c 0).trans (((mmDat (V7 m ρ) c).arrAt_in 0 rfl _).trans (mmDat_A (V7 m ρ) c 0))).trans <|
    keep_prefix m ρ c main_arg0 (by decide) (by decide) (by decide) (by decide) (by decide) (by decide) (by decide)
theorem Wend_arg1 (c : Dev nD) : Wend m ρ c main_arg1 = m ((c : Thread nD τ).loc main_arg1) :=
  (keep_suffix m ρ c main_arg1 (by decide) (by decide) (by decide) (by decide) (by decide)).trans <|
    keep_prefix m ρ c main_arg1 (by decide) (by decide) (by decide) (by decide) (by decide) (by decide) (by decide)
theorem Wend_arg2 (c : Dev nD) : Wend m ρ c main_arg2 = m ((c : Thread nD τ).loc main_arg2) :=
  (keep_suffix m ρ c main_arg2 (by decide) (by decide) (by decide) (by decide) (by decide)).trans <|
    keep_prefix m ρ c main_arg2 (by decide) (by decide) (by decide) (by decide) (by decide) (by decide) (by decide)
theorem Wend_arg3 (c : Dev nD) : Wend m ρ c main_arg3 = m ((c : Thread nD τ).loc main_arg3) :=
  (keep_suffix m ρ c main_arg3 (by decide) (by decide) (by decide) (by decide) (by decide)).trans <|
    keep_prefix m ρ c main_arg3 (by decide) (by decide) (by decide) (by decide) (by decide) (by decide) (by decide)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wend_arg0 m ρ c), (h c _ (mem_uc main_arg1 (by decide))).trans (Wend_arg1 m ρ c),
     (h c _ (mem_uc main_arg2 (by decide))).trans (Wend_arg2 m ρ c), (h c _ (mem_uc main_arg3 (by decide))).trans (Wend_arg3 m ρ c)⟩)
    (run_vals m ρ)

end Cert.KernelIdeal.Hand

end
-- ==== Proof.Spec.lean ====
/-
  The mathematics both programs compute, over the extended reals, as functions of the four argument arrays
  x : [8192, 4096], a : [1] (the activation scale), W : [4096, 4096], b : [4096].

  Per output channel o the weight scale s(o) is a positive number computed from row o of W (both programs apply the
  same chain of operations to W, so it is carried here as a parameter `s`). The weights are quantized to
  wq(o, k) = clip(round(W(o, k) / s(o)), -128, 127), the bias to bq(o) = round(b(o) / (s(o) · a)), and
      pre(r, o) = max((∑ₖ x(r, k)/a · wq(o, k) + bq(o)) · (s(o) · a), 0).
  One program divides x by a, the other multiplies by 1/a; one rounds by `round v`, the other by the
  straight-through form `v + (round v - v)`. With M the greatest of 0 and all pre(r, o), and
  t = max(M, ε) / 255, the result is clip(round(pre(r, o) / t), 0, 255) · t.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literals of the two programs, as extended reals. -/
def eps : EReal := Ideal.ofBits .f32 0x322BCC77#32
def c127 : EReal := Ideal.ofBits .f32 0x42FE0000#32
def c255 : EReal := Ideal.ofBits .f32 0x437F0000#32
def cOne : EReal := Ideal.ofBits .f32 0x3F800000#32
/-- A 32-bit integer word read as a signed integer, exactly. -/
def i32 (b : BitVec 32) : EReal := ((b.toInt : ℝ) : EReal)
def lo : EReal := i32 4294967168#32
def hi : EReal := i32 127#32

/-- Rounding to the nearest integer, ties to even, the infinities fixed. -/
def rnd (v : EReal) : EReal := Ideal.liftRound Ideal.roundHalfEven v
/-- The straight-through form of the same rounding. -/
def rndST (v : EReal) : EReal := v + (rnd v - v)
/-- Clipping to the signed 8-bit range. -/
def clipW (v : EReal) : EReal := min hi (max lo v)

/-- A quantized weight from the weight `w` and its channel's scale `s`; and in the straight-through form. -/
def wq (w s : EReal) : EReal := clipW (rnd (Ideal.div w s))
def wqST (w s : EReal) : EReal := clipW (rndST (Ideal.div w s))
/-- A quantized bias from the bias `b`, the channel's scale `s` and the activation scale `a`; and straight-through. -/
def bq (b s a : EReal) : EReal := rnd (Ideal.div b (s * a))
def bqST (b s a : EReal) : EReal := rndST (Ideal.div b (s * a))
/-- The rectified, rescaled accumulator. -/
def pre (dot bint bsf : EReal) : EReal := max ((dot + bint) * bsf) 0

/-- `M` is the greatest of `b` and the values `P i`: it has exactly their upper bounds. -/
def IsTop {ι : Type} (M : EReal) (P : ι → EReal) (b : EReal) : Prop := ∀ c : EReal, M ≤ c ↔ b ≤ c ∧ ∀ i, P i ≤ c

theorem IsTop.unique {ι : Type} {M M' : EReal} {P : ι → EReal} {b : EReal} (h : IsTop M P b) (h' : IsTop M' P b) : M = M' :=
  le_antisymm ((h M').2 ((h' M').1 le_rfl)) ((h' M).2 ((h M).1 le_rfl))

/-- `m` is the least of `b` and the values `P i`: it has exactly their lower bounds. -/
def IsBot {ι : Type} (m : EReal) (P : ι → EReal) (b : EReal) : Prop := ∀ c : EReal, c ≤ m ↔ c ≤ b ∧ ∀ i, c ≤ P i

/-- The output scale from the greatest value. -/
def scaleOf (M : EReal) : EReal := Ideal.div (max M eps) c255
/-- One requantized entry from `p` and the scale `t`. -/
def requant (p t : EReal) : EReal := min c255 (max 0 (rnd (Ideal.div p t))) * t
/-- The same in the other program's form: straight-through rounding, a zero point `z` added and taken off again. -/
def requantST (p t z : EReal) : EReal := (min c255 (max 0 (rndST (Ideal.div p t) + z)) - z) * t

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KI.KVal0.lean ====
/- What the matmul region leaves in its output array, as one function of the region-entry contents of its
   five input arrays: at row r and channel o the rectified, rescaled accumulator
       max((∑ₖ x(r,k) · inv · w(k,o) + bint(o)) · bsf(o), 0),
   with inv the first entry of the inverse-scale row. The payload read at an index; each input block read where
   the output block's rectangle says; what a grid point writes back as its block of that one function; the
   blocks tile the array; hence the array. -/
import proofs.«124374_j73735998538084_1_alg».proof.Proof.KI.R0Body
import proofs.«124374_j73735998538084_1_alg».proof.Proof.Spec
import proofs.«124374_j73735998538084_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the buffer contents of core c when the region is entered, at the extended reals: a PARAMETER
variable (V : (c : Dev nD) → (b : Ref sig .tc) → Buf (Elt Ideal) ((c : Thread nD τ).loc b))

/-! ## The matmul read at an index -/

/-- The left operand's row coordinate is the output's. -/
theorem lhs_mm_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- The left operand's column coordinate is the contraction's. -/
theorem lhs_mm_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
/-- The right operand's row coordinate is the contraction's. -/
theorem rhs_mm_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
/-- The right operand's column coordinate is the output's. -/
theorem rhs_mm_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product into a zero accumulator, at (p, q): the sum over the shared coordinate. -/
theorem mm_apply (A : FVec Ideal S256x4096 .bf16) (B : FVec Ideal S4096x1024 .bf16) (p : Fin 256) (q : Fin 1024) :
    matmul dot_S256x4096_S4096x1024_S256x1024_1_0_0_1_n_n none A B (constant (F := Ideal) S256x1024 .f32 0x00000000#32) (ix2 p q)
      = ∑ k : Fin 4096, A (ix2 p k) * B (ix2 k q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact lhs_mm_0 _ _
    | ⟨1, _⟩ => exact (lhs_mm_1 _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (rhs_mm_0 _ _).trans hk
    | ⟨1, _⟩ => exact rhs_mm_1 _ _)
  rw [el, er]

/-! ## The payload read at an index -/

/-- The body's stored value at (p, q), from the five loaded blocks: the rectified, rescaled accumulator. -/
theorem pay_apply (v0 : Vec Ideal S1x1 .f32) (v2 : Vec Ideal S256x4096 .f32) (v6 : Vec Ideal S4096x1024 .bf16)
    (v9 : Vec Ideal S1x1024 .f32) (v13 : Vec Ideal S1x1024 .f32) (p : Fin 256) (q : Fin 1024) :
    k0_pay1 (F := Ideal) v0 v2 v6 v9 v13 (ix2 p q)
      = pre (∑ k : Fin 4096, (v2 (ix2 p k) * v0 (ix2 (0 : Fin 1) (0 : Fin 1))) * v6 (ix2 k q))
          (v9 (ix2 (0 : Fin 1) q)) (v13 (ix2 (0 : Fin 1) q)) := by
  unfold k0_pay1 pre
  refine (maximumf_apply _ _ _).trans ?_
  refine congrArg₂ max ?_ Ideal.ofBits_zero_f32
  refine (mulf_apply _ _ _).trans ?_
  refine congrArg₂ (· * ·) ?_ ?_
  · refine (addf_apply _ _ _).trans ?_
    refine congrArg₂ (· + ·) ?_ ?_
    · refine (mm_apply _ _ p q).trans ?_
      refine Finset.sum_congr rfl fun k _ => ?_
      refine congrArg₂ (· * ·) ?_ ?_
      · -- the left operand: the activation times the broadcast corner entry, the format change the identity
        refine (truncf_apply (φ := .f32) (ψ := .bf16) _ bitsLt_bf16_f32 _).trans ?_
        refine (mulf_apply _ _ _).trans ?_
        refine congrArg (v2 (ix2 p k) * ·) ?_
        show v0 _ = v0 _
        refine congrArg v0 (funext fun a => Fin.ext ?_)
        match a with
        | ⟨0, _⟩ => rfl
        | ⟨1, _⟩ => rfl
      · exact congrFun (shapeCast_self v6 _) _
    · exact (broadcastTo_1b_ab_apply _ _ p q).trans (congrFun (shapeCast_self v9 _) _)
  · exact (broadcastTo_1b_ab_apply _ _ p q).trans (congrFun (shapeCast_self v13 _) _)

/-! ## What the body leaves, read at an index -/

theorem hz : (![0, 0] : Fin 2 → Nat) = fun _ => 0 := funext fun a => by fin_cases a <;> rfl

/-- The rectified, rescaled accumulator at (p, q) of an output block, from the five input blocks. -/
def preBlk (x0 : Vec Ideal S256x4096 .f32) (x1 : Vec Ideal S4096x1024 .bf16) (x2 x3 : Vec Ideal S1x1024 .f32)
    (x4 : Vec Ideal S1x128 .f32) (p : Fin 256) (q : Fin 1024) : EReal :=
  pre (∑ k : Fin 4096, (x0 (ix2 p k) * x4 (ix2 (0 : Fin 1) (0 : Fin 128))) * x1 (ix2 k q))
    (x3 (ix2 (0 : Fin 1) q)) (x2 (ix2 (0 : Fin 1) q))

/-- The output buffer after the body at (p, q), from the five input blocks. -/
theorem mmOut_apply (x0 : Vec Ideal S256x4096 .f32) (x1 : Vec Ideal S4096x1024 .bf16) (x2 x3 : Vec Ideal S1x1024 .f32)
    (x4 : Vec Ideal S1x128 .f32) (p : Fin 256) (q : Fin 1024) :
    mmOut x0 x1 x2 x3 x4 (ix2 p q) = preBlk x0 x1 x2 x3 x4 p q := by
  unfold mmOut preBlk
  rw [View.canon_unit_zero hz]
  simp only [View.ld_unit_zero (S := S256x4096) hz, View.ld_unit_zero (S := S4096x1024) hz, View.ld_unit_zero (S := S1x1024) hz]
  refine (pay_apply _ _ _ _ _ p q).trans ?_
  refine congrArg (fun z => pre (∑ k : Fin 4096, (x0 (ix2 p k) * z) * x1 (ix2 k q)) (x3 (ix2 (0 : Fin 1) q)) (x2 (ix2 (0 : Fin 1) q))) ?_
  show x4 _ = x4 _
  refine congrArg x4 (funext fun a => Fin.ext ?_)
  match a with
  | ⟨0, _⟩ => rfl
  | ⟨1, _⟩ => rfl

/-! ## Each input block read where its array holds it -/

/-- The activation block at (p, k) is the array at the index the block's rectangle puts it. -/
theorem blk_x_apply (c : Dev nD) (t : Fin cfg0.N) (p : Fin 256) (k : Fin 4096) (i : S8192x4096.Idx)
    (h0 : win0_0.index t (0 : Fin 2) * 256 + 1 * p.val = (i 0).val) (h1 : win0_0.index t (1 : Fin 2) * 4096 + 1 * k.val = (i 1).val) :
    (blk0 V c 0 t : Vec Ideal S256x4096 .f32) (ix2 p k) = (V c main_arg0 : S8192x4096.Idx → EReal) i := by
  unfold blk0
  rw [View.read_apply]
  show (V c main_arg0 : S8192x4096.Idx → EReal) _ = (V c main_arg0 : S8192x4096.Idx → EReal) _
  congr 1
  funext a
  apply Fin.ext
  match a with
  | ⟨0, _⟩ => exact h0
  | ⟨1, _⟩ => exact h1

/-- The weight block at (k, q). -/
theorem blk_w_apply (c : Dev nD) (t : Fin cfg0.N) (k : Fin 4096) (q : Fin 1024) (i : S4096x4096.Idx)
    (h0 : win0_1.index t (0 : Fin 2) * 4096 + 1 * k.val = (i 0).val) (h1 : win0_1.index t (1 : Fin 2) * 1024 + 1 * q.val = (i 1).val) :
    (blk0 V c 1 t : Vec Ideal S4096x1024 .bf16) (ix2 k q) = (V c main_v21 : S4096x4096.Idx → EReal) i := by
  unfold blk0
  rw [View.read_apply]
  show (V c main_v21 : S4096x4096.Idx → EReal) _ = (V c main_v21 : S4096x4096.Idx → EReal) _
  congr 1
  funext a
  apply Fin.ext
  match a with
  | ⟨0, _⟩ => exact h0
  | ⟨1, _⟩ => exact h1

/-- The scale row's block at (0, q). -/
theorem blk_bsf_apply (c : Dev nD) (t : Fin cfg0.N) (u : Fin 1) (q : Fin 1024) (i : S1x4096.Idx)
    (h0 : win0_2.index t (0 : Fin 2) * 1 + 1 * u.val = (i 0).val) (h1 : win0_2.index t (1 : Fin 2) * 1024 + 1 * q.val = (i 1).val) :
    (blk0 V c 2 t : Vec Ideal S1x1024 .f32) (ix2 u q) = (V c main_v22 : S1x4096.Idx → EReal) i := by
  unfold blk0
  rw [View.read_apply]
  show (V c main_v22 : S1x4096.Idx → EReal) _ = (V c main_v22 : S1x4096.Idx → EReal) _
  congr 1
  funext a
  apply Fin.ext
  match a with
  | ⟨0, _⟩ => exact h0
  | ⟨1, _⟩ => exact h1

/-- The bias row's block at (0, q). -/
theorem blk_bint_apply (c : Dev nD) (t : Fin cfg0.N) (u : Fin 1) (q : Fin 1024) (i : S1x4096.Idx)
    (h0 : win0_3.index t (0 : Fin 2) * 1 + 1 * u.val = (i 0).val) (h1 : win0_3.index t (1 : Fin 2) * 1024 + 1 * q.val = (i 1).val) :
    (blk0 V c 3 t : Vec Ideal S1x1024 .f32) (ix2 u q) = (V c main_v23 : S1x4096.Idx → EReal) i := by
  unfold blk0
  rw [View.read_apply]
  show (V c main_v23 : S1x4096.Idx → EReal) _ = (V c main_v23 : S1x4096.Idx → EReal) _
  congr 1
  funext a
  apply Fin.ext
  match a with
  | ⟨0, _⟩ => exact h0
  | ⟨1, _⟩ => exact h1

/-- The inverse-scale row's block at (0, l). -/
theorem blk_inv_apply (c : Dev nD) (t : Fin cfg0.N) (u : Fin 1) (l : Fin 128) (i : S1x128.Idx)
    (h0 : win0_4.index t (0 : Fin 2) * 1 + 1 * u.val = (i 0).val) (h1 : win0_4.index t (1 : Fin 2) * 128 + 1 * l.val = (i 1).val) :
    (blk0 V c 4 t : Vec Ideal S1x128 .f32) (ix2 u l) = (V c main_v25 : S1x128.Idx → EReal) i := by
  unfold blk0
  rw [View.read_apply]
  show (V c main_v25 : S1x128.Idx → EReal) _ = (V c main_v25 : S1x128.Idx → EReal) _
  congr 1
  funext a
  apply Fin.ext
  match a with
  | ⟨0, _⟩ => exact h0
  | ⟨1, _⟩ => exact h1

/-! ## The array as one function of the five arrays -/

/-- The rectified, rescaled accumulator of row `p` and channel `q`, from five arrays at their literal shapes:
    the activations, the inverse-scale row, the weights, the bias row, the scale row. -/
def preOf (x : S8192x4096.Idx → EReal) (inv : S1x128.Idx → EReal) (w : S4096x4096.Idx → EReal) (bint bsf : S1x4096.Idx → EReal)
    (p : Fin 8192) (q : Fin 4096) : EReal :=
  pre (∑ k : Fin 4096, (x (ix2 p k) * inv (ix2 (0 : Fin 1) (0 : Fin 128))) * w (ix2 k q))
    (bint (ix2 (0 : Fin 1) q)) (bsf (ix2 (0 : Fin 1) q))

/-- The same of the arrays as the region finds them, over the output array's indices. -/
def preactG (c : Dev nD) : S8192x4096.Idx → EReal := fun i =>
  preOf (V c main_arg0) (V c main_v25) (V c main_v21) (V c main_v23) (V c main_v22) ⟨(i 0).val, idx2_lt0 i⟩ ⟨(i 1).val, idx2_lt1 i⟩

/-- The index maps over the grid: the activation rows move with the output's row tile and span every column; the
    weight columns and the two per-channel rows move with the output's column tile; the inverse-scale row stays;
    the output's tile at point `t` is (t / 4, t % 4). -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = 0
    ∧ win0_5.index t (0 : Fin 2) = t.val / 4 ∧ win0_5.index t (1 : Fin 2) = t.val % 4 :=
  (by decide +kernel : ∀ t : Fin grid0.N, _)

/-- At the array index `i` that point `t`'s output block puts its (p, q) at, the accumulator of the five input
    blocks is the accumulator of the five arrays. -/
theorem point_eq (c : Dev nD) (t : Fin cfg0.N) (p : Fin 256) (q : Fin 1024) (i : S8192x4096.Idx)
    (h0 : (i 0).val = win0_5.index t (0 : Fin 2) * 256 + p.val) (h1 : (i 1).val = win0_5.index t (1 : Fin 2) * 1024 + q.val) :
    preBlk (blk0 V c 0 t) (blk0 V c 1 t) (blk0 V c 2 t) (blk0 V c 3 t) (blk0 V c 4 t) p q = preactG V c i := by
  obtain ⟨e00, e01, e10, e11, e20, e21, e30, e31, e40, e41, -, -⟩ := idx_facts t
  have hi0 : (i 0).val < 8192 := idx2_lt0 i
  have hi1 : (i 1).val < 4096 := idx2_lt1 i
  have hx : ∀ k : Fin 4096, (blk0 V c 0 t : Vec Ideal S256x4096 .f32) (ix2 p k)
      = (V c main_arg0 : S8192x4096.Idx → EReal) (ix2 (⟨(i 0).val, hi0⟩ : Fin 8192) k) :=
    fun k => blk_x_apply V c t p k _ (by show _ = (i 0).val; omega) (by show _ = k.val; omega)
  have hw : ∀ k : Fin 4096, (blk0 V c 1 t : Vec Ideal S4096x1024 .bf16) (ix2 k q)
      = (V c main_v21 : S4096x4096.Idx → EReal) (ix2 k (⟨(i 1).val, hi1⟩ : Fin 4096)) :=
    fun k => blk_w_apply V c t k q _ (by show _ = k.val; omega) (by show _ = (i 1).val; omega)
  have hinv : (blk0 V c 4 t : Vec Ideal S1x128 .f32) (ix2 (0 : Fin 1) (0 : Fin 128))
      = (V c main_v25 : S1x128.Idx → EReal) (ix2 (0 : Fin 1) (0 : Fin 128)) :=
    blk_inv_apply V c t 0 0 _ (by rw [e40]; rfl) (by rw [e41]; rfl)
  have hbint : (blk0 V c 3 t : Vec Ideal S1x1024 .f32) (ix2 (0 : Fin 1) q)
      = (V c main_v23 : S1x4096.Idx → EReal) (ix2 (0 : Fin 1) (⟨(i 1).val, hi1⟩ : Fin 4096)) :=
    blk_bint_apply V c t 0 q _ (by rw [e30]; rfl) (by show _ = (i 1).val; omega)
  have hbsf : (blk0 V c 2 t : Vec Ideal S1x1024 .f32) (ix2 (0 : Fin 1) q)
      = (V c main_v22 : S1x4096.Idx → EReal) (ix2 (0 : Fin 1) (⟨(i 1).val, hi1⟩ : Fin 4096)) :=
    blk_bsf_apply V c t 0 q _ (by rw [e20]; rfl) (by show _ = (i 1).val; omega)
  unfold preBlk preactG preOf
  rw [hinv, hbint, hbsf]
  refine congrArg (fun s => pre s _ _) (Finset.sum_congr rfl fun k _ => ?_)
  rw [hx k, hw k]

/-! ## What a point writes back, the cover, the array -/

/-- What point `t` writes back is its block of the one function. -/
theorem flushed_eq (c : Dev nD) (t : Fin cfg0.N) :
    (mmDat V c).flushed 5 t = ((cfg0.win 5).blk t).view.read (Elt Ideal) (preactG V c) := by
  show (cfg0.win 5).cut (grid0.coords t) ((mmDat V c).after 5 t) = _
  rw [mmDat_after_out]
  funext j
  obtain ⟨p, q, rfl⟩ : ∃ (p : Fin 256) (q : Fin 1024), j = ix2 p q := ⟨j 0, j 1, eq_ix2 j⟩
  refine (mmOut_apply _ _ _ _ _ p q).trans ?_
  exact point_eq V c t p q (((cfg0.win 5).blk t).view.emb (ix2 p q))
    (by show win0_5.index t (0 : Fin 2) * 256 + 1 * p.val = _; omega)
    (by show win0_5.index t (1 : Fin 2) * 1024 + 1 * q.val = _; omega)

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v26).slice (win0_5.rect t)).set ↔ _
  rw [View.set_slice_whole, Rect.mem_set_unit]
  exact Iff.rfl

/-- The blocks tile the array: row r and channel o lie in the block of the point with tile (r / 256, o / 1024). -/
theorem covered (i : S8192x4096.Idx) :
    ∃ t : Fin cfg0.N, (cfg0.win 5).flush t = true ∧ i ∈ ((cfg0.win 5).blk t).view.set := by
  have hi0 : (i 0).val < 8192 := idx2_lt0 i
  have hi1 : (i 1).val < 4096 := idx2_lt1 i
  have ht : (i 0).val / 256 * 4 + (i 1).val / 1024 < cfg0.N := Nat.lt_of_lt_of_eq (by omega : _ < 128) N_0.symm
  obtain ⟨-, -, -, -, -, -, -, -, -, -, e50, e51⟩ := idx_facts ⟨_, ht⟩
  have e50' : win0_5.index ⟨_, ht⟩ (0 : Fin 2) = ((i 0).val / 256 * 4 + (i 1).val / 1024) / 4 := e50
  have e51' : win0_5.index ⟨_, ht⟩ (1 : Fin 2) = ((i 0).val / 256 * 4 + (i 1).val / 1024) % 4 := e51
  refine ⟨⟨_, ht⟩, flush0_5 _, ?_⟩
  rw [mem_blk]
  intro a
  match a with
  | ⟨0, _⟩ =>
    show win0_5.index ⟨_, ht⟩ (0 : Fin 2) * 256 ≤ (i 0).val ∧ (i 0).val < win0_5.index ⟨_, ht⟩ (0 : Fin 2) * 256 + 256
    omega
  | ⟨1, _⟩ =>
    show win0_5.index ⟨_, ht⟩ (1 : Fin 2) * 1024 ≤ (i 1).val ∧ (i 1).val < win0_5.index ⟨_, ht⟩ (1 : Fin 2) * 1024 + 1024
    omega

/-- The output array after the region is the one function. -/
theorem preact_array_G (c : Dev nD) : (mmDat V c).arrAt 5 cfg0.N = preactG V c :=
  (mmDat V c).arrAt_eq_of_cover 5 (preactG V c) (fun t _ => flushed_eq V c t) covered

-- the product of two array entries, at the extended reals
local notation:70 a:70 " ⬝ " b:71 => @HMul.hMul EReal EReal EReal instHMul a b

/-- The output array after the region, index by index: the rectified, rescaled accumulator of the five arrays
    as the region finds them. -/
theorem preact_array (c : Dev nD) : (mmDat V c).arrAt 5 cfg0.N = fun i =>
      pre (∑ k : Fin 4096, (V c main_arg0 (ix2 (i 0) k) ⬝ V c main_v25 (ix2 (0 : Fin 1) (0 : Fin 128))) ⬝ V c main_v21 (ix2 k (i 1)))
          (V c main_v23 (ix2 (0 : Fin 1) (i 1))) (V c main_v22 (ix2 (0 : Fin 1) (i 1))) := by
  rw [preact_array_G]
  rfl

/-- The same at explicit coordinates. -/
theorem preact_array_apply (c : Dev nD) (p : Fin 8192) (q : Fin 4096) :
    (mmDat V c).arrAt 5 cfg0.N (ix2 p q) =
      pre (∑ k : Fin 4096, (V c main_arg0 (ix2 p k) ⬝ V c main_v25 (ix2 (0 : Fin 1) (0 : Fin 128))) ⬝ V c main_v21 (ix2 k q))
          (V c main_v23 (ix2 (0 : Fin 1) q)) (V c main_v22 (ix2 (0 : Fin 1) q)) := by
  rw [preact_array_G]
  rfl

end Cert.KernelIdeal.Val

end
-- ==== Proof.KI.KVal1.lean ====
/-
  The global-max region (pipeline 1 of the kernel program: sixteen grid points, each reading a 512x4096 row band of
  the 8192x4096 input array and carrying a 1x1 value) leaves, in its 1x1 output array, the greatest of 0 and all
  entries of its input array, over the extended reals.

  The carried value starts at 0 and each point stores the greater of the carried value and the maximum of its band
  (row maxima, then their maximum, each folded from -∞); a maximum is used only through its universal property: it
  has exactly the upper bounds of the values it is taken over. The bands of the sixteen points are all the rows of
  the array (row r is row r mod 512 of band r / 512), and the one write-back, at the last point, moves the carried
  value to the output array, whose single block covers it.
-/
import proofs.«124374_j73735998538084_1_alg».proof.Proof.KI.R1Body
import proofs.«124374_j73735998538084_1_alg».proof.Proof.Spec
import proofs.«124374_j73735998538084_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the buffer contents of core c when the region is entered, at the extended reals: a PARAMETER
variable (V : (c : Dev nD) → (b : Ref sig .tc) → Buf (Elt Ideal) ((c : Thread nD τ).loc b))

/-! ## The payloads at the one index of the 1x1 array -/

/-- Over a two-axis shape reduced along its second axis, the index above row `p` with `k` inserted is `(p, k)`. -/
theorem mx_lift_axis1 {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- Over a two-axis shape reduced along its first axis, the index above column `p` with `k` inserted is `(k, p)`. -/
theorem mx_lift_axis0 {a b : ℕ} (h : (⟨2, ![a, b]⟩ : Shape).Reduces [0] ⟨1, ![b]⟩) (p : Fin b) (k : Fin a) :
    h.lift (ix1 p) k = ix2 k p := by
  funext c; apply Fin.ext
  match c with
  | ⟨0, _⟩ => rfl
  | ⟨1, _⟩ => rfl

/-- The word the reductions start from is the least extended real. -/
theorem mx_negInf_eq : Ideal.ofBits .f32 0xFF800000#32 = (⊥ : EReal) := by simp [Ideal.ofBits, Ideal.ieee]

/-- The maximum of row `p` of a block has exactly the upper bounds of the row's entries. -/
theorem mx_rowMax_le (v : Vec Ideal S512x4096 .f32) (p : Fin 512) (c : EReal) :
    multiReduction (F := Ideal) .maximumf [1] S512 v 0xFF800000#32 reduces_S512x4096_S512 (.inl rfl) rfl (ix1 p) ≤ c
      ↔ ∀ q : Fin 4096, v (ix2 p q) ≤ c := by
  have e := Ideal.multiReduction_maximumf_single v 0xFF800000#32 reduces_S512x4096_S512 (.inl rfl) rfl (ix1 p)
  refine (iff_of_eq (congrArg (fun x => x ≤ c) e)).trans ?_
  rw [Finset.fold_max_le, Ideal.ofBits_def, mx_negInf_eq]
  constructor
  · intro h q
    exact (congrArg (fun i => v i ≤ c) (mx_lift_axis1 reduces_S512x4096_S512 p q)).mp (h.2 q (Finset.mem_univ _))
  · intro h
    refine ⟨bot_le, fun q _ => ?_⟩
    exact (congrArg (fun i => v i ≤ c) (mx_lift_axis1 reduces_S512x4096_S512 p q)).mpr (h q)

/-- The maximum of a column of 512 entries has exactly their upper bounds. -/
theorem mx_colMax_le (v : Vec Ideal S512x1 .f32) (c : EReal) :
    multiReduction (F := Ideal) .maximumf [0] S1 v 0xFF800000#32 reduces_S512x1_S1 (.inl rfl) rfl (ix1 (0 : Fin 1)) ≤ c
      ↔ ∀ p : Fin 512, v (ix2 p (0 : Fin 1)) ≤ c := by
  have e := Ideal.multiReduction_maximumf_single v 0xFF800000#32 reduces_S512x1_S1 (.inl rfl) rfl (ix1 (0 : Fin 1))
  refine (iff_of_eq (congrArg (fun x => x ≤ c) e)).trans ?_
  rw [Finset.fold_max_le, Ideal.ofBits_def, mx_negInf_eq]
  constructor
  · intro h p
    exact (congrArg (fun i => v i ≤ c) (mx_lift_axis0 reduces_S512x1_S1 (0 : Fin 1) p)).mp (h.2 p (Finset.mem_univ _))
  · intro h
    refine ⟨bot_le, fun p _ => ?_⟩
    exact (congrArg (fun i => v i ≤ c) (mx_lift_axis0 reduces_S512x1_S1 (0 : Fin 1) p)).mpr (h p)

/-- The first point's stored value is zero. -/
theorem mx_pay1_apply : (k1_pay1 (F := Ideal)) (ix2 (0 : Fin 1) (0 : Fin 1)) = 0 := by
  unfold k1_pay1
  rw [shapeCast_self]
  exact Ideal.ofBits_zero_f32

/-- What a point stores is the greater of the carried value and all entries of the point's block: it has exactly
    their upper bounds. -/
theorem mx_pay2_le (v3 : Vec Ideal S512x4096 .f32) (v9 : Vec Ideal S1x1 .f32) (c : EReal) :
    k1_pay2 v3 v9 (ix2 (0 : Fin 1) (0 : Fin 1)) ≤ c
      ↔ v9 (ix2 (0 : Fin 1) (0 : Fin 1)) ≤ c ∧ ∀ (p : Fin 512) (q : Fin 4096), v3 (ix2 p q) ≤ c := by
  unfold k1_pay2
  rw [shapeCast_self, maximumf_apply, max_le_iff, Cert.LibLayout.shapeCast_a_a1_apply, mx_colMax_le]
  refine and_congr Iff.rfl (forall_congr' fun p => ?_)
  rw [Cert.LibLayout.shapeCast_a_a1_apply, shapeCast_self, mx_rowMax_le]

/-! ## The carried value after a point -/

/-- A value carried from zero through the points, each point storing the greater of the carried value and its
    block's entries, has after point `n` exactly the upper bounds of zero and of all entries of the blocks of the
    points up to `n`. -/
theorem mx_carried_le {N : ℕ} (acc : (n : ℕ) → n < N → Vec Ideal S1x1 .f32) (blk : (n : ℕ) → n < N → Vec Ideal S512x4096 .f32)
    (h0 : ∀ h, acc 0 h = k1_pay2 (blk 0 h) (k1_pay1 (F := Ideal)))
    (hs : ∀ n h, acc (n + 1) h = k1_pay2 (blk (n + 1) h) (acc n (Nat.lt_of_succ_lt h)))
    (b : EReal) : ∀ (n : ℕ) (h : n < N), acc n h (ix2 (0 : Fin 1) (0 : Fin 1)) ≤ b
      ↔ 0 ≤ b ∧ ∀ (n' : ℕ) (hn : n' ≤ n) (p : Fin 512) (q : Fin 4096), blk n' (Nat.lt_of_le_of_lt hn h) (ix2 p q) ≤ b
  | 0, h => by
    rw [h0 h, mx_pay2_le, mx_pay1_apply]
    refine and_congr Iff.rfl ⟨fun H n' hn p q => ?_, fun H p q => H 0 (Nat.le_refl 0) p q⟩
    obtain rfl : n' = 0 := Nat.le_zero.mp hn
    exact H p q
  | n + 1, h => by
    rw [hs n h, mx_pay2_le, mx_carried_le acc blk h0 hs b n (Nat.lt_of_succ_lt h)]
    constructor
    · rintro ⟨⟨hb, Hlo⟩, Hn⟩
      refine ⟨hb, fun n' hn p q => ?_⟩
      rcases Nat.lt_or_ge n' (n + 1) with hlt | hge
      · exact Hlo n' (Nat.le_of_lt_succ hlt) p q
      · obtain rfl : n' = n + 1 := Nat.le_antisymm hn hge
        exact Hn p q
    · rintro ⟨hb, H⟩
      exact ⟨⟨hb, fun n' hn p q => H n' (Nat.le_succ_of_le hn) p q⟩, fun p q => H (n + 1) (Nat.le_refl _) p q⟩

/-! ## The input blocks as rows of the input array -/

/-- The input window's block at a point, as a 512x4096 array. -/
abbrev mxBlk (c : Dev nD) (t : Fin cfg1.N) : Vec Ideal S512x4096 .f32 := blk1 V c 0 t
/-- The input array, as an 8192x4096 array. -/
abbrev mxArr (c : Dev nD) : Vec Ideal S8192x4096 .f32 := V c main_v26

/-- The last point is a point of the grid. -/
theorem mx_lastLt : 15 < cfg1.N := by rw [show cfg1.N = 16 from N_1]; decide

/-- The input window's block index at point `t` is `(t, 0)`. -/
theorem mx_inIndex : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input block at point `t` is rows `512 t … 512 t + 511` of the input array. -/
theorem mxBlk_apply (c : Dev nD) (t : Fin cfg1.N) (p : Fin 512) (q : Fin 4096) (hr : 512 * t.val + p.val < 8192) :
    mxBlk V c t (ix2 p q) = mxArr V c (ix2 (⟨512 * t.val + p.val, hr⟩ : Fin 8192) q) := by
  obtain ⟨e0, e1⟩ := mx_inIndex t
  show ((cfg1.win 0).blk t).view.read (Elt Ideal) (V c (Pipeline.arrRef spec1 0)) (ix2 p q) = _
  rw [View.read_apply]
  show V c main_v26 _ = V c main_v26 _
  congr 1
  funext a
  apply Fin.ext
  match a with
  | ⟨0, _⟩ => show win1_0.index t (0 : Fin 2) * 512 + 1 * p.val = 512 * t.val + p.val; rw [e0]; omega
  | ⟨1, _⟩ => show win1_0.index t (1 : Fin 2) * 4096 + 1 * q.val = q.val; rw [e1]; omega

/-- The carried value after point `n` has exactly the upper bounds of zero and of all entries of the input blocks
    of the points up to `n`. -/
theorem mxAcc_le (c : Dev nD) (n : ℕ) (h : n < cfg1.N) (b : EReal) :
    mxAcc V c n h (ix2 (0 : Fin 1) (0 : Fin 1)) ≤ b
      ↔ 0 ≤ b ∧ ∀ (n' : ℕ) (hn : n' ≤ n) (p : Fin 512) (q : Fin 4096), mxBlk V c ⟨n', Nat.lt_of_le_of_lt hn h⟩ (ix2 p q) ≤ b :=
  mx_carried_le (N := cfg1.N) (fun n h => mxAcc V c n h) (fun n h => mxBlk V c ⟨n, h⟩) (fun h => mxAcc_zero V c h)
    (fun n h => mxAcc_succ V c n h) b n h

/-- The blocks of the sixteen points are all the rows of the input array. -/
theorem mx_blocks_iff_rows (c : Dev nD) (b : EReal) :
    (∀ (n' : ℕ) (hn : n' ≤ 15) (p : Fin 512) (q : Fin 4096), mxBlk V c ⟨n', Nat.lt_of_le_of_lt hn mx_lastLt⟩ (ix2 p q) ≤ b)
      ↔ ∀ i : S8192x4096.Idx, mxArr V c i ≤ b := by
  constructor
  · intro H i
    have hr : (i 0).val < 8192 := idx2_lt0 i
    have hn : (i 0).val / 512 ≤ 15 := by omega
    have hp : (i 0).val % 512 < 512 := Nat.mod_lt _ (by decide)
    have hr' : 512 * ((i 0).val / 512) + (i 0).val % 512 < 8192 := by omega
    have e : ix2 (⟨512 * ((i 0).val / 512) + (i 0).val % 512, hr'⟩ : Fin 8192) (i 1) = i := by
      funext a
      match a with
      | ⟨0, _⟩ => exact Fin.ext (Nat.div_add_mod (i 0).val 512)
      | ⟨1, _⟩ => rfl
    have h1 := H ((i 0).val / 512) hn ⟨(i 0).val % 512, hp⟩ (i 1)
    have h2 := (congrArg (fun v : EReal => v ≤ b)
      (mxBlk_apply V c ⟨(i 0).val / 512, Nat.lt_of_le_of_lt hn mx_lastLt⟩ ⟨(i 0).val % 512, hp⟩ (i 1) hr')).mp h1
    exact (congrArg (fun j : S8192x4096.Idx => mxArr V c j ≤ b) e).mp h2
  · intro H n' hn p q
    have hp : p.val < 512 := p.isLt
    rw [mxBlk_apply V c ⟨n', Nat.lt_of_le_of_lt hn mx_lastLt⟩ p q (by show 512 * n' + p.val < 8192; omega)]
    exact H _

/-! ## The output array after the run -/

/-- The one write-back, at the last point, writes the carried value: block (0, 0) of the 1x1 array is the array. -/
theorem mx_flushed_last (c : Dev nD) (t : Fin cfg1.N) (hf : (cfg1.win 1).flush t = true) :
    (mxDat V c).flushed 1 t = ((cfg1.win 1).blk t).view.read (Elt Ideal) (mxAcc V c 15 mx_lastLt) := by
  have hN : cfg1.N = 16 := N_1
  have h1 : t.val = 15 := by have := (flush1_1 t).mp hf; have := t.isLt; omega
  obtain rfl : t = t1_15 := Fin.ext h1
  show (cfg1.win 1).cut (grid1.coords t1_15) ((mxDat V c).after 1 t1_15) = _
  rw [mxDat_after_out]
  have hz' : (fun a => win1_1.index t1_15 a * main_v27.ty.shape.size a) = fun _ => 0 := funext fun a => by fin_cases a <;> decide
  exact (Memref.read_access_unit_zero (Elt Ideal) main_v27 hz' (fun a => by rw [congrFun hz' a]; simp) (mxAcc V c 15 mx_lastLt)).symm

/-- So the output array ends holding the carried value of the last point: that point's block covers the array. -/
theorem mx_arr_final (c : Dev nD) : (mxDat V c).arrAt 1 cfg1.N = mxAcc V c 15 mx_lastLt :=
  (mxDat V c).arrAt_eq_of_cover 1 (mxAcc V c 15 mx_lastLt) (mx_flushed_last V c) fun i =>
    ⟨t1_15, (flush1_1 t1_15).mpr rfl, by
      show i ∈ ((View.whole main_v27).slice (win1_1.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_1.index t1_15 0 * win1_1.size 0 ≤ (i 0 : Nat) ∧ (i 0 : Nat) < win1_1.index t1_15 0 * win1_1.size 0 + win1_1.xsize (grid1.coords t1_15) 0
                  rw [show win1_1.index t1_15 0 * win1_1.size 0 = 0 from by decide +kernel, show win1_1.xsize (grid1.coords t1_15) 0 = 1 from by decide +kernel]; omega
      | ⟨1, _⟩ => show win1_1.index t1_15 1 * win1_1.size 1 ≤ (i 1 : Nat) ∧ (i 1 : Nat) < win1_1.index t1_15 1 * win1_1.size 1 + win1_1.xsize (grid1.coords t1_15) 1
                  rw [show win1_1.index t1_15 1 * win1_1.size 1 = 0 from by decide +kernel, show win1_1.xsize (grid1.coords t1_15) 1 = 1 from by decide +kernel]; omega⟩

/-- The region leaves, in its 1x1 output array, the greatest of zero and all entries of its input array. -/
theorem max_array (c : Dev nD) : IsTop ((mxDat V c).arrAt 1 cfg1.N (ix2 (0 : Fin 1) (0 : Fin 1))) (fun i : S8192x4096.Idx => V c main_v26 i) 0 := by
  intro b
  refine (iff_of_eq (congrArg (fun f : Vec Ideal S1x1 .f32 => f (ix2 (0 : Fin 1) (0 : Fin 1)) ≤ b) (mx_arr_final V c))).trans ?_
  refine (mxAcc_le V c 15 mx_lastLt b).trans (and_congr Iff.rfl ?_)
  exact mx_blocks_iff_rows V c b

end Cert.KernelIdeal.Val

end
-- ==== Proof.KI.KVal2.lean ====
/-
  What the requantization region leaves in its output array, as one function.

  The region visits 32 grid points. At point t it reads rows 256·t … 256·t + 255 of the activations P (an
  [8192, 4096] array) and the scale row (a [1, 128] array, whole, of which only the corner entry s is used), and writes
  back rows 256·t … 256·t + 255 of the result. The body computes, entry by entry of its band,
      min(255, max(0, round(p / s))) · s = requant p s.
  So every point writes back its band of the ONE function  i ↦ requant (P i) s  of the whole array, the 32 bands
  cover the 8192 rows (row r lies in band r / 256), and the array ends holding that function.
-/
import proofs.«124374_j73735998538084_1_alg».proof.Proof.KI.R2Body
import proofs.«124374_j73735998538084_1_alg».proof.Proof.Spec
import proofs.«124374_j73735998538084_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the buffer contents of core c when the region is entered, at the extended reals: a PARAMETER
variable (V : (c : Dev nD) → (b : Ref sig .tc) → Buf (Elt Ideal) ((c : Thread nD τ).loc b))

/-- The zero offsets of a whole-buffer rectangle, as the constant function. -/
theorem rq_hz : (![0, 0] : Fin 2 → Nat) = fun _ => 0 := funext fun a => by fin_cases a <;> rfl

/-! ## The body's payload, entry by entry -/

/-- The payload at an entry of the band: the requantization of the activations' entry by the one scale. -/
theorem rq_pay_apply (v0 : Vec Ideal S1x1 .f32) (v2 : Vec Ideal S256x4096 .f32) (j : S256x4096.Idx) :
    k2_pay1 v0 v2 j = requant (v2 j) (v0 (ix2 (0 : Fin 1) (0 : Fin 1))) := by
  unfold k2_pay1
  simp only [shapeCast_self]
  have e : extractAt ![0, 0] v0 inpos_S1x1_p0_0 = v0 (ix2 (0 : Fin 1) (0 : Fin 1)) := by
    unfold extractAt; congr 1; funext a; fin_cases a <;> rfl
  rw [e]
  generalize v0 (ix2 (0 : Fin 1) (0 : Fin 1)) = s
  show min (Ideal.ofBits .f32 0x437F0000#32) (max (Ideal.ofBits .f32 0x00000000#32) (Ideal.liftRound Ideal.roundHalfEven (Ideal.div (v2 j) s))) * s = _
  rw [Ideal.ofBits_zero_f32]
  rfl

/-! ## The printed index maps over the grid -/

/-- Decided once over the 32 points: the activations' band and the result's band are the same rows (band `t`),
    both over all columns; the scale row is whole at every point. -/
theorem rq_idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-! ## The whole array's function, and what each point writes back -/

/-- What the result array ends holding: each entry of the activations requantized by the one scale. -/
abbrev rqG (c : Dev nD) : S8192x4096.Idx → EReal :=
  fun i => requant (V c main_v26 i) (V c main_v32 (ix2 (0 : Fin 1) (0 : Fin 128)))

/-- What point `t` writes back is band `t` of that one function. -/
theorem rq_flushed_eq (c : Dev nD) (t : Fin cfg2.N) :
    (rqDat V c).flushed 2 t = ((cfg2.win 2).blk t).view.read (Elt Ideal) (rqG V c) := by
  show (cfg2.win 2).cut (grid2.coords t) ((rqDat V c).after 2 t) = _
  rw [rqDat_after_out]
  unfold rqOut
  rw [View.canon_unit_zero rq_hz]
  simp only [View.ld_unit_zero (S := S256x4096) rq_hz]
  obtain ⟨e0, e1, e2, e3, e4, e5⟩ := rq_idx_facts t
  funext j
  show k2_pay1 (View.ld (blk2 V c 1 t) rqCorner) (blk2 V c 0 t) j = rqG V c (((cfg2.win 2).blk t).view.emb j)
  rw [rq_pay_apply]
  show requant (V c main_v26 (((cfg2.win 0).blk t).view.emb j)) (V c main_v32 (((cfg2.win 1).blk t).view.emb (rqCorner.emb (ix2 (0 : Fin 1) (0 : Fin 1)))))
    = requant (V c main_v26 (((cfg2.win 2).blk t).view.emb j)) (V c main_v32 (ix2 (0 : Fin 1) (0 : Fin 128)))
  have h0 : ((cfg2.win 0).blk t).view.emb j = ((cfg2.win 2).blk t).view.emb j := by
    funext a; apply Fin.ext
    match a with
    | ⟨0, _⟩ => show win2_0.index t (0 : Fin 2) * 256 + 1 * (j 0).val = win2_2.index t (0 : Fin 2) * 256 + 1 * (j 0).val; rw [e0]
    | ⟨1, _⟩ => show win2_0.index t (1 : Fin 2) * 4096 + 1 * (j 1).val = win2_2.index t (1 : Fin 2) * 4096 + 1 * (j 1).val; rw [e1, e2]
  have h1 : ((cfg2.win 1).blk t).view.emb (rqCorner.emb (ix2 (0 : Fin 1) (0 : Fin 1))) = ix2 (0 : Fin 1) (0 : Fin 128) := by
    funext a; apply Fin.ext
    match a with
    | ⟨0, _⟩ => show win2_1.index t (0 : Fin 2) * 1 + 1 * (0 + 1 * 0) = 0; rw [e3]
    | ⟨1, _⟩ => show win2_1.index t (1 : Fin 2) * 128 + 1 * (0 + 1 * 0) = 0; rw [e4]
  rw [h0, h1]

/-! ## The bands cover the array -/

/-- An entry of the array is in point `t`'s band iff each coordinate is in the band's range on its axis. -/
theorem rq_mem_blk (t : Fin cfg2.N) (i : S8192x4096.Idx) :
    i ∈ ((cfg2.win 2).blk t).view.set ↔ ∀ a : Fin 2, win2_2.index t a * S256x4096.size a ≤ (i a).val ∧ (i a).val < win2_2.index t a * S256x4096.size a + S256x4096.size a := by
  show i ∈ ((View.whole main_v33).slice (win2_2.rect t)).set ↔ _
  rw [View.set_slice_whole, Rect.mem_set_unit]
  exact Iff.rfl

/-- Row `r` lies in band `r / 256`. -/
theorem rq_covered (i : S8192x4096.Idx) :
    ∃ t : Fin cfg2.N, (cfg2.win 2).flush t = true ∧ i ∈ ((cfg2.win 2).blk t).view.set := by
  have hi0 : (i 0).val < 8192 := idx2_lt0 i
  have hi1 : (i 1).val < 4096 := idx2_lt1 i
  have hN : cfg2.N = 32 := N_2
  have hlt : (i 0).val / 256 < cfg2.N := by rw [hN]; omega
  obtain ⟨e0, e1, e2, e3, e4, e5⟩ := rq_idx_facts ⟨(i 0).val / 256, hlt⟩
  refine ⟨⟨(i 0).val / 256, hlt⟩, flush2_2 _, ?_⟩
  rw [rq_mem_blk]
  intro a
  match a with
  | ⟨0, _⟩ =>
    show win2_2.index ⟨(i 0).val / 256, hlt⟩ (0 : Fin 2) * 256 ≤ (i 0).val ∧ (i 0).val < win2_2.index ⟨(i 0).val / 256, hlt⟩ (0 : Fin 2) * 256 + 256
    rw [e5]
    show (i 0).val / 256 * 256 ≤ (i 0).val ∧ (i 0).val < (i 0).val / 256 * 256 + 256
    omega
  | ⟨1, _⟩ =>
    show win2_2.index ⟨(i 0).val / 256, hlt⟩ (1 : Fin 2) * 4096 ≤ (i 1).val ∧ (i 1).val < win2_2.index ⟨(i 0).val / 256, hlt⟩ (1 : Fin 2) * 4096 + 4096
    rw [e2]
    omega

/-! ## The array after the region -/

/-- The result array ends holding, at every entry, the requantization of the activations' entry by the scale. -/
theorem requant_array (c : Dev nD) :
    (rqDat V c).arrAt 2 cfg2.N = fun i => requant (V c main_v26 i) (V c main_v32 (ix2 (0 : Fin 1) (0 : Fin 128))) :=
  (rqDat V c).arrAt_eq_of_cover 2 (rqG V c) (fun t _ => rq_flushed_eq V c t) rq_covered

end Cert.KernelIdeal.Val

end
-- ==== Proof.KI.HostVals.lean ====
/-
  What the kernel program's host operations leave in the buffers the three kernel regions read, at an index, over the
  extended reals.

  Before the first region: the four arguments are untouched; the per-channel weight scale s is the greater of |min| and
  |max| of a row of W, floored at ε and divided by 127; the quantized weights, transposed, are clip(round(W(o, k) / s(o)));
  the bias scale is s(o) · a; the quantized bias is round(b(o) / (s(o) · a)); and 1/a is laid out along a row of 128.
  Between the second and the third region the output scale max(M, ε) / 255 is made from the greatest value M and laid
  out along a row of 128; after the third region it is recast as a vector of one entry.
-/
import proofs.«124374_j73735998538084_1_alg».proof.Proof.Gen.KernelIdeal.Launch
import proofs.«124374_j73735998538084_1_alg».proof.Proof.Gen.KernelIdeal.Regions
import proofs.«124374_j73735998538084_1_alg».proof.Proof.Spec
import proofs.«124374_j73735998538084_1_alg».proof.Proof.LibLayout
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem Idealize.ShloMosaic.StableHlo

/-- The buffers after the seven host stretches that precede the first kernel region, from the buffers `W`. -/
abbrev afterPrefix (W : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 W))))))

/-! ### A reference a stretch does not write keeps its contents -/

private theorem keep0 (V : Valuation τ sig (Elt Ideal)) (r : Ref sig .tc) (h : r ∉ hostOps0_W) :
    StableHlo.after hostOps0 V (Proc.devRef .tc r) = V (Proc.devRef .tc r) :=
  StableHlo.after_of_writes_sub hostOps0 V hostOps0_writes h
private theorem keep1 (V : Valuation τ sig (Elt Ideal)) (r : Ref sig .tc) (h : r ∉ hostOps0_1_W) :
    StableHlo.after hostOps0_1 V (Proc.devRef .tc r) = V (Proc.devRef .tc r) :=
  StableHlo.after_of_writes_sub hostOps0_1 V hostOps0_1_writes h
private theorem keep2 (V : Valuation τ sig (Elt Ideal)) (r : Ref sig .tc) (h : r ∉ hostOps0_2_W) :
    StableHlo.after hostOps0_2 V (Proc.devRef .tc r) = V (Proc.devRef .tc r) :=
  StableHlo.after_of_writes_sub hostOps0_2 V hostOps0_2_writes h
private theorem keep3 (V : Valuation τ sig (Elt Ideal)) (r : Ref sig .tc) (h : r ∉ hostOps0_3_W) :
    StableHlo.after hostOps0_3 V (Proc.devRef .tc r) = V (Proc.devRef .tc r) :=
  StableHlo.after_of_writes_sub hostOps0_3 V hostOps0_3_writes h
private theorem keep4 (V : Valuation τ sig (Elt Ideal)) (r : Ref sig .tc) (h : r ∉ hostOps0_4_W) :
    StableHlo.after hostOps0_4 V (Proc.devRef .tc r) = V (Proc.devRef .tc r) :=
  StableHlo.after_of_writes_sub hostOps0_4 V hostOps0_4_writes h
private theorem keep5 (V : Valuation τ sig (Elt Ideal)) (r : Ref sig .tc) (h : r ∉ hostOps0_5_W) :
    StableHlo.after hostOps0_5 V (Proc.devRef .tc r) = V (Proc.devRef .tc r) :=
  StableHlo.after_of_writes_sub hostOps0_5 V hostOps0_5_writes h
private theorem keep6 (V : Valuation τ sig (Elt Ideal)) (r : Ref sig .tc) (h : r ∉ hostOps0_6_W) :
    StableHlo.after hostOps0_6 V (Proc.devRef .tc r) = V (Proc.devRef .tc r) :=
  StableHlo.after_of_writes_sub hostOps0_6 V hostOps0_6_writes h

/-! ### The four arguments pass through the seven stretches unchanged -/

theorem prefix_x (W : Valuation τ sig (Elt Ideal)) : afterPrefix W main_arg0 = W main_arg0 :=
  (keep6 _ main_arg0 (by decide)).trans <| (keep5 _ main_arg0 (by decide)).trans <| (keep4 _ main_arg0 (by decide)).trans <|
    (keep3 _ main_arg0 (by decide)).trans <| (keep2 _ main_arg0 (by decide)).trans <| (keep1 _ main_arg0 (by decide)).trans <|
    keep0 _ main_arg0 (by decide)
theorem prefix_a (W : Valuation τ sig (Elt Ideal)) : afterPrefix W main_arg1 = W main_arg1 :=
  (keep6 _ main_arg1 (by decide)).trans <| (keep5 _ main_arg1 (by decide)).trans <| (keep4 _ main_arg1 (by decide)).trans <|
    (keep3 _ main_arg1 (by decide)).trans <| (keep2 _ main_arg1 (by decide)).trans <| (keep1 _ main_arg1 (by decide)).trans <|
    keep0 _ main_arg1 (by decide)
theorem prefix_W (W : Valuation τ sig (Elt Ideal)) : afterPrefix W main_arg2 = W main_arg2 :=
  (keep6 _ main_arg2 (by decide)).trans <| (keep5 _ main_arg2 (by decide)).trans <| (keep4 _ main_arg2 (by decide)).trans <|
    (keep3 _ main_arg2 (by decide)).trans <| (keep2 _ main_arg2 (by decide)).trans <| (keep1 _ main_arg2 (by decide)).trans <|
    keep0 _ main_arg2 (by decide)
theorem prefix_b (W : Valuation τ sig (Elt Ideal)) : afterPrefix W main_arg3 = W main_arg3 :=
  (keep6 _ main_arg3 (by decide)).trans <| (keep5 _ main_arg3 (by decide)).trans <| (keep4 _ main_arg3 (by decide)).trans <|
    (keep3 _ main_arg3 (by decide)).trans <| (keep2 _ main_arg3 (by decide)).trans <| (keep1 _ main_arg3 (by decide)).trans <|
    keep0 _ main_arg3 (by decide)

/-! ### The reciprocal of the activation scale, broadcast along a row of 128 -/

theorem prefix_inv (W : Valuation τ sig (Elt Ideal)) (j : Fin 128) :
    (afterPrefix W main_v25 : S1x128.Idx → EReal) (ix2 (0 : Fin 1) j) = Ideal.div cOne ((W main_arg1 : S1.Idx → EReal) (ix1 (0 : Fin 1))) := by
  have e : ∀ V : Valuation τ sig (Elt Ideal), (StableHlo.after hostOps0_6 V (Proc.devRef .tc main_v25) : S1x128.Idx → EReal) =
      broadcastInDim S1x128 ![0, 1] bcast_S1x1_S1x128_0_1 (shapeCast S1x1 (Host.divf (broadcastInDim S1 ![] bcast_S_S1 (constant (F := Ideal) S_ .f32 0x3F800000#32))
        (V (Proc.devRef .tc main_arg1) : S1.Idx → EReal)) shapeCasts_S1_S1x1) := by
    intro V; after_results <;> rfl
  have ha : (StableHlo.after hostOps0_5 (StableHlo.after hostOps0_4 (StableHlo.after hostOps0_3 (StableHlo.after hostOps0_2
      (StableHlo.after hostOps0_1 (StableHlo.after hostOps0 W))))) (Proc.devRef .tc main_arg1)) = W (Proc.devRef .tc main_arg1) :=
    (keep5 _ main_arg1 (by decide)).trans <| (keep4 _ main_arg1 (by decide)).trans <|
    (keep3 _ main_arg1 (by decide)).trans <| (keep2 _ main_arg1 (by decide)).trans <| (keep1 _ main_arg1 (by decide)).trans <|
    keep0 _ main_arg1 (by decide)
  refine (congrFun (e _) _).trans ?_
  rw [ha, LibLayout.broadcastInDim_a1_ab_apply, LibLayout.shapeCast_a_a1_apply]
  show Ideal.div (broadcastInDim S1 ![] bcast_S_S1 (constant (F := Ideal) S_ .f32 0x3F800000#32) (ix1 (0 : Fin 1))) _ = _
  rw [LibLayout.broadcastInDim_scalar_apply]
  rfl

/-! ### The output scale from the greatest value, between the second and the third region -/

private theorem mid31 (W : Valuation τ sig (Elt Ideal)) :
    (StableHlo.after hostOps2 W (Proc.devRef .tc main_v31) : S1x1.Idx → EReal) =
      Host.divf (maximumf (W (Proc.devRef .tc main_v27) : S1x1.Idx → EReal) (broadcastInDim S1x1 ![] bcast_S_S1x1 (constant (F := Ideal) S_ .f32 0x322BCC77#32)))
        (broadcastInDim S1x1 ![] bcast_S_S1x1 (constant (F := Ideal) S_ .f32 0x437F0000#32)) := by
  after_results <;> rfl

theorem mid_scale31 (W : Valuation τ sig (Elt Ideal)) :
    (StableHlo.after hostOps2 W main_v31 : S1x1.Idx → EReal) (ix2 (0 : Fin 1) (0 : Fin 1))
      = scaleOf ((W main_v27 : S1x1.Idx → EReal) (ix2 (0 : Fin 1) (0 : Fin 1))) := by
  refine (congrFun (mid31 W) _).trans ?_
  show Ideal.div (max _ (broadcastInDim S1x1 ![] bcast_S_S1x1 (constant (F := Ideal) S_ .f32 0x322BCC77#32) (ix2 (0 : Fin 1) (0 : Fin 1))))
    (broadcastInDim S1x1 ![] bcast_S_S1x1 (constant (F := Ideal) S_ .f32 0x437F0000#32) (ix2 (0 : Fin 1) (0 : Fin 1))) = _
  rw [LibLayout.broadcastInDim_scalar_apply, LibLayout.broadcastInDim_scalar_apply]
  rfl

theorem mid_scale (W : Valuation τ sig (Elt Ideal)) (j : Fin 128) :
    (StableHlo.after hostOps2 W main_v32 : S1x128.Idx → EReal) (ix2 (0 : Fin 1) j)
      = scaleOf ((W main_v27 : S1x1.Idx → EReal) (ix2 (0 : Fin 1) (0 : Fin 1))) := by
  have e : (StableHlo.after hostOps2 W (Proc.devRef .tc main_v32) : S1x128.Idx → EReal) =
      broadcastInDim S1x128 ![0, 1] bcast_S1x1_S1x128_0_1 (StableHlo.after hostOps2 W (Proc.devRef .tc main_v31) : S1x1.Idx → EReal) := by
    rw [mid31]; after_results <;> rfl
  refine (congrFun e _).trans ?_
  rw [LibLayout.broadcastInDim_a1_ab_apply]
  exact mid_scale31 W

/-! ### The scale as the program's third result -/

theorem tail_scale (W : Valuation τ sig (Elt Ideal)) :
    (StableHlo.after hostOps3 W main_v34 : S1.Idx → EReal) (ix1 (0 : Fin 1)) = (W main_v31 : S1x1.Idx → EReal) (ix2 (0 : Fin 1) (0 : Fin 1)) := by
  have e : (StableHlo.after hostOps3 W (Proc.devRef .tc main_v34) : S1.Idx → EReal) =
      shapeCast S1 (W (Proc.devRef .tc main_v31) : S1x1.Idx → EReal) shapeCasts_S1x1_S1 := by
    after_results <;> rfl
  refine (congrFun e _).trans ?_
  exact shapeCast_1a_a_apply _ _ _

/-! ### The weight scale -/

/-- A reference the first stretch writes and no later one does is read after the seven as after the first. -/
private theorem keep_after0 (W : Valuation τ sig (Elt Ideal)) (r : Ref sig .tc)
    (h1 : r ∉ hostOps0_1_W) (h2 : r ∉ hostOps0_2_W) (h3 : r ∉ hostOps0_3_W) (h4 : r ∉ hostOps0_4_W) (h5 : r ∉ hostOps0_5_W) (h6 : r ∉ hostOps0_6_W) :
    afterPrefix W (Proc.devRef .tc r) = StableHlo.after hostOps0 W (Proc.devRef .tc r) :=
  (keep6 _ r h6).trans <| (keep5 _ r h5).trans <| (keep4 _ r h4).trans <| (keep3 _ r h3).trans <| (keep2 _ r h2).trans <| keep1 _ r h1

theorem prefix_scale (W : Valuation τ sig (Elt Ideal)) :
    (afterPrefix W main_v8 : S4096.Idx → EReal) =
      Host.divf (maximumf (maximumf
          (Host.absf (Host.reduce FloatOps.minimumf (W main_arg2 : S4096x4096.Idx → EReal) (constant (F := Ideal) S_ .f32 0x7F800000#32) reducesTo_S4096x4096_S4096_d1 h_S_))
          (Host.absf (Host.reduce FloatOps.maximumf (W main_arg2 : S4096x4096.Idx → EReal) (constant (F := Ideal) S_ .f32 0xFF800000#32) reducesTo_S4096x4096_S4096_d1 h_S_)))
        (broadcastInDim S4096 ![] bcast_S_S4096 (constant (F := Ideal) S_ .f32 0x322BCC77#32)))
        (broadcastInDim S4096 ![] bcast_S_S4096 (constant (F := Ideal) S_ .f32 0x42FE0000#32)) := by
  refine (keep_after0 W main_v8 (by decide) (by decide) (by decide) (by decide) (by decide) (by decide)).trans ?_
  after_results <;> rfl

/-! ### What each later stretch writes, from the buffers before it -/

private theorem s4_v15 (V : Valuation τ sig (Elt Ideal)) :
    (StableHlo.after hostOps0_4 V (Proc.devRef .tc main_v15) : S4096.Idx → EReal) =
      mulf (F := Ideal) (φ := .f32) (V (Proc.devRef .tc main_v8)) (broadcastInDim S4096 ![0] bcast_S1_S4096_0 (V (Proc.devRef .tc main_arg1) : S1.Idx → EReal)) := by
  after_results <;> rfl
private theorem s4_v16 (V : Valuation τ sig (Elt Ideal)) :
    (StableHlo.after hostOps0_4 V (Proc.devRef .tc main_v16) : S4096.Idx → EReal) =
      Host.divf (F := Ideal) (φ := .f32) (V (Proc.devRef .tc main_arg3))
        (mulf (F := Ideal) (φ := .f32) (V (Proc.devRef .tc main_v8)) (broadcastInDim S4096 ![0] bcast_S1_S4096_0 (V (Proc.devRef .tc main_arg1) : S1.Idx → EReal))) := by
  after_results <;> rfl
private theorem s5_v17 (V : Valuation τ sig (Elt Ideal)) :
    (StableHlo.after hostOps0_5 V (Proc.devRef .tc main_v17) : S4096.Idx → EReal) = Host.roundeven (F := Ideal) (s := S4096) (φ := .f32) (V (Proc.devRef .tc main_v16)) := by
  after_results <;> rfl
private theorem s6_v22 (V : Valuation τ sig (Elt Ideal)) :
    (StableHlo.after hostOps0_6 V (Proc.devRef .tc main_v22) : S1x4096.Idx → EReal) =
      shapeCast S1x4096 (V (Proc.devRef .tc main_v15) : S4096.Idx → EReal) shapeCasts_S4096_S1x4096 := by
  after_results <;> rfl
private theorem s6_v23 (V : Valuation τ sig (Elt Ideal)) :
    (StableHlo.after hostOps0_6 V (Proc.devRef .tc main_v23) : S1x4096.Idx → EReal) =
      shapeCast S1x4096 (V (Proc.devRef .tc main_v17) : S4096.Idx → EReal) shapeCasts_S4096_S1x4096 := by
  after_results <;> rfl

/-- A vector of one entry broadcast to any length reads that entry everywhere. -/
private theorem bcast_1_n_apply {α : Type} {n : ℕ} (x : (⟨1, ![1]⟩ : Shape).Idx → α)
    (h : (⟨1, ![1]⟩ : Shape).BroadcastsInDim ⟨1, ![n]⟩ ![0]) (o : Fin n) :
    broadcastInDim ⟨1, ![n]⟩ ![0] h x (ix1 o) = x (ix1 (0 : Fin 1)) := by
  refine broadcastInDim_apply _ h x (ix1 o) (ix1 (0 : Fin 1)) fun ax => ?_
  match ax with
  | ⟨0, _⟩ => rfl

/-! ### The bias scale and the quantized bias -/

theorem prefix_bsf (W : Valuation τ sig (Elt Ideal)) (o : Fin 4096) :
    (afterPrefix W main_v22 : S1x4096.Idx → EReal) (ix2 (0 : Fin 1) o)
      = (HMul.hMul : EReal → EReal → EReal) ((afterPrefix W main_v8 : S4096.Idx → EReal) (ix1 o)) ((W main_arg1 : S1.Idx → EReal) (ix1 (0 : Fin 1))) := by
  have e8 : afterPrefix W (Proc.devRef .tc main_v8) = StableHlo.after hostOps0_3 (StableHlo.after hostOps0_2 (StableHlo.after hostOps0_1 (StableHlo.after hostOps0 W))) (Proc.devRef .tc main_v8) :=
    (keep6 _ main_v8 (by decide)).trans <| (keep5 _ main_v8 (by decide)).trans <| keep4 _ main_v8 (by decide)
  have ea : StableHlo.after hostOps0_3 (StableHlo.after hostOps0_2 (StableHlo.after hostOps0_1 (StableHlo.after hostOps0 W))) (Proc.devRef .tc main_arg1) = W (Proc.devRef .tc main_arg1) :=
    (keep3 _ main_arg1 (by decide)).trans <| (keep2 _ main_arg1 (by decide)).trans <| (keep1 _ main_arg1 (by decide)).trans <| keep0 _ main_arg1 (by decide)
  refine (congrFun (s6_v22 _) _).trans ?_
  rw [shapeCast_a_1a_apply, keep5 _ main_v15 (by decide), s4_v15, e8, ea]
  show (HMul.hMul : EReal → EReal → EReal) _ (broadcastInDim S4096 ![0] bcast_S1_S4096_0 (W (Proc.devRef .tc main_arg1) : S1.Idx → EReal) (ix1 o)) = _
  rw [bcast_1_n_apply]

theorem prefix_bq (W : Valuation τ sig (Elt Ideal)) (o : Fin 4096) :
    (afterPrefix W main_v23 : S1x4096.Idx → EReal) (ix2 (0 : Fin 1) o)
      = bq ((W main_arg3 : S4096.Idx → EReal) (ix1 o)) ((afterPrefix W main_v8 : S4096.Idx → EReal) (ix1 o)) ((W main_arg1 : S1.Idx → EReal) (ix1 (0 : Fin 1))) := by
  have e8 : afterPrefix W (Proc.devRef .tc main_v8) = StableHlo.after hostOps0_3 (StableHlo.after hostOps0_2 (StableHlo.after hostOps0_1 (StableHlo.after hostOps0 W))) (Proc.devRef .tc main_v8) :=
    (keep6 _ main_v8 (by decide)).trans <| (keep5 _ main_v8 (by decide)).trans <| keep4 _ main_v8 (by decide)
  have ea : StableHlo.after hostOps0_3 (StableHlo.after hostOps0_2 (StableHlo.after hostOps0_1 (StableHlo.after hostOps0 W))) (Proc.devRef .tc main_arg1) = W (Proc.devRef .tc main_arg1) :=
    (keep3 _ main_arg1 (by decide)).trans <| (keep2 _ main_arg1 (by decide)).trans <| (keep1 _ main_arg1 (by decide)).trans <| keep0 _ main_arg1 (by decide)
  have eb : StableHlo.after hostOps0_3 (StableHlo.after hostOps0_2 (StableHlo.after hostOps0_1 (StableHlo.after hostOps0 W))) (Proc.devRef .tc main_arg3) = W (Proc.devRef .tc main_arg3) :=
    (keep3 _ main_arg3 (by decide)).trans <| (keep2 _ main_arg3 (by decide)).trans <| (keep1 _ main_arg3 (by decide)).trans <| keep0 _ main_arg3 (by decide)
  refine (congrFun (s6_v23 _) _).trans ?_
  rw [shapeCast_a_1a_apply, s5_v17, s4_v16, e8, ea, eb]
  show rnd (Ideal.div _ ((HMul.hMul : EReal → EReal → EReal) _ (broadcastInDim S4096 ![0] bcast_S1_S4096_0 (W (Proc.devRef .tc main_arg1) : S1.Idx → EReal) (ix1 o)))) = _
  rw [bcast_1_n_apply]
  rfl

/-! ### The quantized weights, transposed -/

private theorem s0_v11 (W : Valuation τ sig (Elt Ideal)) :
    (StableHlo.after hostOps0 W (Proc.devRef .tc main_v11) : S4096x4096.Idx → EReal) =
      Host.divf (F := Ideal) (φ := .f32) (W (Proc.devRef .tc main_arg2))
        (broadcastInDim S4096x4096 ![0, 1] bcast_S4096x1_S4096x4096_0_1
          (broadcastInDim S4096x1 ![0] bcast_S4096_S4096x1_0 (StableHlo.after hostOps0 W (Proc.devRef .tc main_v8) : S4096.Idx → EReal))) := by
  have e8 : (StableHlo.after hostOps0 W (Proc.devRef .tc main_v8) : S4096.Idx → EReal) =
      Host.divf (maximumf (maximumf
          (Host.absf (Host.reduce FloatOps.minimumf (W main_arg2 : S4096x4096.Idx → EReal) (constant (F := Ideal) S_ .f32 0x7F800000#32) reducesTo_S4096x4096_S4096_d1 h_S_))
          (Host.absf (Host.reduce FloatOps.maximumf (W main_arg2 : S4096x4096.Idx → EReal) (constant (F := Ideal) S_ .f32 0xFF800000#32) reducesTo_S4096x4096_S4096_d1 h_S_)))
        (broadcastInDim S4096 ![] bcast_S_S4096 (constant (F := Ideal) S_ .f32 0x322BCC77#32)))
        (broadcastInDim S4096 ![] bcast_S_S4096 (constant (F := Ideal) S_ .f32 0x42FE0000#32)) := by
    after_results <;> rfl
  rw [e8]
  after_results <;> rfl
private theorem s1_v12 (V : Valuation τ sig (Elt Ideal)) :
    (StableHlo.after hostOps0_1 V (Proc.devRef .tc main_v12) : S4096x4096.Idx → EReal) =
      Host.roundeven (F := Ideal) (s := S4096x4096) (φ := .f32) (V (Proc.devRef .tc main_v11)) := by
  after_results <;> rfl
private theorem s2_c (V : Valuation τ sig (Elt Ideal)) :
    (StableHlo.after hostOps0_2 V (Proc.devRef .tc main_c) : S_.Idx → BitVec 32) = constantI S_ 32 4294967168#32 := by
  after_results <;> rfl
private theorem s2_c3 (V : Valuation τ sig (Elt Ideal)) :
    (StableHlo.after hostOps0_2 V (Proc.devRef .tc main_c_3) : S_.Idx → BitVec 32) = constantI S_ 32 127#32 := by
  after_results <;> rfl
private theorem s3_v13 (V : Valuation τ sig (Elt Ideal)) :
    (StableHlo.after hostOps0_3 V (Proc.devRef .tc main_v13) : S4096x4096.Idx → EReal) =
      minimumf (F := Ideal) (φ := .f32) (broadcastInDim S4096x4096 ![] bcast_S_S4096x4096 (sitofp (F := Ideal) .f32 (V (Proc.devRef .tc main_c_3) : S_.Idx → BitVec 32)))
        (maximumf (F := Ideal) (φ := .f32) (broadcastInDim S4096x4096 ![] bcast_S_S4096x4096 (sitofp (F := Ideal) .f32 (V (Proc.devRef .tc main_c) : S_.Idx → BitVec 32)))
          (V (Proc.devRef .tc main_v12))) := by
  after_results <;> rfl
private theorem s6_v21 (V : Valuation τ sig (Elt Ideal)) :
    (StableHlo.after hostOps0_6 V (Proc.devRef .tc main_v21) : S4096x4096.Idx → EReal) =
      truncf (F := Ideal) (φ := .f32) .bf16 (transpose S4096x4096 [1, 0] (V (Proc.devRef .tc main_v13) : S4096x4096.Idx → EReal) transposes_S4096x4096_S4096x4096_1_0) bitsLt_bf16_f32 := by
  after_results <;> rfl

theorem prefix_wq (W : Valuation τ sig (Elt Ideal)) (k o : Fin 4096) :
    (afterPrefix W main_v21 : S4096x4096.Idx → EReal) (ix2 k o)
      = wq ((W main_arg2 : S4096x4096.Idx → EReal) (ix2 o k)) ((afterPrefix W main_v8 : S4096.Idx → EReal) (ix1 o)) := by
  have e8 : afterPrefix W (Proc.devRef .tc main_v8) = StableHlo.after hostOps0 W (Proc.devRef .tc main_v8) :=
    keep_after0 W main_v8 (by decide) (by decide) (by decide) (by decide) (by decide) (by decide)
  refine (congrFun (s6_v21 _) _).trans ?_
  rw [truncf_apply, transpose_ix2_apply, keep5 _ main_v13 (by decide), keep4 _ main_v13 (by decide), s3_v13,
    minimumf_apply, maximumf_apply, LibLayout.broadcastInDim_scalar_apply, LibLayout.broadcastInDim_scalar_apply,
    sitofp_apply, sitofp_apply, s2_c, s2_c3, keep2 _ main_v12 (by decide), s1_v12, e8]
  show min (FloatOps.sitofp (F := Ideal) .f32 (127#32 : BitVec 32)) (max (FloatOps.sitofp (F := Ideal) .f32 (4294967168#32 : BitVec 32))
    (rnd ((StableHlo.after (hostOps0 (F := Ideal)) W (Proc.devRef .tc main_v11) : S4096x4096.Idx → EReal) (ix2 o k)))) = _
  rw [s0_v11]
  show min _ (max _ (rnd (Ideal.div _ (broadcastInDim S4096x4096 ![0, 1] bcast_S4096x1_S4096x4096_0_1
    (broadcastInDim S4096x1 ![0] bcast_S4096_S4096x1_0 (StableHlo.after (hostOps0 (F := Ideal)) W (Proc.devRef .tc main_v8) : S4096.Idx → EReal)) (ix2 o k))))) = _
  rw [LibLayout.broadcastInDim_a1_ab_apply, LibLayout.broadcastInDim_a_a1_apply]
  rfl

end Cert.KernelIdeal.Val

end
-- ==== Proof.Ref.RefVal.lean ====
import proofs.«124374_j73735998538084_1_alg».proof.Proof.Ref.Read
import proofs.«124374_j73735998538084_1_alg».proof.Proof.Spec
import proofs.«124374_j73735998538084_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Mathlib.Data.Finset.Fold

/-!
  The reference program's three results, read at an index over the extended reals, as functions of its four
  arguments x : [8192, 4096], a : [1], W : [4096, 4096], b : [4096].

  With s(o) the per-channel weight scale, the rectified accumulator at (r, o) is
      max((∑ₖ x(r, k)/a · clip(rndST(W(o, k)/s(o))) + rndST(b(o)/(s(o)·a))) · (s(o)·a), 0)
  where rndST v = v + (round v - v); the whole-array maximum and minimum of it are characterised by their bounds;
  the output scale is max(max(M, 0) - min(m, 0), ε)/255; and the first result is the straight-through requantization
  of the accumulator with that scale and the zero point round(-min(m, 0)/t). The third result is the scale as a
  one-element array.
-/

set_option maxRecDepth 16384

noncomputable section

namespace Cert.ReferenceIdeal.RefVal

open Cert.ReferenceIdeal Cert.ReferenceIdeal.Gen Cert.ReferenceIdeal.ReadP Cert.Spec Idealize.ShloMosaic
  Idealize.ShloMosaic.TcCoe Idealize.ShloMosaic.ValueIdx Idealize.SL.Sem

variable (x0 : (⟨S8192x4096, .f32⟩ : BufTy).Contents (Elt Ideal)) (x1 : (⟨S1, .f32⟩ : BufTy).Contents (Elt Ideal))
  (x2 : (⟨S4096x4096, .f32⟩ : BufTy).Contents (Elt Ideal)) (x3 : (⟨S4096, .f32⟩ : BufTy).Contents (Elt Ideal))

/-- Every index of a rank-0 array is the one index. -/
theorem idx0_eq (j : S_.Idx) : j = ix0 := eq_ix0 j

/-- The output scale: the range max(M, 0) - min(m, 0), floored at ε, over 255. -/
theorem ref_scale : val_main_v40 (F := Ideal) x0 x1 x2 x3 ix0
    = Ideal.div (max (max (val_main_v36 (F := Ideal) x0 x1 x2 x3 ix0) 0 - min (val_main_v34 (F := Ideal) x0 x1 x2 x3 ix0) 0) eps) c255 := by
  rw [val_main_v40_apply, val_main_v39_apply, val_main_v38_apply, val_main_v37_apply, val_main_v35_apply,
    val_main_cst_9_apply, val_main_cst_8_apply, val_main_cst_7_apply, val_main_cst_5_apply]
  rw [Ideal.hostDivf_def, Ideal.maximumf_def, Ideal.subf_def, Ideal.maximumf_def, Ideal.minimumf_def]
  rw [Ideal.ofBits_def, Ideal.ofBits_def, Ideal.ofBits_def, Ideal.ofBits_zero_f32]
  rfl

/-- The third result is the scale, as a one-element array: both indices have row-major position 0. -/
theorem ref_third : val_main_v56 (F := Ideal) x0 x1 x2 x3 (ix1 (0 : Fin 1)) = val_main_v40 (F := Ideal) x0 x1 x2 x3 ix0 := by
  unfold val_main_v56
  generalize val_main_v40 (F := Ideal) x0 x1 x2 x3 = y
  refine shapeCast_apply y shapeCasts_S_S1 (ix1 (0 : Fin 1)) ix0 ?_
  rw [Shape.rowMajor_val_one]
  exact Shape.rowMajorPi_zero _ _

/-- The whole-array maximum has exactly the upper bounds of all the entries (its initial value is -∞). -/
theorem ref_max : IsTop (val_main_v36 (F := Ideal) x0 x1 x2 x3 ix0)
    (fun i : S8192x4096.Idx => val_main_v33 (F := Ideal) x0 x1 x2 x3 i) ⊥ := by
  intro c
  unfold val_main_v36
  generalize val_main_v33 (F := Ideal) x0 x1 x2 x3 = P
  rw [Host.reduce_eq_fold]
  -- every index drops to the one rank-0 index
  have hS : (Finset.univ.filter fun i : S8192x4096.Idx => reducesTo_S8192x4096_S_d0_1.drop i = ix0) = Finset.univ :=
    Finset.filter_true_of_mem fun i _ => eq_ix0 _
  rw [hS]
  have hb : val_main_cst_6 (F := Ideal) (Shape.Idx.first h_S_) = ⊥ := by
    show Ideal.ofBits .f32 0xFF800000#32 = ⊥
    simp [Ideal.ofBits, Ideal.ieee]
  rw [hb]
  refine (Finset.fold_max_le (s := Finset.univ) (f := P) (b := (⊥ : EReal)) (c := c)).trans ?_
  simp only [Finset.mem_univ, forall_true_left]

/-- The whole-array minimum has exactly the lower bounds of all the entries (its initial value is +∞). -/
theorem ref_min : IsBot (val_main_v34 (F := Ideal) x0 x1 x2 x3 ix0)
    (fun i : S8192x4096.Idx => val_main_v33 (F := Ideal) x0 x1 x2 x3 i) ⊤ := by
  intro c
  unfold val_main_v34
  generalize val_main_v33 (F := Ideal) x0 x1 x2 x3 = P
  rw [Host.reduce_eq_fold]
  have hS : (Finset.univ.filter fun i : S8192x4096.Idx => reducesTo_S8192x4096_S_d0_1.drop i = ix0) = Finset.univ :=
    Finset.filter_true_of_mem fun i _ => eq_ix0 _
  rw [hS]
  have hb : val_main_cst_4 (F := Ideal) (Shape.Idx.first h_S_) = ⊤ := by
    show Ideal.ofBits .f32 0x7F800000#32 = ⊤
    simp [Ideal.ofBits, Ideal.ieee]
  rw [hb]
  refine (Finset.le_fold_min (s := Finset.univ) (f := P) (b := (⊤ : EReal)) (c := c)).trans ?_
  simp only [Finset.mem_univ, forall_true_left]

/-- The first result: the straight-through requantization of the rectified accumulator with the output scale and the
    zero point round(-min(m, 0)/t). -/
theorem ref_out (r : Fin 8192) (o : Fin 4096) : val_main_v55 (F := Ideal) x0 x1 x2 x3 (ix2 r o)
    = requantST (val_main_v33 (F := Ideal) x0 x1 x2 x3 (ix2 r o)) (val_main_v40 (F := Ideal) x0 x1 x2 x3 ix0)
        (rnd (Ideal.div (-(min (val_main_v34 (F := Ideal) x0 x1 x2 x3 ix0) 0)) (val_main_v40 (F := Ideal) x0 x1 x2 x3 ix0))) := by
  have h0 : FloatOps.ofBits (F := Ideal) .f32 0x00000000#32 = (0 : EReal) := Ideal.ofBits_zero_f32
  have h255 : FloatOps.ofBits (F := Ideal) .f32 0x437F0000#32 = c255 := rfl
  rw [val_main_v55_apply, val_main_v54_apply, val_main_v53_apply, val_main_v52_apply, val_main_v51_apply,
    val_main_call6_v4_apply, val_main_call6_v3_apply, val_main_cst_11_apply,
    val_main_call6_v2_apply, val_main_call6_v1_apply, val_main_call6_v0_apply, val_main_cst_10_apply,
    val_main_v50_apply, val_main_v49_apply, val_main_v48_apply, val_main_v47_apply, val_main_v46_apply,
    val_main_v45_apply, val_main_v44_apply,
    idx0_eq (idx_main_v54 (ix2 r o)), idx0_eq (idx_main_v52 (ix2 r o)), idx0_eq (idx_main_v49 (ix2 r o)),
    idx0_eq (idx_main_v44 (ix2 r o)),
    val_main_v43_apply, val_main_v42_apply, val_main_v41_apply, val_main_v35_apply, val_main_cst_5_apply, h0, h255]
  rfl

/-- The rectified accumulator at (r, o). -/
theorem ref_pre (r : Fin 8192) (o : Fin 4096) : val_main_v33 (F := Ideal) x0 x1 x2 x3 (ix2 r o)
    = pre (∑ k : Fin 4096, Ideal.div (x0 (ix2 r k)) (x1 (ix1 (0 : Fin 1))) * wqST (x2 (ix2 o k)) (val_main_v8 (F := Ideal) x2 (ix1 o)))
          (bqST (x3 (ix1 o)) (val_main_v8 (F := Ideal) x2 (ix1 o)) (x1 (ix1 (0 : Fin 1)))) (val_main_v8 (F := Ideal) x2 (ix1 o) * x1 (ix1 (0 : Fin 1))) := by
  have h0 : FloatOps.ofBits (F := Ideal) .f32 0x00000000#32 = (0 : EReal) := Ideal.ofBits_zero_f32
  -- the indices the layout operations read, as coordinates
  have e31 : idx_main_v30 (idx_main_v31 (ix2 r o)) = ix1 o := funext fun a => Fin.ext (by match a with | ⟨0, _⟩ => rfl)
  have e28 : idx_main_v27 (idx_main_v28 (ix2 r o)) = ix1 o := funext fun a => Fin.ext (by match a with | ⟨0, _⟩ => rfl)
  have e16 : idx_main_v16 (ix1 o) = ix1 (0 : Fin 1) := funext fun a => Fin.ext (by match a with | ⟨0, _⟩ => rfl)
  -- the scale s(o)·a and the bias term
  have hsf : val_main_v17 (F := Ideal) x1 x2 (ix1 o) = val_main_v8 (F := Ideal) x2 (ix1 o) * x1 (ix1 (0 : Fin 1)) := by
    rw [val_main_v17_apply, val_main_v16_apply, e16]; rfl
  have hb : val_main_v21 (F := Ideal) x1 x2 x3 (ix1 o)
      = bqST (x3 (ix1 o)) (val_main_v8 (F := Ideal) x2 (ix1 o)) (x1 (ix1 (0 : Fin 1))) := by
    rw [val_main_v21_apply, val_main_v20_apply, val_main_v19_apply, val_main_v18_apply, hsf]; rfl
  rw [val_main_v33_apply, val_main_call3_v0_apply, val_main_call3_cst_apply, h0, val_main_v32_apply,
    val_main_v31_apply, val_main_v30_apply, e31, hsf, val_main_v29_apply, val_main_v28_apply, val_main_v27_apply, e28, hb,
    val_main_v26_apply]
  -- one term of the contraction: x(r, k)/a times the clipped straight-through quantized weight
  have hk : ∀ k : Fin 4096, val_main_v24 (F := Ideal) x0 x1 (lidx_main_v26 (ix2 r o) k) * val_main_v25 (F := Ideal) x2 (ridx_main_v26 (ix2 r o) k)
      = Ideal.div (x0 (ix2 r k)) (x1 (ix1 (0 : Fin 1))) * wqST (x2 (ix2 o k)) (val_main_v8 (F := Ideal) x2 (ix1 o)) := by
    intro k
    have el : lidx_main_v26 (ix2 r o) k = ix2 r k :=
      funext fun a => Fin.ext (by match a with | ⟨0, _⟩ => rfl | ⟨1, _⟩ => rfl)
    have e22 : idx_main_v22 (idx_main_v23 (ix2 r k)) = ix1 (0 : Fin 1) :=
      funext fun a => Fin.ext (by match a with | ⟨0, _⟩ => rfl)
    have e25 : idx_main_v25 (ridx_main_v26 (ix2 r o) k) = ix2 o k :=
      funext fun a => Fin.ext (by match a with | ⟨0, _⟩ => rfl | ⟨1, _⟩ => rfl)
    have e10 : idx_main_v9 (idx_main_v10 (ix2 o k)) = ix1 o :=
      funext fun a => Fin.ext (by match a with | ⟨0, _⟩ => rfl)
    have hx : val_main_v24 (F := Ideal) x0 x1 (ix2 r k) = Ideal.div (x0 (ix2 r k)) (x1 (ix1 (0 : Fin 1))) := by
      rw [val_main_v24_apply, val_main_v23_apply, val_main_v22_apply, e22]; rfl
    have hw : val_main_v15 (F := Ideal) x2 (ix2 o k) = wqST (x2 (ix2 o k)) (val_main_v8 (F := Ideal) x2 (ix1 o)) := by
      rw [val_main_v15_apply, val_main_call1_v4_apply, val_main_call1_v3_apply, val_main_c_3_apply,
        val_main_call1_v2_apply, val_main_call1_v1_apply, val_main_call1_v0_apply, val_main_c_apply,
        val_main_v14_apply, val_main_v13_apply, val_main_v12_apply, val_main_v11_apply, val_main_v10_apply,
        val_main_v9_apply, e10]
      rfl
    rw [el, hx, val_main_v25_apply, e25, hw]
  rw [Finset.sum_congr rfl fun k _ => hk k]
  rfl

end Cert.ReferenceIdeal.RefVal

end
-- ==== Proof.SpecMath.lean ====
/-
  Facts about the extended-real functions of Spec.lean: the literals are the expected reals, rounding and its
  straight-through form agree on the reals, quotients by a divisor other than zero of a real are real, the two
  forms of the rectified accumulator agree and are nonnegative reals, and the two forms of the requantization agree
  when every entry is a nonnegative real.
-/
import proofs.«124374_j73735998538084_1_alg».proof.Proof.Spec
import Mathlib.Data.EReal.Basic
import Mathlib.Data.EReal.Operations
import Mathlib.Data.EReal.Inv
import Mathlib.Algebra.BigOperators.Group.Finset.Basic
import Mathlib.Algebra.Order.BigOperators.Group.Finset

noncomputable section

namespace Cert.Spec

open Idealize.ShloMosaic

/-! ### The literals -/

theorem cOne_eq : cOne = 1 := by
  unfold cOne
  rw [show (1 : EReal) = ((1 : ℝ) : EReal) by norm_cast]
  simp [Ideal.ofBits, Ideal.ieee, -EReal.coe_mul]; norm_num

theorem eps_eq : eps = (((11258999 : ℝ) * (2 : ℝ) ^ (-50 : ℤ) : ℝ) : EReal) := by
  unfold eps
  simp [Ideal.ofBits, Ideal.ieee, -EReal.coe_mul]

theorem eps_pos : ∃ e : ℝ, 0 < e ∧ eps = (e : EReal) :=
  ⟨_, by positivity, eps_eq⟩

theorem c255_eq : c255 = ((255 : ℝ) : EReal) := by
  unfold c255
  simp [Ideal.ofBits, Ideal.ieee, -EReal.coe_mul]; norm_num

theorem c255_pos : ∃ r : ℝ, 0 < r ∧ c255 = (r : EReal) :=
  ⟨255, by norm_num, c255_eq⟩

theorem lo_hi_real : ∃ l h : ℝ, lo = (l : EReal) ∧ hi = (h : EReal) :=
  ⟨_, _, rfl, rfl⟩

/-! ### Rounding on the reals -/

theorem rnd_coe (v : ℝ) : ∃ r : ℝ, rnd (v : EReal) = (r : EReal) :=
  ⟨_, rfl⟩

/-- On a real, v + (round v - v) = round v. -/
theorem rndST_coe (v : ℝ) : rndST (v : EReal) = rnd (v : EReal) := by
  obtain ⟨r, hr⟩ := rnd_coe v
  unfold rndST
  rw [hr, ← EReal.coe_sub, ← EReal.coe_add]
  congr 1
  ring

theorem rnd_zero : rnd 0 = 0 := by
  show Ideal.liftRound Ideal.roundHalfEven ((0 : ℝ) : EReal) = 0
  rw [Ideal.liftRound_coe]
  simp [Ideal.roundHalfEven]

/-! ### Quotients and clips that are real -/

/-- The inverse of any extended real is a real. -/
theorem inv_real (y : EReal) : ∃ r : ℝ, y⁻¹ = (r : EReal) := by
  induction y using EReal.rec with
  | bot => exact ⟨0, EReal.inv_bot⟩
  | top => exact ⟨0, EReal.inv_top⟩
  | coe r => exact ⟨r⁻¹, (EReal.coe_inv r).symm⟩

theorem div_ne_zero_eq (x : EReal) {y : EReal} (hy : y ≠ 0) : Ideal.div x y = x * y⁻¹ := by
  unfold Ideal.div
  rw [if_neg hy]

theorem div_coe_real (b : ℝ) {y : EReal} (hy : y ≠ 0) : ∃ r : ℝ, Ideal.div (b : EReal) y = (r : EReal) := by
  obtain ⟨i, hi⟩ := inv_real y
  exact ⟨b * i, by rw [div_ne_zero_eq _ hy, hi, EReal.coe_mul]⟩

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A clip between two reals is real. -/
theorem clip_real (l h : ℝ) (v : EReal) : ∃ r : ℝ, min (h : EReal) (max (l : EReal) v) = (r : EReal) := by
  induction v using EReal.rec with
  | bot => exact ⟨min h l, by rw [max_eq_left bot_le, min_coe]⟩
  | top => exact ⟨h, by rw [max_eq_right le_top, min_eq_left le_top]⟩
  | coe r => exact ⟨min h (max l r), by rw [max_coe, min_coe]⟩

theorem clipW_real (v : EReal) : ∃ r : ℝ, clipW v = (r : EReal) := by
  obtain ⟨l, h, hl, hh⟩ := lo_hi_real
  unfold clipW
  rw [hl, hh]
  exact clip_real l h v

theorem wq_real (w s : EReal) : ∃ r : ℝ, wq w s = (r : EReal) :=
  clipW_real _

theorem wqST_eq (w : ℝ) {s : EReal} (hs : s ≠ 0) : wqST (w : EReal) s = wq (w : EReal) s := by
  obtain ⟨r, hr⟩ := div_coe_real w hs
  unfold wqST wq
  rw [hr, rndST_coe]

/-! ### The rectified accumulator -/

/-- A finite sum of reals, taken in the extended reals, is the real sum. -/
theorem sum_coe {ι : Type} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- With the scale zero the rectified accumulator is zero, whatever the sum. -/
theorem pre_zero_scale (d b : EReal) : pre d b 0 = 0 := by
  unfold pre
  rw [mul_zero, max_self]

theorem pre_agree {n : ℕ} (x w : Fin n → ℝ) (a b s : ℝ) (hs : 0 < s) :
    pre (∑ k : Fin n, ((x k : EReal) * Ideal.div cOne (a : EReal)) * wq (w k : EReal) (s : EReal)) (bq (b : EReal) (s : EReal) (a : EReal)) ((s : EReal) * (a : EReal))
  = pre (∑ k : Fin n, Ideal.div (x k : EReal) (a : EReal) * wqST (w k : EReal) (s : EReal)) (bqST (b : EReal) (s : EReal) (a : EReal)) ((s : EReal) * (a : EReal)) := by
  by_cases ha : a = 0
  · subst ha
    rw [EReal.coe_zero, mul_zero, pre_zero_scale, pre_zero_scale]
  · have ha' : (a : EReal) ≠ 0 := EReal.coe_ne_zero.mpr ha
    have hs' : (s : EReal) ≠ 0 := EReal.coe_ne_zero.mpr hs.ne'
    have hsa : (s : EReal) * (a : EReal) ≠ 0 := by
      rw [← EReal.coe_mul]
      exact EReal.coe_ne_zero.mpr (mul_ne_zero hs.ne' ha)
    have hb : bqST (b : EReal) (s : EReal) (a : EReal) = bq (b : EReal) (s : EReal) (a : EReal) := by
      obtain ⟨r, hr⟩ := div_coe_real b hsa
      unfold bqST bq
      rw [hr, rndST_coe]
    have hk : ∀ k : Fin n, Ideal.div (x k : EReal) (a : EReal) * wqST (w k : EReal) (s : EReal)
        = ((x k : EReal) * Ideal.div cOne (a : EReal)) * wq (w k : EReal) (s : EReal) := by
      intro k
      rw [wqST_eq _ hs', div_ne_zero_eq _ ha', div_ne_zero_eq _ ha', cOne_eq, one_mul]
    rw [hb, Finset.sum_congr rfl (fun k _ => hk k)]

theorem pre_real {n : ℕ} (x w : Fin n → ℝ) (a b s : ℝ) (hs : 0 < s) :
    ∃ r : ℝ, 0 ≤ r ∧ pre (∑ k : Fin n, Ideal.div (x k : EReal) (a : EReal) * wqST (w k : EReal) (s : EReal)) (bqST (b : EReal) (s : EReal) (a : EReal)) ((s : EReal) * (a : EReal)) = (r : EReal) := by
  by_cases ha : a = 0
  · subst ha
    refine ⟨0, le_rfl, ?_⟩
    rw [EReal.coe_zero, mul_zero, pre_zero_scale]
  · have ha' : (a : EReal) ≠ 0 := EReal.coe_ne_zero.mpr ha
    have hsa : (s : EReal) * (a : EReal) ≠ 0 := by
      rw [← EReal.coe_mul]
      exact EReal.coe_ne_zero.mpr (mul_ne_zero hs.ne' ha)
    have hk : ∀ k : Fin n, ∃ r : ℝ,
        Ideal.div (x k : EReal) (a : EReal) * wqST (w k : EReal) (s : EReal) = (r : EReal) := by
      intro k
      obtain ⟨p, hp⟩ := div_coe_real (x k) ha'
      obtain ⟨q, hq⟩ := clipW_real (rndST (Ideal.div (w k : EReal) (s : EReal)))
      refine ⟨p * q, ?_⟩
      unfold wqST
      rw [hp, hq, EReal.coe_mul]
    choose f hf using hk
    obtain ⟨d, hd⟩ := div_coe_real b hsa
    obtain ⟨c, hc⟩ := rnd_coe d
    have hb : bqST (b : EReal) (s : EReal) (a : EReal) = (c : EReal) := by
      unfold bqST
      rw [hd, rndST_coe, hc]
    refine ⟨max (((∑ k : Fin n, f k) + c) * (s * a)) 0, le_max_right _ _, ?_⟩
    unfold pre
    rw [Finset.sum_congr rfl (fun k _ => hf k), sum_coe, hb, ← EReal.coe_mul, ← EReal.coe_add, ← EReal.coe_mul]
    exact max_coe _ 0

/-! ### The requantization -/

theorem requant_agree {ι : Type} [Fintype ι] (P : ι → EReal) (hP : ∀ i, ∃ r : ℝ, 0 ≤ r ∧ P i = (r : EReal)) {M mx mn : EReal}
    (hM : IsTop M P 0) (hmx : IsTop mx P ⊥) (hmn : IsBot mn P ⊤) :
    Ideal.div (max (max mx 0 - min mn 0) eps) c255 = scaleOf M
    ∧ ∀ i, requantST (P i) (Ideal.div (max (max mx 0 - min mn 0) eps) c255) (rnd (Ideal.div (-(min mn 0)) (Ideal.div (max (max mx 0 - min mn 0) eps) c255))) = requant (P i) (scaleOf M) := by
  choose r hr0 hr using hP
  -- every entry is at least 0, so the least of ⊤ and the entries is at least 0
  have hmin : min mn 0 = 0 :=
    min_eq_right ((hmn 0).2 ⟨le_top, fun i => by rw [hr i]; exact EReal.coe_nonneg.mpr (hr0 i)⟩)
  -- the greatest of ⊥ and the entries, raised to 0, has the upper bounds of the greatest of 0 and the entries
  have hmax : max mx 0 = M := by
    refine IsTop.unique (P := P) (b := 0) (fun c => ?_) hM
    rw [max_le_iff, hmx c]
    constructor
    · rintro ⟨⟨_, h⟩, h0⟩
      exact ⟨h0, h⟩
    · rintro ⟨h0, h⟩
      exact ⟨⟨bot_le, h⟩, h0⟩
  have hT : Ideal.div (max (max mx 0 - min mn 0) eps) c255 = scaleOf M := by
    rw [hmin, hmax, sub_zero]
    rfl
  refine ⟨hT, fun i => ?_⟩
  rw [hT, hmin, neg_zero]
  -- the greatest value is a real: it lies between 0 and the sum of the entries
  have hM0 : 0 ≤ M := ((hM M).1 le_rfl).1
  have hMB : M ≤ ((∑ i, r i : ℝ) : EReal) :=
    (hM _).2 ⟨EReal.coe_nonneg.mpr (Finset.sum_nonneg fun i _ => hr0 i), fun i => by
      rw [hr i]
      exact EReal.coe_le_coe_iff.mpr (Finset.single_le_sum (fun j _ => hr0 j) (Finset.mem_univ i))⟩
  have hMtop : M ≠ ⊤ := fun h => by
    rw [h] at hMB
    exact EReal.coe_ne_top _ (top_le_iff.mp hMB)
  have hMbot : M ≠ ⊥ := fun h => by
    rw [h] at hM0
    exact EReal.coe_ne_bot 0 (le_bot_iff.mp hM0)
  obtain ⟨m, hm⟩ : ∃ m : ℝ, M = (m : EReal) := ⟨M.toReal, (EReal.coe_toReal hMtop hMbot).symm⟩
  obtain ⟨e, he0, he⟩ := eps_pos
  -- so the scale is a positive real
  obtain ⟨t, ht0, ht⟩ : ∃ t : ℝ, 0 < t ∧ scaleOf M = (t : EReal) := by
    refine ⟨max m e * (255 : ℝ)⁻¹, mul_pos (lt_max_of_lt_right he0) (by norm_num), ?_⟩
    unfold scaleOf
    rw [hm, he, max_coe, c255_eq, div_ne_zero_eq _ (EReal.coe_ne_zero.mpr (by norm_num)), ← EReal.coe_inv,
      ← EReal.coe_mul]
  have ht' : (t : EReal) ≠ 0 := EReal.coe_ne_zero.mpr ht0.ne'
  rw [ht]
  -- the zero point is round (0 / t) = 0
  have hz : rnd (Ideal.div 0 (t : EReal)) = 0 := by
    rw [div_ne_zero_eq _ ht', zero_mul, rnd_zero]
  obtain ⟨q, hq⟩ := div_coe_real (r i) ht'
  unfold requantST requant
  rw [hz, hr i, hq, rndST_coe, add_zero, sub_zero]

end Cert.Spec

end
-- ==== Proof.SpecScale.lean ====
/-
  The per-channel weight scale as one function of the weight matrix W : [4096, 4096], over the extended reals.

  Channel o's scale is  s(o) = max(max(|m(o)|, |M(o)|), ε) / 127,  where m(o) is the minimum of row o of W, folded
  from +∞, M(o) its maximum, folded from -∞, |v| = max(v, -v), and ε, 127 are the two f32 literals. Both programs
  build s from W by this one chain of operations, so the chain is named here once (`wscale`), read at a channel
  (`wscale_apply`), and shown to be a positive real number whenever every entry of W is real (`wscale_pos`):
  a row has 4096 > 0 entries, the least and the greatest of finitely many reals are real, the absolute value of a
  real is real, the greater of a real and the positive real ε is a positive real, and a positive real over 127 is one.
-/
import proofs.«124374_j73735998538084_1_alg».proof.Proof.Spec
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-! ## The shape facts of the chain, at the literal shapes -/

theorem wscale_reducesTo : (⟨2, ![4096, 4096]⟩ : Shape).ReducesTo [1] (⟨1, ![4096]⟩ : Shape) := by decide
theorem wscale_reduces : (⟨2, ![4096, 4096]⟩ : Shape).Reduces [1] (⟨1, ![4096]⟩ : Shape) := by decide
theorem wscale_numel : 0 < (⟨0, ![]⟩ : Shape).numel := by decide
theorem wscale_bcast :
    (⟨0, ![]⟩ : Shape).BroadcastsInDim (⟨1, ![4096]⟩ : Shape) (![] : Fin 0 → Fin (⟨1, ![4096]⟩ : Shape).rank) := by decide

/-! ## The chain -/

/-- The minimum of each row of `W`, folded from +∞. -/
def wRowMin (W : FVec Ideal ⟨2, ![4096, 4096]⟩ .f32) : FVec Ideal ⟨1, ![4096]⟩ .f32 :=
  Host.reduce FloatOps.minimumf W (constant (F := Ideal) ⟨0, ![]⟩ .f32 0x7F800000#32) wscale_reducesTo wscale_numel

/-- The maximum of each row of `W`, folded from -∞. -/
def wRowMax (W : FVec Ideal ⟨2, ![4096, 4096]⟩ .f32) : FVec Ideal ⟨1, ![4096]⟩ .f32 :=
  Host.reduce FloatOps.maximumf W (constant (F := Ideal) ⟨0, ![]⟩ .f32 0xFF800000#32) wscale_reducesTo wscale_numel

/-- The per-channel weight scale: the greatest of |row minimum|, |row maximum| and ε, over 127. -/
def wscale (W : FVec Ideal ⟨2, ![4096, 4096]⟩ .f32) : FVec Ideal ⟨1, ![4096]⟩ .f32 :=
  Host.divf
    (maximumf
      (maximumf (Host.absf (wRowMin W)) (Host.absf (wRowMax W)))
      (broadcastInDim ⟨1, ![4096]⟩ ![] wscale_bcast (constant (F := Ideal) ⟨0, ![]⟩ .f32 0x322BCC77#32)))
    (broadcastInDim ⟨1, ![4096]⟩ ![] wscale_bcast (constant (F := Ideal) ⟨0, ![]⟩ .f32 0x42FE0000#32))

/-! ## The operations of the chain read at an index -/

namespace Scale

theorem hostDivf_apply {s : Shape} {φ : FTy} (x y : FVec Ideal s φ) (i : s.Idx) :
    Host.divf x y i = Ideal.div (x i) (y i) := rfl

theorem hostAbsf_apply {s : Shape} {φ : FTy} (x : FVec Ideal s φ) (i : s.Idx) :
    Host.absf x i = max (x i) (-(x i)) := rfl

theorem broadcastInDim_constant_apply {t : Shape} (h : (⟨0, ![]⟩ : Shape).BroadcastsInDim t (![] : Fin 0 → Fin t.rank))
    (b : BitVec 32) (j : t.Idx) :
    broadcastInDim t ![] h (constant (F := Ideal) ⟨0, ![]⟩ .f32 b) j = Ideal.ofBits .f32 b := rfl

end Scale

/-- The scale read at channel `o`: with m, M the row's minimum and maximum, max(max(max(m, -m), max(M, -M)), ε) / 127. -/
theorem wscale_apply (W : FVec Ideal ⟨2, ![4096, 4096]⟩ .f32) (o : Fin 4096) :
    wscale W (ix1 o)
      = Ideal.div (max (max (max (wRowMin W (ix1 o)) (-(wRowMin W (ix1 o)))) (max (wRowMax W (ix1 o)) (-(wRowMax W (ix1 o))))) eps)
          c127 := by
  unfold wscale
  rw [Scale.hostDivf_apply, maximumf_apply, maximumf_apply, Scale.hostAbsf_apply, Scale.hostAbsf_apply,
    Scale.broadcastInDim_constant_apply, Scale.broadcastInDim_constant_apply,
    show eps = Ideal.ofBits .f32 0x322BCC77#32 from rfl, show c127 = Ideal.ofBits .f32 0x42FE0000#32 from rfl]

/-! ## Real numbers among the extended reals -/

namespace Scale

theorem coe_max_real (a b : ℝ) : max (a : EReal) (b : EReal) = ((max a b : ℝ) : EReal) :=
  (EReal.coe_strictMono.monotone.map_max).symm

theorem coe_min_real (a b : ℝ) : min (a : EReal) (b : EReal) = ((min a b : ℝ) : EReal) :=
  (EReal.coe_strictMono.monotone.map_min).symm

/-- The two f32 infinities. -/
theorem ofBits_posInf : Ideal.ofBits .f32 0x7F800000#32 = ⊤ := by simp [Ideal.ofBits, Ideal.ieee]

theorem ofBits_negInf : Ideal.ofBits .f32 0xFF800000#32 = ⊥ := by simp [Ideal.ofBits, Ideal.ieee]

/-- ε is the real 11258999 · 2⁻⁵⁰ (just under 10⁻⁸), and the divisor is the real 127. -/
theorem eps_eq : eps = ((11258999 * (2 : ℝ) ^ (-50 : ℤ) : ℝ) : EReal) := by
  unfold eps
  simp [Ideal.ofBits, Ideal.ieee, -EReal.coe_mul]

theorem c127_eq : c127 = ((127 : ℝ) : EReal) := by
  unfold c127
  simp [Ideal.ofBits, Ideal.ieee, -EReal.coe_mul]
  norm_num

/-- A fold over finitely many reals of an operation under which the reals are closed, from a value the operation
    ignores, is that value over the empty family and a real over any other. -/
theorem fold_real {ι : Type} [DecidableEq ι] (op : EReal → EReal → EReal) [Std.Commutative op] [Std.Associative op]
    (e : EReal) (he : ∀ x, op x e = x) (hop : ∀ a b : ℝ, ∃ c : ℝ, op (a : EReal) (b : EReal) = (c : EReal))
    (f : ι → EReal) (hf : ∀ k, ∃ r : ℝ, f k = (r : EReal)) (S : Finset ι) :
    (S.fold op e f = e ∧ S = ∅) ∨ ∃ r : ℝ, S.fold op e f = (r : EReal) := by
  induction S using Finset.induction_on with
  | empty => exact Or.inl ⟨Finset.fold_empty, rfl⟩
  | insert a S ha ih =>
    refine Or.inr ?_
    rw [Finset.fold_insert ha]
    obtain ⟨ra, hra⟩ := hf a
    rcases ih with ⟨h0, _⟩ | ⟨r, hr⟩
    · rw [h0, he]; exact ⟨ra, hra⟩
    · rw [hr, hra]; exact hop ra r

end Scale

/-- The minimum of a row of real entries is real: the row has 4096 entries, so the fold from +∞ meets one. -/
theorem wRowMin_real (W : FVec Ideal ⟨2, ![4096, 4096]⟩ .f32) (hW : ∀ i, ∃ r : ℝ, W i = (r : EReal)) (o : Fin 4096) :
    ∃ r : ℝ, wRowMin W (ix1 o) = (r : EReal) := by
  unfold wRowMin
  rw [Host.reduce_eq_fold_single (FloatOps.minimumf (F := Ideal) (φ := .f32)) W _ wscale_reducesTo wscale_reduces wscale_numel (ix1 o),
    constant_apply, Scale.ofBits_posInf]
  have k0 : Fin ((⟨2, ![4096, 4096]⟩ : Shape).size 1) := ⟨0, by decide⟩
  rcases Scale.fold_real (FloatOps.minimumf (F := Ideal) (φ := .f32)) ⊤ (fun x => min_top_right x)
      (fun a b => ⟨min a b, Scale.coe_min_real a b⟩) (W ∘ wscale_reduces.lift (ix1 o)) (fun k => hW _) Finset.univ with ⟨_, h0⟩ | h
  · exact absurd h0 (Finset.ne_empty_of_mem (Finset.mem_univ k0))
  · exact h

/-- The maximum of a row of real entries is real. -/
theorem wRowMax_real (W : FVec Ideal ⟨2, ![4096, 4096]⟩ .f32) (hW : ∀ i, ∃ r : ℝ, W i = (r : EReal)) (o : Fin 4096) :
    ∃ r : ℝ, wRowMax W (ix1 o) = (r : EReal) := by
  unfold wRowMax
  rw [Host.reduce_eq_fold_single (FloatOps.maximumf (F := Ideal) (φ := .f32)) W _ wscale_reducesTo wscale_reduces wscale_numel (ix1 o),
    constant_apply, Scale.ofBits_negInf]
  have k0 : Fin ((⟨2, ![4096, 4096]⟩ : Shape).size 1) := ⟨0, by decide⟩
  rcases Scale.fold_real (FloatOps.maximumf (F := Ideal) (φ := .f32)) ⊥ (fun x => max_bot_right x)
      (fun a b => ⟨max a b, Scale.coe_max_real a b⟩) (W ∘ wscale_reduces.lift (ix1 o)) (fun k => hW _) Finset.univ with ⟨_, h0⟩ | h
  · exact absurd h0 (Finset.ne_empty_of_mem (Finset.mem_univ k0))
  · exact h

/-- Over a matrix of real entries every channel's scale is a positive real: at least ε / 127. -/
theorem wscale_pos (W : FVec Ideal ⟨2, ![4096, 4096]⟩ .f32) (hW : ∀ i, ∃ r : ℝ, W i = (r : EReal)) (o : Fin 4096) :
    ∃ r : ℝ, 0 < r ∧ wscale W (ix1 o) = (r : EReal) := by
  obtain ⟨mn, hmn⟩ := wRowMin_real W hW o
  obtain ⟨mx, hmx⟩ := wRowMax_real W hW o
  rw [wscale_apply, hmn, hmx, Scale.eps_eq, Scale.c127_eq, ← EReal.coe_neg, ← EReal.coe_neg, Scale.coe_max_real, Scale.coe_max_real,
    Scale.coe_max_real, Scale.coe_max_real, Ideal.div_coe (by norm_num : (127 : ℝ) ≠ 0), ← EReal.coe_mul]
  refine ⟨_, ?_, rfl⟩
  have he : (0 : ℝ) < 11258999 * (2 : ℝ) ^ (-50 : ℤ) := by positivity
  exact mul_pos (lt_of_lt_of_le he (le_max_right _ _)) (by norm_num)

end Cert.Spec

end
-- ==== Proof.PreReal.lean ====
import proofs.«124374_j73735998538084_1_alg».proof.Pre_finite_inputs
import proofs.«124374_j73735998538084_1_alg».proof.Proof.Gen.Pre_finite_inputs
import Idealize.ShloMosaic.Lib.ReduceAll
import Idealize.ShloMosaic.Lib.ValueIdx
import Idealize.ShloMosaic.PureOps.Ideal.Laws
import Mathlib.Data.EReal.Basic

/-!
# The precondition makes every input entry a real number

The precondition is the conjunction, over the four float arguments, of "every entry `x` has
`|x| < +∞`". Over the extended reals `|x| = max x (-x)`, and `max x (-x) < ⊤` fails at both
infinities, so each entry is the image of a real number.
-/

namespace Cert.PreReal

open Idealize.ShloMosaic
open Cert.Pre_finite_inputs

/-- An extended real whose absolute value is below `+∞` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact ⟨r, rfl⟩
  | top => simp at h'

instance : Subsingleton S_.Idx := ⟨fun a b => funext fun d => d.elim0⟩

/-- One conjunct of the precondition: if the "all" of `|x| < +∞` over an array holds, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have hi := Host.reduce_andi_all _ _ hr hu j e i
  exact real_of_abs_lt_inf (x i) hi

theorem real_of_pre [hF : Cert.Pre_finite_inputs.Facts]
    (x0 : FVec Ideal ⟨2, ![8192, 4096]⟩ .f32) (x1 : FVec Ideal ⟨1, ![1]⟩ .f32)
    (x2 : FVec Ideal ⟨2, ![4096, 4096]⟩ .f32) (x3 : FVec Ideal ⟨1, ![4096]⟩ .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_real x0 _ _ _ _ h0', all_real x1 _ _ _ _ h1, all_real x2 _ _ _ _ h2, all_real x3 _ _ _ _ h3⟩

end Cert.PreReal
-- ==== Proof.KI.Final.lean ====
/-
  The idealized kernel program's three results as functions of its arguments, and that they are the reference's.

  With x, a, W, b the argument arrays (every entry a real number under the precondition), s the per-channel weight
  scale (a positive real per channel) and `pre` the rectified, rescaled accumulator, the first kernel region leaves
  pre(r, o) in its output array; reading the host operations before it at an index, this is the reference's
  pre-activation entry by entry (the quotient by a against the product with 1/a, the plain roundings against the
  straight-through ones: `pre_agree`). The second region leaves the greatest M of 0 and all these entries, and the
  host turns it into the scale t = max(M, ε)/255; the third region leaves clip(round(pre/t), 0, 255)·t, which is the
  reference's requantization with its zero point 0 (`requant_agree`).
-/
import proofs.«124374_j73735998538084_1_alg».proof.Proof.KI.Inst
import proofs.«124374_j73735998538084_1_alg».proof.Proof.KI.KVal0
import proofs.«124374_j73735998538084_1_alg».proof.Proof.KI.KVal1
import proofs.«124374_j73735998538084_1_alg».proof.Proof.KI.KVal2
import proofs.«124374_j73735998538084_1_alg».proof.Proof.KI.HostVals
import proofs.«124374_j73735998538084_1_alg».proof.Proof.Ref.RefVal
import proofs.«124374_j73735998538084_1_alg».proof.Proof.SpecMath
import proofs.«124374_j73735998538084_1_alg».proof.Proof.SpecScale
import proofs.«124374_j73735998538084_1_alg».proof.Proof.PreReal

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The four argument arrays as launched. -/
abbrev argX : S8192x4096.Idx → EReal := m ((c : Thread nD τ).loc main_arg0)
abbrev argA : S1.Idx → EReal := m ((c : Thread nD τ).loc main_arg1)
abbrev argW : S4096x4096.Idx → EReal := m ((c : Thread nD τ).loc main_arg2)
abbrev argB : S4096.Idx → EReal := m ((c : Thread nD τ).loc main_arg3)

/-- The first region is entered from the launch contents after the seven host stretches. -/
theorem W7_eq : W7 m ρ c = afterPrefix (W0 m ρ c) := rfl

/-- The weight scale as it sits in its buffer when the first region is entered. -/
theorem scale_at_entry : (W7 m ρ c main_v8 : S4096.Idx → EReal) = wscale (argW m c) :=
  (prefix_scale (W0 m ρ c)).trans rfl

/-- What the first region leaves in its output array. -/
abbrev preArr : S8192x4096.Idx → EReal := (mmDat (V7 m ρ) c).arrAt 5 cfg0.N

theorem preArr_apply (r : Fin 8192) (o : Fin 4096) :
    preArr m ρ c (ix2 r o)
      = pre (∑ k : Fin 4096, (argX m c (ix2 r k) * Ideal.div cOne (argA m c (ix1 (0 : Fin 1)))) * wq (argW m c (ix2 o k)) (wscale (argW m c) (ix1 o)))
          (bq (argB m c (ix1 o)) (wscale (argW m c) (ix1 o)) (argA m c (ix1 (0 : Fin 1)))) (wscale (argW m c) (ix1 o) * argA m c (ix1 (0 : Fin 1))) := by
  have hs : (afterPrefix (W0 m ρ c) main_v8 : S4096.Idx → EReal) = wscale (argW m c) := scale_at_entry m ρ c
  have hx : ∀ k : Fin 4096, (V7 m ρ c main_arg0 : S8192x4096.Idx → EReal) (ix2 r k) = argX m c (ix2 r k) :=
    fun k => congrFun (prefix_x (W0 m ρ c)) _
  have hinv : (V7 m ρ c main_v25 : S1x128.Idx → EReal) (ix2 (0 : Fin 1) (0 : Fin 128)) = Ideal.div cOne (argA m c (ix1 (0 : Fin 1))) :=
    prefix_inv (W0 m ρ c) 0
  have hw : ∀ k : Fin 4096, (V7 m ρ c main_v21 : S4096x4096.Idx → EReal) (ix2 k o) = wq (argW m c (ix2 o k)) (wscale (argW m c) (ix1 o)) :=
    fun k => (prefix_wq (W0 m ρ c) k o).trans (by rw [hs])
  have hb : (V7 m ρ c main_v23 : S1x4096.Idx → EReal) (ix2 (0 : Fin 1) o) = bq (argB m c (ix1 o)) (wscale (argW m c) (ix1 o)) (argA m c (ix1 (0 : Fin 1))) :=
    (prefix_bq (W0 m ρ c) o).trans (by rw [hs])
  have hbs : (V7 m ρ c main_v22 : S1x4096.Idx → EReal) (ix2 (0 : Fin 1) o) = wscale (argW m c) (ix1 o) * argA m c (ix1 (0 : Fin 1)) :=
    (prefix_bsf (W0 m ρ c) o).trans (by rw [hs])
  refine (preact_array_apply (V7 m ρ) c r o).trans ?_
  rw [hb, hbs]
  refine congrArg (fun d => pre d _ _) (Finset.sum_congr rfl fun k _ => ?_)
  rw [hx k, hinv, hw k]

/-- The precondition's content: every entry of the four arguments is a real number. -/
def RealArgs : Prop :=
  (∀ i, ∃ r : ℝ, argX m c i = (r : EReal)) ∧ (∀ i, ∃ r : ℝ, argA m c i = (r : EReal))
    ∧ (∀ i, ∃ r : ℝ, argW m c i = (r : EReal)) ∧ (∀ i, ∃ r : ℝ, argB m c i = (r : EReal))

/-- The reference's pre-activation of the same arguments. -/
abbrev refPre : S8192x4096.Idx → EReal :=
  Cert.ReferenceIdeal.ReadP.val_main_v33 (F := Ideal) (argX m c) (argA m c) (argW m c) (argB m c)

/-- Both programs compute the weight scale by the same operations. -/
theorem ref_scale_eq : Cert.ReferenceIdeal.ReadP.val_main_v8 (F := Ideal) (argW m c) = wscale (argW m c) := rfl

theorem refPre_apply (r : Fin 8192) (o : Fin 4096) :
    refPre m c (ix2 r o)
      = pre (∑ k : Fin 4096, Ideal.div (argX m c (ix2 r k)) (argA m c (ix1 (0 : Fin 1))) * wqST (argW m c (ix2 o k)) (wscale (argW m c) (ix1 o)))
          (bqST (argB m c (ix1 o)) (wscale (argW m c) (ix1 o)) (argA m c (ix1 (0 : Fin 1)))) (wscale (argW m c) (ix1 o) * argA m c (ix1 (0 : Fin 1))) := by
  refine (Cert.ReferenceIdeal.RefVal.ref_pre (argX m c) (argA m c) (argW m c) (argB m c) r o).trans ?_
  rw [ref_scale_eq]

/-- Entry by entry, the first region's output is the reference's pre-activation. -/
theorem preArr_eq_ref (h : RealArgs m c) (r : Fin 8192) (o : Fin 4096) : preArr m ρ c (ix2 r o) = refPre m c (ix2 r o) := by
  obtain ⟨hX, hA, hW, hB⟩ := h
  rw [preArr_apply, refPre_apply]
  obtain ⟨a, ha⟩ := hA (ix1 (0 : Fin 1))
  obtain ⟨b, hb⟩ := hB (ix1 o)
  obtain ⟨s, hs0, hs⟩ := wscale_pos (argW m c) hW o
  choose fx hfx using hX
  choose fw hfw using hW
  rw [ha, hb, hs]
  simp only [hfx, hfw]
  exact pre_agree (fun k => fx (ix2 r k)) (fun k => fw (ix2 o k)) a b s hs0

/-- The reference's pre-activation is a nonnegative real everywhere. -/
theorem refPre_real (h : RealArgs m c) (i : S8192x4096.Idx) : ∃ r : ℝ, 0 ≤ r ∧ refPre m c i = (r : EReal) := by
  obtain ⟨p, q, rfl⟩ : ∃ (p : Fin 8192) (q : Fin 4096), i = ix2 p q := ⟨i 0, i 1, eq_ix2 i⟩
  obtain ⟨hX, hA, hW, hB⟩ := h
  rw [refPre_apply]
  obtain ⟨a, ha⟩ := hA (ix1 (0 : Fin 1))
  obtain ⟨b, hb⟩ := hB (ix1 q)
  obtain ⟨s, hs0, hs⟩ := wscale_pos (argW m c) hW q
  choose fx hfx using hX
  choose fw hfw using hW
  rw [ha, hb, hs]
  simp only [hfx, hfw]
  exact pre_real (fun k => fx (ix2 p k)) (fun k => fw (ix2 q k)) a b s hs0

/-- The first region's output array IS the reference's pre-activation. -/
theorem preArr_eq (h : RealArgs m c) : preArr m ρ c = refPre m c := by
  funext i
  obtain ⟨p, q, rfl⟩ : ∃ (p : Fin 8192) (q : Fin 4096), i = ix2 p q := ⟨i 0, i 1, eq_ix2 i⟩
  exact preArr_eq_ref m ρ c h p q

/-! ## The greatest value and the scale -/

/-- What the second region leaves in its one-entry output array. -/
abbrev maxM : EReal := ((mxDat (V8 m ρ mmData) c).arrAt 1 cfg1.N : S1x1.Idx → EReal) (ix2 (0 : Fin 1) (0 : Fin 1))

/-- The second region reads the first region's output array. -/
theorem act_at_max : (V8 m ρ mmData c main_v26 : S8192x4096.Idx → EReal) = preArr m ρ c :=
  W8_arr m ρ mmData c 5

theorem maxM_top (h : RealArgs m c) : IsTop (maxM m ρ c) (refPre m c) 0 := by
  have := max_array (V8 m ρ mmData) c
  rw [show (fun i : S8192x4096.Idx => (V8 m ρ mmData c main_v26 : S8192x4096.Idx → EReal) i) = refPre m c from
    (act_at_max m ρ c).trans (preArr_eq m ρ c h)] at this
  exact this

/-- The third region reads the first region's output array too: the second hands it back as entered and the host
    stretch between does not write it. -/
theorem act_at_requant : (V10 m ρ mmData mxData c main_v26 : S8192x4096.Idx → EReal) = preArr m ρ c :=
  (Hand.keep10 m ρ c main_v26 (by decide)).trans <|
    ((W9_arr m ρ mmData mxData c 0).trans (((mxDat (V8 m ρ mmData) c).arrAt_in 0 rfl _).trans (mxDat_A (V8 m ρ mmData) c 0))).trans
      (act_at_max m ρ c)

/-- The scale row the third region reads holds the scale of the greatest value. -/
theorem scale_at_requant : (V10 m ρ mmData mxData c main_v32 : S1x128.Idx → EReal) (ix2 (0 : Fin 1) (0 : Fin 128)) = scaleOf (maxM m ρ c) := by
  refine (mid_scale (W9 m ρ mmData mxData c) 0).trans ?_
  rw [show (W9 m ρ mmData mxData c main_v27 : S1x1.Idx → EReal) = (mxDat (V8 m ρ mmData) c).arrAt 1 cfg1.N from W9_arr m ρ mmData mxData c 1]

/-! ## The three results -/

theorem out_first (h : RealArgs m c) :
    (Wend m ρ c main_v33 : S8192x4096.Idx → EReal) = fun i => requant (refPre m c i) (scaleOf (maxM m ρ c)) := by
  refine (Hand.keep12 m ρ c main_v33 (by decide)).trans ?_
  refine (W11_arr m ρ mmData mxData rqData c 2).trans ?_
  refine (requant_array (V10 m ρ mmData mxData) c).trans ?_
  rw [act_at_requant, scale_at_requant, preArr_eq m ρ c h]
  rfl

theorem out_second : (Wend m ρ c main_v8 : S4096.Idx → EReal) = wscale (argW m c) :=
  (Hand.keep_suffix m ρ c main_v8 (by decide) (by decide) (by decide) (by decide) (by decide)).trans (scale_at_entry m ρ c)

theorem out_third : (Wend m ρ c main_v34 : S1.Idx → EReal) (ix1 (0 : Fin 1)) = scaleOf (maxM m ρ c) := by
  refine (tail_scale (W11 m ρ mmData mxData rqData c)).trans ?_
  rw [show (W11 m ρ mmData mxData rqData c main_v31 : S1x1.Idx → EReal) = W10 m ρ mmData mxData c main_v31 from
    Hand.keep11 m ρ c main_v31 (by decide)]
  refine (mid_scale31 (W9 m ρ mmData mxData c)).trans ?_
  rw [show (W9 m ρ mmData mxData c main_v27 : S1x1.Idx → EReal) = (mxDat (V8 m ρ mmData) c).arrAt 1 cfg1.N from W9_arr m ρ mmData mxData c 1]

/-! ## Against the reference's results -/

open Cert.ReferenceIdeal.ReadP Cert.ReferenceIdeal.RefVal in
/-- The first result: the kernel's requantized array is the reference's. -/
theorem first_eq (h : RealArgs m c) :
    (Wend m ρ c main_v33 : S8192x4096.Idx → EReal) = val_main_v55 (F := Ideal) (argX m c) (argA m c) (argW m c) (argB m c) := by
  rw [out_first m ρ c h]
  funext i
  obtain ⟨p, q, rfl⟩ : ∃ (p : Fin 8192) (q : Fin 4096), i = ix2 p q := ⟨i 0, i 1, eq_ix2 i⟩
  rw [ref_out (argX m c) (argA m c) (argW m c) (argB m c) p q, ref_scale (argX m c) (argA m c) (argW m c) (argB m c)]
  exact ((requant_agree (refPre m c) (refPre_real m c h) (maxM_top m ρ c h)
    (ref_max (argX m c) (argA m c) (argW m c) (argB m c)) (ref_min (argX m c) (argA m c) (argW m c) (argB m c))).2 (ix2 p q)).symm

open Cert.ReferenceIdeal.ReadP Cert.ReferenceIdeal.RefVal in
/-- The third result: the one-entry scale array. -/
theorem third_eq (h : RealArgs m c) :
    (Wend m ρ c main_v34 : S1.Idx → EReal) = val_main_v56 (F := Ideal) (argX m c) (argA m c) (argW m c) (argB m c) := by
  funext i
  obtain rfl : i = ix1 (0 : Fin 1) := (eq_ix1 i).trans (congrArg ix1 (Fin.ext (Nat.lt_one_iff.mp (i 0).isLt)))
  rw [out_third, ref_third (argX m c) (argA m c) (argW m c) (argB m c), ref_scale (argX m c) (argA m c) (argW m c) (argB m c)]
  exact ((requant_agree (refPre m c) (refPre_real m c h) (maxM_top m ρ c h)
    (ref_max (argX m c) (argA m c) (argW m c) (argB m c)) (ref_min (argX m c) (argA m c) (argW m c) (argB m c))).1).symm

end Cert.KernelIdeal.Val

end
-- ==== Proof.lean ====
/-
  The certificate: the word-level kernel program and its idealization run to the end leaving their arguments as
  launched (each region's body run at every grid point, the regions and the host stretches between them composed in
  order), the reference runs likewise, and at the extended reals the idealized kernel program and the reference
  end with equal results: the per-channel weight scale is one function of W in both; the rectified, rescaled
  accumulator agrees entry by entry although one program divides the activations by the scale a and rounds by the
  straight-through form where the other multiplies by 1/a and rounds directly; the greatest entry, hence the output
  scale, is the same; and the requantized array agrees because the reference's zero point is 0.
-/
import proofs.«124374_j73735998538084_1_alg».proof.Defs
import proofs.«124374_j73735998538084_1_alg».proof.Proof.Gen.Kernel
import proofs.«124374_j73735998538084_1_alg».proof.Proof.Gen.KernelIdeal
import proofs.«124374_j73735998538084_1_alg».proof.Proof.Gen.ReferenceIdeal
import proofs.«124374_j73735998538084_1_alg».proof.Proof.Gen.Pre_finite_inputs
import proofs.«124374_j73735998538084_1_alg».proof.Proof.KB.Inst
import proofs.«124374_j73735998538084_1_alg».proof.Proof.KI.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

open Cert.KernelIdeal Cert.KernelIdeal.Hand Cert.KernelIdeal.Val in
/-- Under the precondition every argument entry is real, and then the two programs' three results agree. -/
theorem algebraic : Cert.algebraic_KernelIdeal_ReferenceIdeal := by
  intro m ρ m' ρ' hpre hagree
  have hreal : ∀ c, RealArgs m c := fun c => Cert.PreReal.real_of_pre _ _ _ _ (hpre c)
  refine ⟨fun c => Wend m ρ c main_v33, fun c => Wend m ρ c main_v8, fun c => Wend m ρ c main_v34, ?_, ?_⟩
  · exact (θ_run Cert.KernelIdeal.defs _ _).mono (fun _ h c =>
      ⟨h c _ (mem_uc main_v33 (by decide)), h c _ (mem_uc main_v8 (by decide)), h c _ (mem_uc main_v34 (by decide)),
       (h c _ (mem_uc main_arg0 (by decide))).trans (Wend_arg0 m ρ c), (h c _ (mem_uc main_arg1 (by decide))).trans (Wend_arg1 m ρ c),
       (h c _ (mem_uc main_arg2 (by decide))).trans (Wend_arg2 m ρ c), (h c _ (mem_uc main_arg3 (by decide))).trans (Wend_arg3 m ρ c)⟩)
      (run_vals m ρ)
  · refine (θ_run Cert.ReferenceIdeal.defs _ _).mono (fun _ h c => ?_) (Cert.ReferenceIdeal.ValueP.run (F := Ideal) m' ρ')
    obtain ⟨h55, h8, h56, ha0, ha1, ha2, ha3⟩ := h c
    obtain ⟨e0, e1, e2, e3⟩ := hagree c
    refine ⟨h55.trans ?_, h8.trans ?_, h56.trans ?_, ha0, ha1, ha2, ha3⟩
    · rw [Cert.ReferenceIdeal.ReadP.val_main_v55_eq, e0, e1, e2, e3]
      exact (first_eq m ρ c (hreal c)).symm
    · rw [e2]
      exact (out_second m ρ c).symm
    · rw [Cert.ReferenceIdeal.ReadP.val_main_v56_eq, e0, e1, e2, e3]
      exact (third_eq m ρ c (hreal c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
